-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  main_v3
-- ==== Kernel.lean ====
abbrev S4096x4096 : Shape := ⟨2, ![4096, 4096]⟩
abbrev S2x1x4096 : Shape := ⟨3, ![2, 1, 4096]⟩
abbrev S1x4096 : Shape := ⟨2, ![1, 4096]⟩
abbrev S512x2048 : Shape := ⟨2, ![512, 2048]⟩
abbrev S1x1x512 : Shape := ⟨3, ![1, 1, 512]⟩
abbrev S1x2048 : Shape := ⟨2, ![1, 2048]⟩
abbrev S8x2048 : Shape := ⟨2, ![8, 2048]⟩
abbrev S8x512 : Shape := ⟨2, ![8, 512]⟩
abbrev S1x512 : Shape := ⟨2, ![1, 512]⟩
abbrev S2048 : Shape := ⟨1, ![2048]⟩
abbrev S1x1x4096 : Shape := ⟨3, ![1, 1, 4096]⟩
abbrev S4096 : Shape := ⟨1, ![4096]⟩
abbrev S_ : Shape := ⟨0, ![]⟩
abbrev S4096x1 : Shape := ⟨2, ![4096, 1]⟩
abbrev S512x512 : Shape := ⟨2, ![512, 512]⟩
abbrev S512x1 : Shape := ⟨2, ![512, 1]⟩

abbrev nBuf : Space → Nat
  | .hbm => 27
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S2x1x4096, .f32⟩
  | .hbm, ⟨2, _⟩ => ⟨S1x4096, .f32⟩
  | .hbm, ⟨3, _⟩ => ⟨S1x1x4096, .f32⟩
  | .hbm, ⟨4, _⟩ => ⟨S4096, .f32⟩
  | .hbm, ⟨5, _⟩ => ⟨S1x1x4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .i1⟩
  | .hbm, ⟨19, _⟩ => ⟨S4096, .f32⟩
  | .hbm, ⟨20, _⟩ => ⟨S_, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096x1, .f32⟩
  | .hbm, ⟨25, _⟩ => ⟨S1x4096, .f32⟩
  | .hbm, ⟨26, _⟩ => ⟨S4096x4096, .f32⟩
  | .local _ .vmem, ⟨0, _⟩ => ⟨S512x2048, .f32⟩
  | .local _ .vmem, ⟨1, _⟩ => ⟨S512x2048, .f32⟩
  | .local _ .vmem, ⟨2, _⟩ => ⟨S1x1x512, .f32⟩
  | .local _ .vmem, ⟨3, _⟩ => ⟨S1x1x512, .f32⟩
  | .local _ .vmem, ⟨4, _⟩ => ⟨S1x2048, .f32⟩
  | .local _ .vmem, ⟨5, _⟩ => ⟨S1x2048, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1, .f32⟩
  | .local _ .vmem, ⟨11, _⟩ => ⟨S512x1, .f32⟩
  | .local _ .vmem, ⟨12, _⟩ => ⟨S1x512, .f32⟩
  | .local _ .vmem, ⟨13, _⟩ => ⟨S1x512, .f32⟩
  | .local _ .vmem, ⟨14, _⟩ => ⟨S512x512, .f32⟩
  | .local _ .vmem, ⟨15, _⟩ => ⟨S512x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S512x2048_S512x2048_0_0 : ∀ a, (![0, 0] : Fin 2 → Nat) a + S512x2048.size a ≤ S512x2048.size a
  h_S512x2048 : 0 < S512x2048.numel
  slices_S8x512_o0_0_S1x512 : S8x512.Slices ![0, 0] S1x512
  shapeCasts_S1x512_S1x1x512 : S1x512.ShapeCasts S1x1x512
  inb_S1x1x512_S1x1x512_0_0_0 : ∀ a, (![0, 0, 0] : Fin 3 → Nat) a + S1x1x512.size a ≤ S1x1x512.size a
  h_S1x1x512 : 0 < S1x1x512.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S512x2048_S2048 : S512x2048.Reduces [0] S2048
  shapeCasts_S2048_S1x2048 : S2048.ShapeCasts S1x2048
  slices_S2x1x4096_S1x1x4096_0_0_0 : S2x1x4096.Slices ![0, 0, 0] S1x1x4096
  shapeCasts_S1x1x4096_S4096 : S1x1x4096.ShapeCasts S4096
  slices_S2x1x4096_S1x1x4096_1_0_0 : S2x1x4096.Slices ![1, 0, 0] S1x1x4096
  shapeCasts_S1x4096_S4096 : S1x4096.ShapeCasts S4096
  bcast_S_S4096 : S_.BroadcastsInDim S4096 (![] : Fin 0 → Fin S4096.rank)
  shapeCasts_S4096_S4096x1 : S4096.ShapeCasts S4096x1
  shapeCasts_S4096_S1x4096 : S4096.ShapeCasts S1x4096
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  iota_S512x512_d0_w32 : S512x512.Iotas .tc 32 [0]
  iota_S512x512_d1_w32 : S512x512.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x512 : S512x1.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S8x2048_S512x2048_S8x512_1_1_0_0_n_n_wf : DotDims.WF S8x2048 S512x2048 S8x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x4096.size a
  hwx0_0 : ∀ i : grid0.Coords, EltTy.bits .f32 = 32 ∨ (Rect.block (s := S4096x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S2x1x4096.size a
  hwx0_1 : ∀ i : grid0.Coords, EltTy.bits .f32 = 32 ∨ (Rect.block (s := S2x1x4096) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x4096.size a
  hwx1_0 : ∀ i : grid1.Coords, EltTy.bits .f32 = 32 ∨ (Rect.block (s := S4096x4096) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x4096.size a
  hwx1_1 : ∀ i : grid1.Coords, EltTy.bits .f32 = 32 ∨ (Rect.block (s := S4096x4096) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .f32 = 32 ∨ (Rect.block (s := S1x4096) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S4096x4096.size a
  hwx1_4 : ∀ i : grid1.Coords, EltTy.bits .f32 = 32 ∨ (Rect.block (s := S4096x4096) S512x512.size (cc1_transform_4 i) (hinb1_4 i)).WholeWords (EltTy.packing .f32)

variable [Facts₀]

def dot_S8x2048_S512x2048_S8x512_1_1_0_0_n_n : DotDims S8x2048 S512x2048 S8x512 where
  lhsContracting := [1]
  rhsContracting := [1]
  lhsNonContracting := [0]
  rhsNonContracting := [0]
  lhsBatch := []
  rhsBatch := []
  wf := dot_S8x2048_S512x2048_S8x512_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v18) S512x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S_ : Shape := ⟨0, ![]⟩
abbrev S4096x1 : Shape := ⟨2, ![4096, 1]⟩
abbrev S256x1024 : Shape := ⟨2, ![256, 1024]⟩
abbrev S256x1 : Shape := ⟨2, ![256, 1]⟩
abbrev S256 : Shape := ⟨1, ![256]⟩
abbrev S1x4096 : Shape := ⟨2, ![1, 4096]⟩
abbrev S1x1024 : Shape := ⟨2, ![1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x1, .f32⟩
  | .hbm, ⟨7, _⟩ => ⟨S1x4096, .f32⟩
  | .hbm, ⟨8, _⟩ => ⟨S4096x4096, .f32⟩
  | .local _ .vmem, ⟨0, _⟩ => ⟨S256x1024, .f32⟩
  | .local _ .vmem, ⟨1, _⟩ => ⟨S256x1024, .f32⟩
  | .local _ .vmem, ⟨2, _⟩ => ⟨S256x1, .f32⟩
  | .local _ .vmem, ⟨3, _⟩ => ⟨S256x1, .f32⟩
  | .local _ .vmem, ⟨4, _⟩ => ⟨S256x1024, .f32⟩
  | .local _ .vmem, ⟨5, _⟩ => ⟨S256x1024, .f32⟩
  | .local _ .vmem, ⟨6, _⟩ => ⟨S256x1, .f32⟩
  | .local _ .vmem, ⟨7, _⟩ => ⟨S256x1, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S4096x4096_S4096x4096_1_0 : S4096x4096.Transposes [1, 0] S4096x4096
  bcast_S_S4096x4096 : S_.BroadcastsInDim S4096x4096 (![] : Fin 0 → Fin S4096x4096.rank)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  shapeCasts_S4096x1_S1x4096 : S4096x1.ShapeCasts S1x4096
  iota_S256x1024_d0_w32 : S256x1024.Iotas .tc 32 [0]
  iota_S256x1024_d1_w32 : S256x1024.Iotas .tc 32 [1]
  broadcasts_S256x1_S256x1024 : S256x1.Broadcasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x4096.size a
  hwx0_0 : ∀ i : grid0.Coords, EltTy.bits .f32 = 32 ∨ (Rect.block (s := S4096x4096) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .f32 = 32 ∨ (Rect.block (s := S4096x1) S256x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x4096.size a
  hwx1_0 : ∀ i : grid1.Coords, EltTy.bits .f32 = 32 ∨ (Rect.block (s := S4096x4096) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S4096x1.size a
  hwx1_1 : ∀ i : grid1.Coords, EltTy.bits .f32 = 32 ∨ (Rect.block (s := S4096x1) S256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S4096x4096.size a
  hwx1_3 : ∀ i : grid1.Coords, EltTy.bits .f32 = 32 ∨ (Rect.block (s := S4096x4096) S256x1024.size (cc1_transform_3 i) (hinb1_3 i)).WholeWords (EltTy.packing .f32)

variable [Facts₀]

abbrev win0_0 : Pipeline.Window sig grid0 :=
  Pipeline.Window.ofSpec (Memref.whole main_v3) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v3) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.KBReg0.lean ====
/-
  The first kernel of the program (the sums pass) at ANY contents `V` of the buffers when its region is entered.

  The pass walks the 4096 × 4096 input in strips of 512 rows by 2048 columns, a 2 × 8 grid: the column half `c` is the
  slow coordinate, the row strip `i` the fast one (point `t` has `c = t / 8`, `i = t % 8`).  At each point it is handed the
  input strip, a 1 × 1 × 512 block of the per-half row sums (block `(c, 0, i)`: a new block at every point, written back
  at every point) and the 1 × 2048 block `(0, c)` of the column sums, which STAYS IN PLACE over the eight points of a
  half and is written back after the eighth.  The body overwrites the row-sum block whole; on the first point of a half
  (`i = 0`) it clears the column-sum block and then adds the strip's column sums to it, on the other points it adds them
  to what the point before left.  So the body has two cases, and the column-sum block after point `t` is a function of
  the input strip and, off the first point of a half, of what the point before left there.
-/
import proofs.«104055_g2000603544188606_pallasbulk_177_3_alg».proof.Proof.Gen.Kernel.Launch
import proofs.«104055_g2000603544188606_pallasbulk_177_3_alg».proof.Proof.Gen.Kernel.Skeleton
import proofs.«104055_g2000603544188606_pallasbulk_177_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's one conditional (first point of a half), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8): decided over the sixteen points. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The body on any staging memrefs, case by case -/

/-- One staging buffer of each output window, through which its contents are stated (the choice does not matter). -/
abbrev VO0_1 : View sig .tc .vmem S1x1x512 .f32 := (Memref.whole cc0_stg1_0 : Memref sig .tc .vmem S1x1x512 .f32).view
abbrev VO0_2 : View sig .tc .vmem S1x2048 .f32 := (Memref.whole cc0_stg2_0 : Memref sig .tc .vmem S1x2048 .f32).view
/-- Each window's current staging memref at point `t`, spelled as the pipeline passes it, and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)

set_option maxHeartbeats 1000000 in
/-- What the body's stores leave in each output's staging memref, as pieces (last first), ON THE FIRST POINT OF A HALF
    (the conditional taken), with the proof that on whole staging memrefs — the input's at its contents, the outputs' at
    anything — the body runs to the continuation holding the input's as it was and each output's buffer with its pieces
    written. The pieces are the witness the run finds. -/
noncomputable def kernelRun0_A (c : Dev nD) (i : grid0.Coords) (arg2 : Memref sig .tc .vmem S512x2048 .f32) (harg2 : arg2.IsWhole) (arg3 : Memref sig .tc .vmem S1x1x512 .f32) (harg3 : arg3.IsWhole) (arg4 : Memref sig .tc .vmem S1x2048 .f32) (harg4 : arg4.IsWhole) (hc0 : cond0_0 i)
    (x0 : Vec F S512x2048 .f32) :
    Σ' (L1 : List (View.Piece (Elt F) S1x1x512 .f32)), { L2 : List (View.Piece (Elt F) S1x2048 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)) -∗ K ⟨⟩))
          ⊢ wp frame (wpE (defs₀ (F := F)) Variants.none c none) E (cc0__sums_kernel i arg2 harg2 arg3 harg3 arg4 harg4) K } := by
  refine ⟨?_, ?_, fun E K => ?run⟩
  case run =>
    simp only [cc0__sums_kernel_eq_skeleton]; unfold cc0__sums_kernel_skel
    unfold owns
    iintro ⟨⟨%f0, %hf0, H0⟩, ⟨%d1, %f1, -, H1⟩, ⟨%d2, %f2, -, H2⟩, Hk⟩
    obtain rfl := harg2.eq_unread hf0
    sl_exec (disch := first | exact hc0)
    sl_step
    iapply Hk
    isplitl [H0]
    · iexists _; isplitr; · ipureintro; exact harg2.read_unread _
      iexact H0
    isplitl [H1]
    · iexists _; iexact H1
    iexists _; iexact H2

/-- The first-point pieces of each output tile its block, so they cover it. -/
theorem cover0_A_1 (c : Dev nD) (i : grid0.Coords) (arg2 : Memref sig .tc .vmem S512x2048 .f32) (harg2 : arg2.IsWhole) (arg3 : Memref sig .tc .vmem S1x1x512 .f32) (harg3 : arg3.IsWhole) (arg4 : Memref sig .tc .vmem S1x2048 .f32) (harg4 : arg4.IsWhole) (hc0 : cond0_0 i)
    (x0 : Vec F S512x2048 .f32) (y : S1x1x512.Idx) :
    ∃ pc ∈ (kernelRun0_A c i arg2 harg2 arg3 harg3 arg4 harg4 hc0 x0).1, y ∈ pc.1.set :=
  View.cover_of_tiledL (kernelRun0_A c i arg2 harg2 arg3 harg3 arg4 harg4 hc0 x0).1 S1x1x512.size (by sl_kernel_rfl) y
theorem cover0_A_2 (c : Dev nD) (i : grid0.Coords) (arg2 : Memref sig .tc .vmem S512x2048 .f32) (harg2 : arg2.IsWhole) (arg3 : Memref sig .tc .vmem S1x1x512 .f32) (harg3 : arg3.IsWhole) (arg4 : Memref sig .tc .vmem S1x2048 .f32) (harg4 : arg4.IsWhole) (hc0 : cond0_0 i)
    (x0 : Vec F S512x2048 .f32) (y : S1x2048.Idx) :
    ∃ pc ∈ (kernelRun0_A c i arg2 harg2 arg3 harg3 arg4 harg4 hc0 x0).2.1, y ∈ pc.1.set :=
  View.cover_of_tiledL (kernelRun0_A c i arg2 harg2 arg3 harg3 arg4 harg4 hc0 x0).2.1 S1x2048.size (by sl_kernel_rfl) y

/-- What the first point of a half leaves in each output's staging buffer: its pieces read back over junk. -/
def out0_A_1 (c : Dev nD) (i : grid0.Coords) (arg2 : Memref sig .tc .vmem S512x2048 .f32) (harg2 : arg2.IsWhole) (arg3 : Memref sig .tc .vmem S1x1x512 .f32) (harg3 : arg3.IsWhole) (arg4 : Memref sig .tc .vmem S1x2048 .f32) (harg4 : arg4.IsWhole) (hc0 : cond0_0 i)
    (x0 : Vec F S512x2048 .f32) : Vec F S1x1x512 .f32 :=
  VO0_1.read (Elt F) (VO0_1.writes (Elt F) VO0_1.junk (kernelRun0_A c i arg2 harg2 arg3 harg3 arg4 harg4 hc0 x0).1)
def out0_A_2 (c : Dev nD) (i : grid0.Coords) (arg2 : Memref sig .tc .vmem S512x2048 .f32) (harg2 : arg2.IsWhole) (arg3 : Memref sig .tc .vmem S1x1x512 .f32) (harg3 : arg3.IsWhole) (arg4 : Memref sig .tc .vmem S1x2048 .f32) (harg4 : arg4.IsWhole) (hc0 : cond0_0 i)
    (x0 : Vec F S512x2048 .f32) : Vec F S1x2048 .f32 :=
  VO0_2.read (Elt F) (VO0_2.writes (Elt F) VO0_2.junk (kernelRun0_A c i arg2 harg2 arg3 harg3 arg4 harg4 hc0 x0).2.1)

set_option maxHeartbeats 1000000 in
/-- The same OFF the first point of a half (the conditional not taken): the column-sum block is read before it is covered,
    so its memref is taken at its running contents `xo2`. -/
noncomputable def kernelRun0_B (c : Dev nD) (i : grid0.Coords) (arg2 : Memref sig .tc .vmem S512x2048 .f32) (harg2 : arg2.IsWhole) (arg3 : Memref sig .tc .vmem S1x1x512 .f32) (harg3 : arg3.IsWhole) (arg4 : Memref sig .tc .vmem S1x2048 .f32) (harg4 : arg4.IsWhole) (hc0 : ¬cond0_0 i)
    (x0 : Vec F S512x2048 .f32) (xo2 : Vec F S1x2048 .f32) :
    Σ' (L1 : List (View.Piece (Elt F) S1x1x512 .f32)), { L2 : List (View.Piece (Elt F) S1x2048 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xo2
            ∗ (iprop(owns (c : Thread nD τ) arg2 fullShare x0 ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)) -∗ K ⟨⟩))
          ⊢ wp frame (wpE (defs₀ (F := F)) Variants.none c none) E (cc0__sums_kernel i arg2 harg2 arg3 harg3 arg4 harg4) K } := by
  refine ⟨?_, ?_, fun E K => ?run⟩
  case run =>
    simp only [cc0__sums_kernel_eq_skeleton]; unfold cc0__sums_kernel_skel
    unfold owns
    iintro ⟨⟨%f0, %hf0, H0⟩, ⟨%d1, %f1, -, H1⟩, ⟨%f2, %hf2, H2⟩, Hk⟩
    obtain rfl := harg2.eq_unread hf0; obtain rfl := harg4.eq_unread hf2
    sl_exec (disch := first | exact hc0)
    sl_step
    iapply Hk
    isplitl [H0]
    · iexists _; isplitr; · ipureintro; exact harg2.read_unread _
      iexact H0
    isplitl [H1]
    · iexists _; iexact H1
    iexists _; iexact H2

theorem cover0_B_1 (c : Dev nD) (i : grid0.Coords) (arg2 : Memref sig .tc .vmem S512x2048 .f32) (harg2 : arg2.IsWhole) (arg3 : Memref sig .tc .vmem S1x1x512 .f32) (harg3 : arg3.IsWhole) (arg4 : Memref sig .tc .vmem S1x2048 .f32) (harg4 : arg4.IsWhole) (hc0 : ¬cond0_0 i)
    (x0 : Vec F S512x2048 .f32) (xo2 : Vec F S1x2048 .f32) (y : S1x1x512.Idx) :
    ∃ pc ∈ (kernelRun0_B c i arg2 harg2 arg3 harg3 arg4 harg4 hc0 x0 xo2).1, y ∈ pc.1.set :=
  View.cover_of_tiledL (kernelRun0_B c i arg2 harg2 arg3 harg3 arg4 harg4 hc0 x0 xo2).1 S1x1x512.size (by sl_kernel_rfl) y
theorem cover0_B_2 (c : Dev nD) (i : grid0.Coords) (arg2 : Memref sig .tc .vmem S512x2048 .f32) (harg2 : arg2.IsWhole) (arg3 : Memref sig .tc .vmem S1x1x512 .f32) (harg3 : arg3.IsWhole) (arg4 : Memref sig .tc .vmem S1x2048 .f32) (harg4 : arg4.IsWhole) (hc0 : ¬cond0_0 i)
    (x0 : Vec F S512x2048 .f32) (xo2 : Vec F S1x2048 .f32) (y : S1x2048.Idx) :
    ∃ pc ∈ (kernelRun0_B c i arg2 harg2 arg3 harg3 arg4 harg4 hc0 x0 xo2).2.1, y ∈ pc.1.set :=
  View.cover_of_tiledL (kernelRun0_B c i arg2 harg2 arg3 harg3 arg4 harg4 hc0 x0 xo2).2.1 S1x2048.size (by sl_kernel_rfl) y

def out0_B_1 (c : Dev nD) (i : grid0.Coords) (arg2 : Memref sig .tc .vmem S512x2048 .f32) (harg2 : arg2.IsWhole) (arg3 : Memref sig .tc .vmem S1x1x512 .f32) (harg3 : arg3.IsWhole) (arg4 : Memref sig .tc .vmem S1x2048 .f32) (harg4 : arg4.IsWhole) (hc0 : ¬cond0_0 i)
    (x0 : Vec F S512x2048 .f32) (xo2 : Vec F S1x2048 .f32) : Vec F S1x1x512 .f32 :=
  VO0_1.read (Elt F) (VO0_1.writes (Elt F) VO0_1.junk (kernelRun0_B c i arg2 harg2 arg3 harg3 arg4 harg4 hc0 x0 xo2).1)
def out0_B_2 (c : Dev nD) (i : grid0.Coords) (arg2 : Memref sig .tc .vmem S512x2048 .f32) (harg2 : arg2.IsWhole) (arg3 : Memref sig .tc .vmem S1x1x512 .f32) (harg3 : arg3.IsWhole) (arg4 : Memref sig .tc .vmem S1x2048 .f32) (harg4 : arg4.IsWhole) (hc0 : ¬cond0_0 i)
    (x0 : Vec F S512x2048 .f32) (xo2 : Vec F S1x2048 .f32) : Vec F S1x2048 .f32 :=
  VO0_2.read (Elt F) (VO0_2.writes (Elt F) VO0_2.junk (kernelRun0_B c i arg2 harg2 arg3 harg3 arg4 harg4 hc0 x0 xo2).2.1)

/-! ## What the outputs hold after each point -/

/-- THE ACCUMULATION. What the two outputs' staging buffers hold after the body at position `n`: the case the closed form
    selects at `n`, run at the point's memrefs and input block; off the first point of a half the column-sum block is read
    at what this leaves at `n - 1` (its buffer is not written back between). -/
def outsAt0 (c : Dev nD) : (n : ℕ) → n < cfg0.N → Vec F S1x1x512 .f32 × Vec F S1x2048 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩),
              out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩))
  | n + 1, hn =>
    if h0 : (n + 1) % 8 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩),
       out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).2,
       out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).2)

/-- `outsAt0` at the first point of a half: that case's contents. -/
theorem outsAt0_A (c : Dev nD) (t : Fin cfg0.N) (h0 : t.val % 8 = 0) :
    outsAt0 V c t.val t.isLt = (out0_A_1 c (grid0.coords t) (ms0_0 t) (hs0_0 t) (ms0_1 t) (hs0_1 t) (ms0_2 t) (hs0_2 t) ((hcond0_0 t).mpr h0) (iblk0 V c 0 t),
      out0_A_2 c (grid0.coords t) (ms0_0 t) (hs0_0 t) (ms0_1 t) (hs0_1 t) (ms0_2 t) (hs0_2 t) ((hcond0_0 t).mpr h0) (iblk0 V c 0 t)) := by
  obtain ⟨n, hn⟩ := t
  cases n with
  | zero => exact rfl
  | succ n => exact (dif_pos h0).trans rfl

/-- `outsAt0` off the first point of a half: that case's contents, over what the point before left. -/
theorem outsAt0_B (c : Dev nD) (t : Fin cfg0.N) (h0 : ¬t.val % 8 = 0) :
    outsAt0 V c t.val t.isLt = (out0_B_1 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).2,
      out0_B_2 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pass on core `c`: the arrays as the region finds them; after the body at point `t` the input's
    buffer at its block and the outputs' at `outsAt0`; the scoped rest and the generator register as the invariant; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
/-- Off the first point of a half the column-sum window's current staging buffer holds what the body left at the point
    before: the point is not the first, the buffer was not written back between, the window is live and uncut. -/
theorem before0_2_B (c : Dev nD) (t : Fin cfg0.N) (h0 : ¬t.val % 8 = 0) (d) :
    (dat0 V c).before 2 t d = (outsAt0 V c (t.val - 1) (Nat.lt_of_le_of_lt (Nat.sub_le _ _) t.isLt)).2 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1200000 in
/-- The body at any point: the input's memref holds its block; the closed form says which case the point is in; off the
    first point of a half the column-sum buffer holds what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  have hN : t.val < 16 := lt_of_lt_of_eq t.isLt (show cfg0.N = 16 from N_0)
  by_cases h0 : t.val % 8 = 0
  · rw [outsAt0_A V c t h0]
    dsimp only
    unfold out0_A_1 out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _)
    · unfold owns; iexists _; isplitr
      swap; · iexact H2
      ipureintro; exact View.read_writes_of_cover _ _ _ _ _ (cover0_A_2 c _ _ _ _ _ _ _ _ _)
  · rw [outsAt0_B V c t h0]
    dsimp only
    simp only [before0_2_B V c t h0]
    unfold out0_B_1 out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) _).2.2 Set.univ _)
    isplitl [H0]; · iexact H0
    isplitl [H1]; · iexists _; iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _)
    · unfold owns; iexists _; isplitr
      swap; · iexact H2
      ipureintro; exact View.read_writes_of_cover _ _ _ _ _ (cover0_B_2 c _ _ _ _ _ _ _ _ _ _)

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.KF

end
-- ==== Proof.KBReg1.lean ====
/-
  The second kernel of the program (the scaling pass) at ANY contents `V` of the buffers when its region is entered.

  The pass walks the 4096 × 4096 result in 512 × 512 blocks, an 8 × 8 grid.  At block `(i, j)` it is handed five
  staged blocks: block `(i, j)` of the input matrix, block `(j, i)` of the SAME matrix (two windows on one array),
  rows `512 i …` of the column of scales, columns `512 j …` of the row of scales, and the result block `(i, j)`,
  which it overwrites whole with one store.  So what the point leaves in the result's staging buffer is one function
  `outBlk` of the four input blocks and the grid position (the payload reads the position: the diagonal test).
  The proof data says: every input block is as the array holds it, the result block is `outBlk` of them; the input
  matrix's array is held at two half shares, one per window that reads it, every other array at the full share.
-/
import proofs.«104055_g2000603544188606_pallasbulk_177_3_alg».proof.Proof.Gen.Kernel.Launch
import proofs.«104055_g2000603544188606_pallasbulk_177_3_alg».proof.Proof.Gen.Kernel.Skeleton
import proofs.«104055_g2000603544188606_pallasbulk_177_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x512 := Rect.unit (s := S512x512) ![0, 0] S512x512.size inb_S512x512_S512x512_0_0
abbrev r1_2 : Rect S512x1 := Rect.unit (s := S512x1) ![0, 0] S512x1.size inb_S512x1_S512x1_0_0
abbrev r1_3 : Rect S1x512 := Rect.unit (s := S1x512) ![0, 0] S1x512.size inb_S1x512_S1x512_0_0

/-! ## What the body leaves in the result window's buffer -/

/-- The result window's staging buffer after the body at grid position `i`, from the four input blocks: its one store. -/
def outBlk (i : grid1.Coords) (x0 : Vec F S512x512 .f32) (x1 : Vec F S512x512 .f32) (x2 : Vec F S512x1 .f32) (x3 : Vec F S1x512 .f32) : Vec F S512x512 .f32 :=
  View.canon [⟨r1_0, k1_pay1 i (View.ld x0 r1_0) (View.ld x1 r1_0) (View.ld x2 r1_2) (View.ld x3 r1_3)⟩]

/-- One store of the whole block covers it. -/
theorem cover1_4 (p0 : Vec F S512x512 .f32) (y : S512x512.Idx) :
    ∃ pc ∈ ([⟨r1_0, p0⟩] : List (View.Piece (Elt F) S512x512 .f32)), y ∈ pc.1.set :=
  View.cover_of_tiled [⟨r1_0, p0⟩] S512x512.size (by rfl) y

/-! ## The body's triple -/

set_option maxHeartbeats 1000000 in
/-- The body on whole staging memrefs, the inputs' at read contents and the result's at anything, runs to the continuation
    holding the inputs' as they were and the result's at `outBlk` of them. -/
theorem sound_kernel1 (c : Dev nD) (E : Set ℕ) (i : grid1.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole)
    (x0 : Vec F S512x512 .f32) (x1 : Vec F S512x512 .f32) (x2 : Vec F S512x1 .f32) (x3 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outBlk i x0 x1 x2 x3)) -∗ K ⟨⟩))
      ⊢ wp frame (wpE (defs₀ (F := F)) Variants.none c none) E (cc1__scale_kernel i arg2 harg2 arg3 harg3 arg4 harg4 arg5 harg5 arg6 harg6) K := by
  simp only [cc1__scale_kernel_eq_skeleton]; unfold cc1__scale_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the pass on core `c`: the arrays as the region finds them; after the body at point `t` each input's
    buffer at its block and the result's at `outBlk` of the input blocks; the scoped rest and the generator register as the
    invariant; nothing owed; the input matrix's array at one half share per window that reads it, the others full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outBlk (grid1.coords t) (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outBlk (grid1.coords t) (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the triple applies; the invariant and the core's dues
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.KF

end
-- ==== Proof.KBShare.lean ====
/-
  The scaling pass's arrays at its region's two ends, when two of its windows read ONE array.

  Between kernels a core holds every unscoped buffer whole, at the full share.  The scaling pass has five windows on
  FOUR buffers: the input matrix is read through two windows (block `(i, j)` and block `(j, i)`), the two scale vectors
  through one each, the result is written through the fifth.  The pipeline wants one points-to per WINDOW.  So on entry
  the matrix's full share is cut into its left and right halves, one per window (both at the contents the region
  finds), the other three buffers go to their windows whole, and the buffers no window names are the rest.  On exit the
  two halves — still at the entry contents: input windows are never written back — are joined again, the result's
  buffer is held at what the write-backs left, and with the untouched rest that is every unscoped buffer again.
-/
import proofs.«104055_g2000603544188606_pallasbulk_177_3_alg».proof.Proof.KBReg1

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The four buffers and the five windows, one by one -/

/-- The buffers behind the pass's five windows are four: the matrix (behind two windows), the two scale vectors, the result. -/
theorem img1 : Finset.univ.image (Pipeline.arrRef spec1) = ([main_arg0, main_v16, main_v17, main_v18] : List (Ref sig .tc)).toFinset := by decide

/-- The result's buffer is one of them. -/
theorem main_v18_mem1 : main_v18 ∈ Finset.univ.image (Pipeline.arrRef spec1) := by decide

/-- The distinct buffers behind the windows, each whole at the full share at contents `W`, conjoined one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg0) ↦{fullShare} W main_arg0) ∗ (((c : Thread nD τ).loc main_v16) ↦{fullShare} W main_v16)
          ∗ (((c : Thread nD τ).loc main_v17) ↦{fullShare} W main_v17) ∗ (((c : Thread nD τ).loc main_v18) ↦{fullShare} W main_v18)) := by
  unfold Pipeline.arrBufs
  exact bigSep_eq_bigSepL_of_eq [main_arg0, main_v16, main_v17, main_v18] img1 (by decide) _

/-- The windowed arrays at contents `G`, conjoined window by window. Every window's array is a whole buffer, so its
    element set is all of the buffer; the two windows on the matrix hold it at the left and the right half of the full
    share, the scale vectors' windows and the result's hold theirs at the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg0) ↦{fullShare.left} G 0) ∗ (((c : Thread nD τ).loc main_arg0) ↦{fullShare.right} G 1)
          ∗ (((c : Thread nD τ).loc main_v16) ↦{fullShare} G 2) ∗ (((c : Thread nD τ).loc main_v17) ↦{fullShare} G 3)
          ∗ (((c : Thread nD τ).loc main_v18) ↦{fullShare} G 4)) := by
  unfold Dat.arrays
  rw [bigSep_W1]
  -- windows 0 and 1 name the same whole memref: one rewriting turns both element sets into the whole buffer
  rw [(arr_whole1 0).set_eq_univ, (arr_whole1 2).set_eq_univ, (arr_whole1 3).set_eq_univ, (arr_whole1 4).set_eq_univ]
  rfl

/-! ## The two ends of the region -/

/-- ENTRY. A core's unscoped buffers at contents `V c` are the pass's windowed arrays at the proof data's entry contents —
    the matrix at one half share per window on it, the others full — and the unscoped rest. -/
theorem arrays1_of_unscopedBufs (c : Dev nD) :
    (unscopedBufs c (V c) : sProp 𝕄)
      ⊢ iprop((dat1 V c).arrays (dat1 V c).A ∗ Pipeline.unscopedRest (Ix := Unit) (Name := ℕ) (U := UR sig nD τ) (Lvl := ℕ) spec1 c (V c)) := by
  rw [Pipeline.unscopedBufs_split₀ cfgs 1 winFacts₀1.arr_unscoped c (V c)]
  show iprop((Pipeline.arrBufs spec1 c (V c) : sProp 𝕄) ∗ Pipeline.unscopedRest spec1 c (V c)) ⊢ _
  refine sep_mono ?_ .rfl
  have key : ((dat1 V c).arrays (dat1 V c).A : sProp 𝕄)
      = iprop((((c : Thread nD τ).loc main_arg0) ↦{fullShare.left} V c main_arg0) ∗ (((c : Thread nD τ).loc main_arg0) ↦{fullShare.right} V c main_arg0)
          ∗ (((c : Thread nD τ).loc main_v16) ↦{fullShare} V c main_v16) ∗ (((c : Thread nD τ).loc main_v17) ↦{fullShare} V c main_v17)
          ∗ (((c : Thread nD τ).loc main_v18) ↦{fullShare} V c main_v18)) := arrays1_eq V c _
  rw [key, arrBufs1_eq]
  iintro ⟨H0, H2, H3, H4⟩
  -- cut the matrix's full share into its halves, one per window on it
  ihave H0 := (pointsTo_share (PosShare.mem_left_op_right fullShare)).1 $$ H0
  icases H0 with ⟨H0, H1⟩
  isplitl [H0]; · iexact H0
  isplitl [H1]; · iexact H1
  isplitl [H2]; · iexact H2
  isplitl [H3]; · iexact H3
  iexact H4

/-- EXIT. The windowed arrays at what the pipeline leaves after its last point, with the unscoped rest as entered, are the
    core's unscoped buffers at any contents `V'` that hold the result array at what the write-backs left and agree with
    the entry contents everywhere else. -/
theorem unscopedBufs_of_arrays1 (c : Dev nD) (V' : (b : Ref sig .tc) → Buf (Elt F) ((c : Thread nD τ).loc b))
    (hout : V' main_v18 = (dat1 V c).arrAt 4 cfg1.N) (hrest : ∀ b : Ref sig .tc, b ≠ main_v18 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c V' : sProp 𝕄) := by
  rw [Pipeline.unscopedBufs_split₀ cfgs 1 winFacts₀1.arr_unscoped c V']
  show _ ⊢ iprop((Pipeline.arrBufs spec1 c V' : sProp 𝕄) ∗ Pipeline.unscopedRest spec1 c V')
  refine sep_mono ?_ (Entails.of_eq ?_)
  · -- an input window's array is never written back: after the last point it is as entered, where `V'` agrees with `V c`
    have e0 : (dat1 V c).arrAt 0 cfg1.N = V' main_arg0 := ((dat1 V c).arrAt_in 0 rfl _).trans (hrest main_arg0 (by decide)).symm
    have e1 : (dat1 V c).arrAt 1 cfg1.N = V' main_arg0 := ((dat1 V c).arrAt_in 1 rfl _).trans (hrest main_arg0 (by decide)).symm
    have e2 : (dat1 V c).arrAt 2 cfg1.N = V' main_v16 := ((dat1 V c).arrAt_in 2 rfl _).trans (hrest main_v16 (by decide)).symm
    have e3 : (dat1 V c).arrAt 3 cfg1.N = V' main_v17 := ((dat1 V c).arrAt_in 3 rfl _).trans (hrest main_v17 (by decide)).symm
    have key : ((dat1 V c).arrays ((dat1 V c).arrAt · cfg1.N) : sProp 𝕄)
        = iprop((((c : Thread nD τ).loc main_arg0) ↦{fullShare.left} V' main_arg0) ∗ (((c : Thread nD τ).loc main_arg0) ↦{fullShare.right} V' main_arg0)
            ∗ (((c : Thread nD τ).loc main_v16) ↦{fullShare} V' main_v16) ∗ (((c : Thread nD τ).loc main_v17) ↦{fullShare} V' main_v17)
            ∗ (((c : Thread nD τ).loc main_v18) ↦{fullShare} V' main_v18)) := by
      rw [arrays1_eq, e0, e1, e2, e3, ← hout]
    rw [key, arrBufs1_eq]
    iintro ⟨H0, H1, H2, H3, H4⟩
    -- the two halves of the matrix's share, at the same contents, are the full share again
    ihave H0 := (pointsTo_share (PosShare.mem_left_op_right fullShare)).2 $$ [H0 H1]
    · isplitl [H0] <;> iassumption
    isplitl [H0]; · iexact H0
    isplitl [H2]; · iexact H2
    isplitl [H3]; · iexact H3
    iexact H4
  · -- a buffer no window names is not the result's, so `V'` agrees with `V c` on it
    unfold Pipeline.unscopedRest
    exact bigSep_congr fun b hb => by
      rw [hrest b (fun e => (Finset.mem_sdiff.mp hb).2 (e ▸ main_v18_mem1))]

end Cert.Kernel.KF

end
-- ==== Proof.KBRun.lean ====
/-
  THE RUN of the program: @main's five segments from the launch to the return — the sums pass, three stretches of
  host operations (the degree vector, the guarded inverse square root, its two reshapes), the scaling pass.

  The buffers' contents at each segment boundary are a fold from the launch memory: a kernel region leaves its
  windowed arrays at what its write-backs left and everything else as entered; a host stretch leaves what its
  operations compute.  The sums pass's arrays are three distinct buffers; the scaling pass reads the input matrix
  through two windows, so its arrays are sorted out of (and back into) the core's unscoped buffers by the two
  entailments of the shared-array module, the matrix at one half share per window.  At the end every unscoped buffer
  is read against the last boundary's contents: the result array at what the scaling pass's write-backs left, the
  argument — which no host operation writes and both passes only read — as launched.
-/
import proofs.«104055_g2000603544188606_pallasbulk_177_3_alg».proof.Proof.KBReg0
import proofs.«104055_g2000603544188606_pallasbulk_177_3_alg».proof.Proof.KBShare

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (the sums pass's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the sums pass's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the three host stretches (the scaling pass's entry). -/
abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev V4 : (c : Dev nD) → (b : Ref sig .tc) → Buf (Elt F) ((c : Thread nD τ).loc b) := fun c b => W4 m ρ c b
/-- At the scaling pass's exit: the result array at what its write-backs leave, every other buffer as entered. -/
def W5 (c : Dev nD) : Valuation τ sig (Elt F) :=
  Function.update (W4 m ρ c) (Proc.devRef .tc main_v18) ((dat1 (V4 m ρ) c).arrAt 4 cfg1.N)
abbrev V5 : (c : Dev nD) → (b : Ref sig .tc) → Buf (Elt F) ((c : Thread nD τ).loc b) := fun c b => W5 m ρ c b
theorem W5_main_v18 (c : Dev nD) : W5 m ρ c (Proc.devRef .tc main_v18) = (dat1 (V4 m ρ) c).arrAt 4 cfg1.N := by
  unfold W5; exact Function.update_self ..
theorem W5_of_ne (c : Dev nD) (b : Ref sig .tc) (hb : b ≠ main_v18) :
    W5 m ρ c (Proc.devRef .tc b) = W4 m ρ c (Proc.devRef .tc b) := by
  unfold W5; exact Function.update_of_ne (StableHlo.devRef_ne_of_ne hb) ..

/-! ### The argument ends as launched -/

/-- No operation of a host stretch writes the argument. -/
theorem hostOps1_keeps (W : Valuation τ sig (Elt F)) : StableHlo.after hostOps1 W (Proc.devRef .tc main_arg0) = W (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hostOps1_1_keeps (W : Valuation τ sig (Elt F)) : StableHlo.after hostOps1_1 W (Proc.devRef .tc main_arg0) = W (Proc.devRef .tc main_arg0) :=
  StableHlo.after_of_forall_not_mem (b := Proc.devRef .tc main_arg0) _ _ (List.forall_iff_forall_mem.mp (by
    simp only [hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hostOps1_2_keeps (W : Valuation τ sig (Elt F)) : StableHlo.after hostOps1_2 W (Proc.devRef .tc main_arg0) = W (Proc.devRef .tc main_arg0) :=
  StableHlo.after_of_forall_not_mem (b := Proc.devRef .tc main_arg0) _ _ (List.forall_iff_forall_mem.mp (by
    simp only [hostOps1_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The argument's buffer, the sums pass's input array, is never written back: it leaves that region as it entered. -/
theorem W1_main_arg0 (c : Dev nD) : W1 m ρ c (Proc.devRef .tc main_arg0) = W0 m ρ c (Proc.devRef .tc main_arg0) :=
  (W1_arr m ρ c 0).trans ((dat0 (V0 m ρ) c).arrAt_in 0 rfl cfg0.N)

theorem W4_main_arg0 (c : Dev nD) : W4 m ρ c (Proc.devRef .tc main_arg0) = m ((c : Thread nD τ).loc main_arg0) :=
  (hostOps1_2_keeps _).trans ((hostOps1_1_keeps _).trans ((hostOps1_keeps _).trans ((W1_main_arg0 m ρ c).trans rfl)))

theorem W5_main_arg0 (c : Dev nD) : W5 m ρ c (Proc.devRef .tc main_arg0) = m ((c : Thread nD τ).loc main_arg0) :=
  (W5_of_ne m ρ c main_arg0 (by decide)).trans (W4_main_arg0 m ρ c)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- THE SUMS PASS over the thread state: entered from every unscoped buffer at the launch contents, left at `W1`. Its three
    arrays are distinct buffers, split out of the unscoped buffers and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SCALING PASS over the thread state: entered from every unscoped buffer at `W4`, left at `W5`. Two of its windows
    read one array: its arrays are sorted out of the unscoped buffers, and put back, by the shared-array entailments. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := arrays1_of_unscopedBufs (V4 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (V4 m ρ) c (V5 m ρ c) (W5_main_v18 m ρ c) (fun b hb => W5_of_ne m ρ c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final state has the result array at the last boundary's contents and the argument array as launched. -/
theorem run_main : θ_run defs (onTc (τ := τ) (main (F := F))) ⟨m, fun _ => 0, ρ⟩ (fun r => ∀ c : Dev nD,
      r.2.mem ((c.tc : Thread nD τ).loc main_v18) = W5 m ρ c (Proc.devRef .tc main_v18)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v18 (by decide)), (h c _ (mem_uc main_arg0 (by decide))).trans (W5_main_arg0 m ρ c)⟩)

/-- THE FRAME: the run, read for the argument alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run _ _ _).mono (fun r h c => (h c).2) (run_main m ρ)

end Cert.Kernel.KF

end
-- ==== Proof.KIReg0.lean ====
/-
  The first kernel of the program (the sums pass) at ANY contents `V` of the buffers when its region is entered.

  The pass walks the 4096 × 4096 input in strips of 512 rows by 2048 columns, a 2 × 8 grid: the column half `c` is the
  slow coordinate, the row strip `i` the fast one (point `t` has `c = t / 8`, `i = t % 8`).  At each point it is handed the
  input strip, a 1 × 1 × 512 block of the per-half row sums (block `(c, 0, i)`: a new block at every point, written back
  at every point) and the 1 × 2048 block `(0, c)` of the column sums, which STAYS IN PLACE over the eight points of a
  half and is written back after the eighth.  The body overwrites the row-sum block whole; on the first point of a half
  (`i = 0`) it clears the column-sum block and then adds the strip's column sums to it, on the other points it adds them
  to what the point before left.  So the body has two cases, and the column-sum block after point `t` is a function of
  the input strip and, off the first point of a half, of what the point before left there.
-/
import proofs.«104055_g2000603544188606_pallasbulk_177_3_alg».proof.Proof.Gen.KernelIdeal.Launch
import proofs.«104055_g2000603544188606_pallasbulk_177_3_alg».proof.Proof.Gen.KernelIdeal.Skeleton
import proofs.«104055_g2000603544188606_pallasbulk_177_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch condition -/

/-- The condition of the body's one conditional (first point of a half), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8): decided over the sixteen points. -/
theorem hcond0_0 : ∀ t : Fin cfg0.N, cond0_0 (grid0.coords t) ↔ t.val % 8 = 0 :=
  (by decide +kernel : ∀ t : Fin grid0.N, cond0_0 (grid0.coords t) ↔ t.val % 8 = 0)

/-! ## The body on any staging memrefs, case by case -/

/-- One staging buffer of each output window, through which its contents are stated (the choice does not matter). -/
abbrev VO0_1 : View sig .tc .vmem S1x1x512 .f32 := (Memref.whole cc0_stg1_0 : Memref sig .tc .vmem S1x1x512 .f32).view
abbrev VO0_2 : View sig .tc .vmem S1x2048 .f32 := (Memref.whole cc0_stg2_0 : Memref sig .tc .vmem S1x2048 .f32).view
/-- Each window's current staging memref at point `t`, spelled as the pipeline passes it, and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048 .f32 := win0_2.stage (cfg0.slots t 2)
abbrev hs0_2 (t : Fin cfg0.N) : (ms0_2 t).IsWhole := hstage0_2 ((cfg0.slots t 2).cast nbuf0_2)

set_option maxHeartbeats 1000000 in
/-- What the body's stores leave in each output's staging memref, as pieces (last first), ON THE FIRST POINT OF A HALF
    (the conditional taken), with the proof that on whole staging memrefs — the input's at its contents, the outputs' at
    anything — the body runs to the continuation holding the input's as it was and each output's buffer with its pieces
    written. The pieces are the witness the run finds. -/
noncomputable def kernelRun0_A (c : Dev nD) (i : grid0.Coords) (arg2 : Memref sig .tc .vmem S512x2048 .f32) (harg2 : arg2.IsWhole) (arg3 : Memref sig .tc .vmem S1x1x512 .f32) (harg3 : arg3.IsWhole) (arg4 : Memref sig .tc .vmem S1x2048 .f32) (harg4 : arg4.IsWhole) (hc0 : cond0_0 i)
    (x0 : Vec F S512x2048 .f32) :
    Σ' (L1 : List (View.Piece (Elt F) S1x1x512 .f32)), { L2 : List (View.Piece (Elt F) S1x2048 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ (iprop(owns (c : Thread nD τ) arg2 fullShare x0 ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)) -∗ K ⟨⟩))
          ⊢ wp frame (wpE (defs₀ (F := F)) Variants.none c none) E (cc0__sums_kernel i arg2 harg2 arg3 harg3 arg4 harg4) K } := by
  refine ⟨?_, ?_, fun E K => ?run⟩
  case run =>
    simp only [cc0__sums_kernel_eq_skeleton]; unfold cc0__sums_kernel_skel
    unfold owns
    iintro ⟨⟨%f0, %hf0, H0⟩, ⟨%d1, %f1, -, H1⟩, ⟨%d2, %f2, -, H2⟩, Hk⟩
    obtain rfl := harg2.eq_unread hf0
    sl_exec (disch := first | exact hc0)
    sl_step
    iapply Hk
    isplitl [H0]
    · iexists _; isplitr; · ipureintro; exact harg2.read_unread _
      iexact H0
    isplitl [H1]
    · iexists _; iexact H1
    iexists _; iexact H2

/-- The first-point pieces of each output tile its block, so they cover it. -/
theorem cover0_A_1 (c : Dev nD) (i : grid0.Coords) (arg2 : Memref sig .tc .vmem S512x2048 .f32) (harg2 : arg2.IsWhole) (arg3 : Memref sig .tc .vmem S1x1x512 .f32) (harg3 : arg3.IsWhole) (arg4 : Memref sig .tc .vmem S1x2048 .f32) (harg4 : arg4.IsWhole) (hc0 : cond0_0 i)
    (x0 : Vec F S512x2048 .f32) (y : S1x1x512.Idx) :
    ∃ pc ∈ (kernelRun0_A c i arg2 harg2 arg3 harg3 arg4 harg4 hc0 x0).1, y ∈ pc.1.set :=
  View.cover_of_tiledL (kernelRun0_A c i arg2 harg2 arg3 harg3 arg4 harg4 hc0 x0).1 S1x1x512.size (by sl_kernel_rfl) y
theorem cover0_A_2 (c : Dev nD) (i : grid0.Coords) (arg2 : Memref sig .tc .vmem S512x2048 .f32) (harg2 : arg2.IsWhole) (arg3 : Memref sig .tc .vmem S1x1x512 .f32) (harg3 : arg3.IsWhole) (arg4 : Memref sig .tc .vmem S1x2048 .f32) (harg4 : arg4.IsWhole) (hc0 : cond0_0 i)
    (x0 : Vec F S512x2048 .f32) (y : S1x2048.Idx) :
    ∃ pc ∈ (kernelRun0_A c i arg2 harg2 arg3 harg3 arg4 harg4 hc0 x0).2.1, y ∈ pc.1.set :=
  View.cover_of_tiledL (kernelRun0_A c i arg2 harg2 arg3 harg3 arg4 harg4 hc0 x0).2.1 S1x2048.size (by sl_kernel_rfl) y

/-- What the first point of a half leaves in each output's staging buffer: its pieces read back over junk. -/
def out0_A_1 (c : Dev nD) (i : grid0.Coords) (arg2 : Memref sig .tc .vmem S512x2048 .f32) (harg2 : arg2.IsWhole) (arg3 : Memref sig .tc .vmem S1x1x512 .f32) (harg3 : arg3.IsWhole) (arg4 : Memref sig .tc .vmem S1x2048 .f32) (harg4 : arg4.IsWhole) (hc0 : cond0_0 i)
    (x0 : Vec F S512x2048 .f32) : Vec F S1x1x512 .f32 :=
  VO0_1.read (Elt F) (VO0_1.writes (Elt F) VO0_1.junk (kernelRun0_A c i arg2 harg2 arg3 harg3 arg4 harg4 hc0 x0).1)
def out0_A_2 (c : Dev nD) (i : grid0.Coords) (arg2 : Memref sig .tc .vmem S512x2048 .f32) (harg2 : arg2.IsWhole) (arg3 : Memref sig .tc .vmem S1x1x512 .f32) (harg3 : arg3.IsWhole) (arg4 : Memref sig .tc .vmem S1x2048 .f32) (harg4 : arg4.IsWhole) (hc0 : cond0_0 i)
    (x0 : Vec F S512x2048 .f32) : Vec F S1x2048 .f32 :=
  VO0_2.read (Elt F) (VO0_2.writes (Elt F) VO0_2.junk (kernelRun0_A c i arg2 harg2 arg3 harg3 arg4 harg4 hc0 x0).2.1)

set_option maxHeartbeats 1000000 in
/-- The same OFF the first point of a half (the conditional not taken): the column-sum block is read before it is covered,
    so its memref is taken at its running contents `xo2`. -/
noncomputable def kernelRun0_B (c : Dev nD) (i : grid0.Coords) (arg2 : Memref sig .tc .vmem S512x2048 .f32) (harg2 : arg2.IsWhole) (arg3 : Memref sig .tc .vmem S1x1x512 .f32) (harg3 : arg3.IsWhole) (arg4 : Memref sig .tc .vmem S1x2048 .f32) (harg4 : arg4.IsWhole) (hc0 : ¬cond0_0 i)
    (x0 : Vec F S512x2048 .f32) (xo2 : Vec F S1x2048 .f32) :
    Σ' (L1 : List (View.Piece (Elt F) S1x1x512 .f32)), { L2 : List (View.Piece (Elt F) S1x2048 .f32) //
      ∀ (E : Set ℕ) (K : PUnit → sProp 𝕄),
        iprop(owns (c : Thread nD τ) arg2 fullShare x0 ∗ (∃ d, owns (c : Thread nD τ) arg3 fullShare d) ∗ owns (c : Thread nD τ) arg4 fullShare xo2
            ∗ (iprop(owns (c : Thread nD τ) arg2 fullShare x0 ∗ (∃ f, arg3.view.loc (c : Thread nD τ) ↦[arg3.view.set]{fullShare} arg3.view.writes (Elt F) f L1)
                ∗ (∃ f, arg4.view.loc (c : Thread nD τ) ↦[arg4.view.set]{fullShare} arg4.view.writes (Elt F) f L2)) -∗ K ⟨⟩))
          ⊢ wp frame (wpE (defs₀ (F := F)) Variants.none c none) E (cc0__sums_kernel i arg2 harg2 arg3 harg3 arg4 harg4) K } := by
  refine ⟨?_, ?_, fun E K => ?run⟩
  case run =>
    simp only [cc0__sums_kernel_eq_skeleton]; unfold cc0__sums_kernel_skel
    unfold owns
    iintro ⟨⟨%f0, %hf0, H0⟩, ⟨%d1, %f1, -, H1⟩, ⟨%f2, %hf2, H2⟩, Hk⟩
    obtain rfl := harg2.eq_unread hf0; obtain rfl := harg4.eq_unread hf2
    sl_exec (disch := first | exact hc0)
    sl_step
    iapply Hk
    isplitl [H0]
    · iexists _; isplitr; · ipureintro; exact harg2.read_unread _
      iexact H0
    isplitl [H1]
    · iexists _; iexact H1
    iexists _; iexact H2

theorem cover0_B_1 (c : Dev nD) (i : grid0.Coords) (arg2 : Memref sig .tc .vmem S512x2048 .f32) (harg2 : arg2.IsWhole) (arg3 : Memref sig .tc .vmem S1x1x512 .f32) (harg3 : arg3.IsWhole) (arg4 : Memref sig .tc .vmem S1x2048 .f32) (harg4 : arg4.IsWhole) (hc0 : ¬cond0_0 i)
    (x0 : Vec F S512x2048 .f32) (xo2 : Vec F S1x2048 .f32) (y : S1x1x512.Idx) :
    ∃ pc ∈ (kernelRun0_B c i arg2 harg2 arg3 harg3 arg4 harg4 hc0 x0 xo2).1, y ∈ pc.1.set :=
  View.cover_of_tiledL (kernelRun0_B c i arg2 harg2 arg3 harg3 arg4 harg4 hc0 x0 xo2).1 S1x1x512.size (by sl_kernel_rfl) y
theorem cover0_B_2 (c : Dev nD) (i : grid0.Coords) (arg2 : Memref sig .tc .vmem S512x2048 .f32) (harg2 : arg2.IsWhole) (arg3 : Memref sig .tc .vmem S1x1x512 .f32) (harg3 : arg3.IsWhole) (arg4 : Memref sig .tc .vmem S1x2048 .f32) (harg4 : arg4.IsWhole) (hc0 : ¬cond0_0 i)
    (x0 : Vec F S512x2048 .f32) (xo2 : Vec F S1x2048 .f32) (y : S1x2048.Idx) :
    ∃ pc ∈ (kernelRun0_B c i arg2 harg2 arg3 harg3 arg4 harg4 hc0 x0 xo2).2.1, y ∈ pc.1.set :=
  View.cover_of_tiledL (kernelRun0_B c i arg2 harg2 arg3 harg3 arg4 harg4 hc0 x0 xo2).2.1 S1x2048.size (by sl_kernel_rfl) y

def out0_B_1 (c : Dev nD) (i : grid0.Coords) (arg2 : Memref sig .tc .vmem S512x2048 .f32) (harg2 : arg2.IsWhole) (arg3 : Memref sig .tc .vmem S1x1x512 .f32) (harg3 : arg3.IsWhole) (arg4 : Memref sig .tc .vmem S1x2048 .f32) (harg4 : arg4.IsWhole) (hc0 : ¬cond0_0 i)
    (x0 : Vec F S512x2048 .f32) (xo2 : Vec F S1x2048 .f32) : Vec F S1x1x512 .f32 :=
  VO0_1.read (Elt F) (VO0_1.writes (Elt F) VO0_1.junk (kernelRun0_B c i arg2 harg2 arg3 harg3 arg4 harg4 hc0 x0 xo2).1)
def out0_B_2 (c : Dev nD) (i : grid0.Coords) (arg2 : Memref sig .tc .vmem S512x2048 .f32) (harg2 : arg2.IsWhole) (arg3 : Memref sig .tc .vmem S1x1x512 .f32) (harg3 : arg3.IsWhole) (arg4 : Memref sig .tc .vmem S1x2048 .f32) (harg4 : arg4.IsWhole) (hc0 : ¬cond0_0 i)
    (x0 : Vec F S512x2048 .f32) (xo2 : Vec F S1x2048 .f32) : Vec F S1x2048 .f32 :=
  VO0_2.read (Elt F) (VO0_2.writes (Elt F) VO0_2.junk (kernelRun0_B c i arg2 harg2 arg3 harg3 arg4 harg4 hc0 x0 xo2).2.1)

/-! ## What the outputs hold after each point -/

/-- THE ACCUMULATION. What the two outputs' staging buffers hold after the body at position `n`: the case the closed form
    selects at `n`, run at the point's memrefs and input block; off the first point of a half the column-sum block is read
    at what this leaves at `n - 1` (its buffer is not written back between). -/
def outsAt0 (c : Dev nD) : (n : ℕ) → n < cfg0.N → Vec F S1x1x512 .f32 × Vec F S1x2048 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩),
              out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩))
  | n + 1, hn =>
    if h0 : (n + 1) % 8 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩),
       out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).2,
       out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (outsAt0 c n (Nat.lt_of_succ_lt hn)).2)

/-- `outsAt0` at the first point of a half: that case's contents. -/
theorem outsAt0_A (c : Dev nD) (t : Fin cfg0.N) (h0 : t.val % 8 = 0) :
    outsAt0 V c t.val t.isLt = (out0_A_1 c (grid0.coords t) (ms0_0 t) (hs0_0 t) (ms0_1 t) (hs0_1 t) (ms0_2 t) (hs0_2 t) ((hcond0_0 t).mpr h0) (iblk0 V c 0 t),
      out0_A_2 c (grid0.coords t) (ms0_0 t) (hs0_0 t) (ms0_1 t) (hs0_1 t) (ms0_2 t) (hs0_2 t) ((hcond0_0 t).mpr h0) (iblk0 V c 0 t)) := by
  obtain ⟨n, hn⟩ := t
  cases n with
  | zero => exact rfl
  | succ n => exact (dif_pos h0).trans rfl

/-- `outsAt0` off the first point of a half: that case's contents, over what the point before left. -/
theorem outsAt0_B (c : Dev nD) (t : Fin cfg0.N) (h0 : ¬t.val % 8 = 0) :
    outsAt0 V c t.val t.isLt = (out0_B_1 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).2,
      out0_B_2 c (grid0.coords t) (ms0_0 t) (hs0_0 t) (ms0_1 t) (hs0_1 t) (ms0_2 t) (hs0_2 t) (fun h => h0 ((hcond0_0 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the pass on core `c`: the arrays as the region finds them; after the body at point `t` the input's
    buffer at its block and the outputs' at `outsAt0`; the scoped rest and the generator register as the invariant; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
/-- Off the first point of a half the column-sum window's current staging buffer holds what the body left at the point
    before: the point is not the first, the buffer was not written back between, the window is live and uncut. -/
theorem before0_2_B (c : Dev nD) (t : Fin cfg0.N) (h0 : ¬t.val % 8 = 0) (d) :
    (dat0 V c).before 2 t d = (outsAt0 V c (t.val - 1) (Nat.lt_of_le_of_lt (Nat.sub_le _ _) t.isLt)).2 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1200000 in
/-- The body at any point: the input's memref holds its block; the closed form says which case the point is in; off the
    first point of a half the column-sum buffer holds what the point before left; so the case's run applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  have hN : t.val < 16 := lt_of_lt_of_eq t.isLt (show cfg0.N = 16 from N_0)
  by_cases h0 : t.val % 8 = 0
  · rw [outsAt0_A V c t h0]
    dsimp only
    unfold out0_A_1 out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t)).2.2 Set.univ _)
    isplitl [H0]; · iexact H0
    isplitl [H1]; · iexists _; iexact H1
    isplitl [H2]; · iexists _; iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_A_1 c _ _ _ _ _ _ _ _ _)
    · unfold owns; iexists _; isplitr
      swap; · iexact H2
      ipureintro; exact View.read_writes_of_cover _ _ _ _ _ (cover0_A_2 c _ _ _ _ _ _ _ _ _)
  · rw [outsAt0_B V c t h0]
    dsimp only
    simp only [before0_2_B V c t h0]
    unfold out0_B_1 out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) _).2.2 Set.univ _)
    isplitl [H0]; · iexact H0
    isplitl [H1]; · iexists _; iexact H1
    isplitl [H2]; · iexact H2
    iintro ⟨H0, ⟨%e1, H1⟩, ⟨%e2, H2⟩⟩
    isplitl [HΦ]; · iexact HΦ
    isplitl [Ho]; · iexact Ho
    isplitl [H0]; · iexact H0
    isplitl [H1]
    · unfold owns; iexists _; isplitr
      swap; · iexact H1
      ipureintro; exact View.read_writes_of_cover _ _ _ _ _ (cover0_B_1 c _ _ _ _ _ _ _ _ _ _)
    · unfold owns; iexists _; isplitr
      swap; · iexact H2
      ipureintro; exact View.read_writes_of_cover _ _ _ _ _ (cover0_B_2 c _ _ _ _ _ _ _ _ _ _)

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.KF

end
-- ==== Proof.KIReg1.lean ====
/-
  The second kernel of the program (the scaling pass) at ANY contents `V` of the buffers when its region is entered.

  The pass walks the 4096 × 4096 result in 512 × 512 blocks, an 8 × 8 grid.  At block `(i, j)` it is handed five
  staged blocks: block `(i, j)` of the input matrix, block `(j, i)` of the SAME matrix (two windows on one array),
  rows `512 i …` of the column of scales, columns `512 j …` of the row of scales, and the result block `(i, j)`,
  which it overwrites whole with one store.  So what the point leaves in the result's staging buffer is one function
  `outBlk` of the four input blocks and the grid position (the payload reads the position: the diagonal test).
  The proof data says: every input block is as the array holds it, the result block is `outBlk` of them; the input
  matrix's array is held at two half shares, one per window that reads it, every other array at the full share.
-/
import proofs.«104055_g2000603544188606_pallasbulk_177_3_alg».proof.Proof.Gen.KernelIdeal.Launch
import proofs.«104055_g2000603544188606_pallasbulk_177_3_alg».proof.Proof.Gen.KernelIdeal.Skeleton
import proofs.«104055_g2000603544188606_pallasbulk_177_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S512x512 := Rect.unit (s := S512x512) ![0, 0] S512x512.size inb_S512x512_S512x512_0_0
abbrev r1_2 : Rect S512x1 := Rect.unit (s := S512x1) ![0, 0] S512x1.size inb_S512x1_S512x1_0_0
abbrev r1_3 : Rect S1x512 := Rect.unit (s := S1x512) ![0, 0] S1x512.size inb_S1x512_S1x512_0_0

/-! ## What the body leaves in the result window's buffer -/

/-- The result window's staging buffer after the body at grid position `i`, from the four input blocks: its one store. -/
def outBlk (i : grid1.Coords) (x0 : Vec F S512x512 .f32) (x1 : Vec F S512x512 .f32) (x2 : Vec F S512x1 .f32) (x3 : Vec F S1x512 .f32) : Vec F S512x512 .f32 :=
  View.canon [⟨r1_0, k1_pay1 i (View.ld x0 r1_0) (View.ld x1 r1_0) (View.ld x2 r1_2) (View.ld x3 r1_3)⟩]

/-- One store of the whole block covers it. -/
theorem cover1_4 (p0 : Vec F S512x512 .f32) (y : S512x512.Idx) :
    ∃ pc ∈ ([⟨r1_0, p0⟩] : List (View.Piece (Elt F) S512x512 .f32)), y ∈ pc.1.set :=
  View.cover_of_tiled [⟨r1_0, p0⟩] S512x512.size (by rfl) y

/-! ## The body's triple -/

set_option maxHeartbeats 1000000 in
/-- The body on whole staging memrefs, the inputs' at read contents and the result's at anything, runs to the continuation
    holding the inputs' as they were and the result's at `outBlk` of them. -/
theorem sound_kernel1 (c : Dev nD) (E : Set ℕ) (i : grid1.Coords) (arg2 : Memref sig .tc .vmem S512x512 .f32) (harg2 : arg2.IsWhole) (arg3 : Memref sig .tc .vmem S512x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x512 .f32) (harg6 : arg6.IsWhole)
    (x0 : Vec F S512x512 .f32) (x1 : Vec F S512x512 .f32) (x2 : Vec F S512x1 .f32) (x3 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outBlk i x0 x1 x2 x3)) -∗ K ⟨⟩))
      ⊢ wp frame (wpE (defs₀ (F := F)) Variants.none c none) E (cc1__scale_kernel i arg2 harg2 arg3 harg3 arg4 harg4 arg5 harg5 arg6 harg6) K := by
  simp only [cc1__scale_kernel_eq_skeleton]; unfold cc1__scale_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the pass on core `c`: the arrays as the region finds them; after the body at point `t` each input's
    buffer at its block and the result's at `outBlk` of the input blocks; the scoped rest and the generator register as the
    invariant; nothing owed; the input matrix's array at one half share per window that reads it, the others full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => outBlk (grid1.coords t) (iblk1 V c 0 t) (iblk1 V c 1 t) (iblk1 V c 2 t) (iblk1 V c 3 t)
  Φ _ := Pipeline.ΦA spec1 c
  q w := match w with
    | ⟨0, _⟩ => fullShare.left
    | ⟨1, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = outBlk (grid1.coords t) (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the triple applies; the invariant and the core's dues
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.KF

end
-- ==== Proof.KIShare.lean ====
/-
  The scaling pass's arrays at its region's two ends, when two of its windows read ONE array.

  Between kernels a core holds every unscoped buffer whole, at the full share.  The scaling pass has five windows on
  FOUR buffers: the input matrix is read through two windows (block `(i, j)` and block `(j, i)`), the two scale vectors
  through one each, the result is written through the fifth.  The pipeline wants one points-to per WINDOW.  So on entry
  the matrix's full share is cut into its left and right halves, one per window (both at the contents the region
  finds), the other three buffers go to their windows whole, and the buffers no window names are the rest.  On exit the
  two halves — still at the entry contents: input windows are never written back — are joined again, the result's
  buffer is held at what the write-backs left, and with the untouched rest that is every unscoped buffer again.
-/
import proofs.«104055_g2000603544188606_pallasbulk_177_3_alg».proof.Proof.KIReg1

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The four buffers and the five windows, one by one -/

/-- The buffers behind the pass's five windows are four: the matrix (behind two windows), the two scale vectors, the result. -/
theorem img1 : Finset.univ.image (Pipeline.arrRef spec1) = ([main_arg0, main_v16, main_v17, main_v18] : List (Ref sig .tc)).toFinset := by decide

/-- The result's buffer is one of them. -/
theorem main_v18_mem1 : main_v18 ∈ Finset.univ.image (Pipeline.arrRef spec1) := by decide

/-- The distinct buffers behind the windows, each whole at the full share at contents `W`, conjoined one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg0) ↦{fullShare} W main_arg0) ∗ (((c : Thread nD τ).loc main_v16) ↦{fullShare} W main_v16)
          ∗ (((c : Thread nD τ).loc main_v17) ↦{fullShare} W main_v17) ∗ (((c : Thread nD τ).loc main_v18) ↦{fullShare} W main_v18)) := by
  unfold Pipeline.arrBufs
  exact bigSep_eq_bigSepL_of_eq [main_arg0, main_v16, main_v17, main_v18] img1 (by decide) _

/-- The windowed arrays at contents `G`, conjoined window by window. Every window's array is a whole buffer, so its
    element set is all of the buffer; the two windows on the matrix hold it at the left and the right half of the full
    share, the scale vectors' windows and the result's hold theirs at the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg0) ↦{fullShare.left} G 0) ∗ (((c : Thread nD τ).loc main_arg0) ↦{fullShare.right} G 1)
          ∗ (((c : Thread nD τ).loc main_v16) ↦{fullShare} G 2) ∗ (((c : Thread nD τ).loc main_v17) ↦{fullShare} G 3)
          ∗ (((c : Thread nD τ).loc main_v18) ↦{fullShare} G 4)) := by
  unfold Dat.arrays
  rw [bigSep_W1]
  -- windows 0 and 1 name the same whole memref: one rewriting turns both element sets into the whole buffer
  rw [(arr_whole1 0).set_eq_univ, (arr_whole1 2).set_eq_univ, (arr_whole1 3).set_eq_univ, (arr_whole1 4).set_eq_univ]
  rfl

/-! ## The two ends of the region -/

/-- ENTRY. A core's unscoped buffers at contents `V c` are the pass's windowed arrays at the proof data's entry contents —
    the matrix at one half share per window on it, the others full — and the unscoped rest. -/
theorem arrays1_of_unscopedBufs (c : Dev nD) :
    (unscopedBufs c (V c) : sProp 𝕄)
      ⊢ iprop((dat1 V c).arrays (dat1 V c).A ∗ Pipeline.unscopedRest (Ix := Unit) (Name := ℕ) (U := UR sig nD τ) (Lvl := ℕ) spec1 c (V c)) := by
  rw [Pipeline.unscopedBufs_split₀ cfgs 1 winFacts₀1.arr_unscoped c (V c)]
  show iprop((Pipeline.arrBufs spec1 c (V c) : sProp 𝕄) ∗ Pipeline.unscopedRest spec1 c (V c)) ⊢ _
  refine sep_mono ?_ .rfl
  have key : ((dat1 V c).arrays (dat1 V c).A : sProp 𝕄)
      = iprop((((c : Thread nD τ).loc main_arg0) ↦{fullShare.left} V c main_arg0) ∗ (((c : Thread nD τ).loc main_arg0) ↦{fullShare.right} V c main_arg0)
          ∗ (((c : Thread nD τ).loc main_v16) ↦{fullShare} V c main_v16) ∗ (((c : Thread nD τ).loc main_v17) ↦{fullShare} V c main_v17)
          ∗ (((c : Thread nD τ).loc main_v18) ↦{fullShare} V c main_v18)) := arrays1_eq V c _
  rw [key, arrBufs1_eq]
  iintro ⟨H0, H2, H3, H4⟩
  -- cut the matrix's full share into its halves, one per window on it
  ihave H0 := (pointsTo_share (PosShare.mem_left_op_right fullShare)).1 $$ H0
  icases H0 with ⟨H0, H1⟩
  isplitl [H0]; · iexact H0
  isplitl [H1]; · iexact H1
  isplitl [H2]; · iexact H2
  isplitl [H3]; · iexact H3
  iexact H4

/-- EXIT. The windowed arrays at what the pipeline leaves after its last point, with the unscoped rest as entered, are the
    core's unscoped buffers at any contents `V'` that hold the result array at what the write-backs left and agree with
    the entry contents everywhere else. -/
theorem unscopedBufs_of_arrays1 (c : Dev nD) (V' : (b : Ref sig .tc) → Buf (Elt F) ((c : Thread nD τ).loc b))
    (hout : V' main_v18 = (dat1 V c).arrAt 4 cfg1.N) (hrest : ∀ b : Ref sig .tc, b ≠ main_v18 → V' b = V c b) :
    iprop((dat1 V c).arrays ((dat1 V c).arrAt · cfg1.N) ∗ Pipeline.unscopedRest (Ix := Unit) (Name := ℕ) (U := UR sig nD τ) (Lvl := ℕ) spec1 c (V c))
      ⊢ (unscopedBufs c V' : sProp 𝕄) := by
  rw [Pipeline.unscopedBufs_split₀ cfgs 1 winFacts₀1.arr_unscoped c V']
  show _ ⊢ iprop((Pipeline.arrBufs spec1 c V' : sProp 𝕄) ∗ Pipeline.unscopedRest spec1 c V')
  refine sep_mono ?_ (Entails.of_eq ?_)
  · -- an input window's array is never written back: after the last point it is as entered, where `V'` agrees with `V c`
    have e0 : (dat1 V c).arrAt 0 cfg1.N = V' main_arg0 := ((dat1 V c).arrAt_in 0 rfl _).trans (hrest main_arg0 (by decide)).symm
    have e1 : (dat1 V c).arrAt 1 cfg1.N = V' main_arg0 := ((dat1 V c).arrAt_in 1 rfl _).trans (hrest main_arg0 (by decide)).symm
    have e2 : (dat1 V c).arrAt 2 cfg1.N = V' main_v16 := ((dat1 V c).arrAt_in 2 rfl _).trans (hrest main_v16 (by decide)).symm
    have e3 : (dat1 V c).arrAt 3 cfg1.N = V' main_v17 := ((dat1 V c).arrAt_in 3 rfl _).trans (hrest main_v17 (by decide)).symm
    have key : ((dat1 V c).arrays ((dat1 V c).arrAt · cfg1.N) : sProp 𝕄)
        = iprop((((c : Thread nD τ).loc main_arg0) ↦{fullShare.left} V' main_arg0) ∗ (((c : Thread nD τ).loc main_arg0) ↦{fullShare.right} V' main_arg0)
            ∗ (((c : Thread nD τ).loc main_v16) ↦{fullShare} V' main_v16) ∗ (((c : Thread nD τ).loc main_v17) ↦{fullShare} V' main_v17)
            ∗ (((c : Thread nD τ).loc main_v18) ↦{fullShare} V' main_v18)) := by
      rw [arrays1_eq, e0, e1, e2, e3, ← hout]
    rw [key, arrBufs1_eq]
    iintro ⟨H0, H1, H2, H3, H4⟩
    -- the two halves of the matrix's share, at the same contents, are the full share again
    ihave H0 := (pointsTo_share (PosShare.mem_left_op_right fullShare)).2 $$ [H0 H1]
    · isplitl [H0] <;> iassumption
    isplitl [H0]; · iexact H0
    isplitl [H2]; · iexact H2
    isplitl [H3]; · iexact H3
    iexact H4
  · -- a buffer no window names is not the result's, so `V'` agrees with `V c` on it
    unfold Pipeline.unscopedRest
    exact bigSep_congr fun b hb => by
      rw [hrest b (fun e => (Finset.mem_sdiff.mp hb).2 (e ▸ main_v18_mem1))]

end Cert.KernelIdeal.KF

end
-- ==== Proof.KIRun.lean ====
/-
  THE RUN of the program: @main's five segments from the launch to the return — the sums pass, three stretches of
  host operations (the degree vector, the guarded inverse square root, its two reshapes), the scaling pass.

  The buffers' contents at each segment boundary are a fold from the launch memory: a kernel region leaves its
  windowed arrays at what its write-backs left and everything else as entered; a host stretch leaves what its
  operations compute.  The sums pass's arrays are three distinct buffers; the scaling pass reads the input matrix
  through two windows, so its arrays are sorted out of (and back into) the core's unscoped buffers by the two
  entailments of the shared-array module, the matrix at one half share per window.  At the end every unscoped buffer
  is read against the last boundary's contents: the result array at what the scaling pass's write-backs left, the
  argument — which no host operation writes and both passes only read — as launched.
-/
import proofs.«104055_g2000603544188606_pallasbulk_177_3_alg».proof.Proof.KIReg0
import proofs.«104055_g2000603544188606_pallasbulk_177_3_alg».proof.Proof.KIShare

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (the sums pass's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the sums pass's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the three host stretches (the scaling pass's entry). -/
abbrev W2 : Dev nD → Valuation τ sig (Elt F) := fun c => StableHlo.after hostOps1 (W1 m ρ c)
abbrev W3 : Dev nD → Valuation τ sig (Elt F) := fun c => StableHlo.after hostOps1_1 (W2 m ρ c)
abbrev W4 : Dev nD → Valuation τ sig (Elt F) := fun c => StableHlo.after hostOps1_2 (W3 m ρ c)
abbrev V4 : (c : Dev nD) → (b : Ref sig .tc) → Buf (Elt F) ((c : Thread nD τ).loc b) := fun c b => W4 m ρ c b
/-- At the scaling pass's exit: the result array at what its write-backs leave, every other buffer as entered. -/
def W5 (c : Dev nD) : Valuation τ sig (Elt F) :=
  Function.update (W4 m ρ c) (Proc.devRef .tc main_v18) ((dat1 (V4 m ρ) c).arrAt 4 cfg1.N)
abbrev V5 : (c : Dev nD) → (b : Ref sig .tc) → Buf (Elt F) ((c : Thread nD τ).loc b) := fun c b => W5 m ρ c b
theorem W5_main_v18 (c : Dev nD) : W5 m ρ c (Proc.devRef .tc main_v18) = (dat1 (V4 m ρ) c).arrAt 4 cfg1.N := by
  unfold W5; exact Function.update_self ..
theorem W5_of_ne (c : Dev nD) (b : Ref sig .tc) (hb : b ≠ main_v18) :
    W5 m ρ c (Proc.devRef .tc b) = W4 m ρ c (Proc.devRef .tc b) := by
  unfold W5; exact Function.update_of_ne (StableHlo.devRef_ne_of_ne hb) ..

/-! ### The argument ends as launched -/

/-- No operation of a host stretch writes the argument. -/
theorem hostOps1_keeps (W : Valuation τ sig (Elt F)) : StableHlo.after hostOps1 W (Proc.devRef .tc main_arg0) = W (Proc.devRef .tc main_arg0) :=
  StableHlo.after_of_forall_not_mem (b := Proc.devRef .tc main_arg0) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hostOps1_1_keeps (W : Valuation τ sig (Elt F)) : StableHlo.after hostOps1_1 W (Proc.devRef .tc main_arg0) = W (Proc.devRef .tc main_arg0) :=
  StableHlo.after_of_forall_not_mem (b := Proc.devRef .tc main_arg0) _ _ (List.forall_iff_forall_mem.mp (by
    simp only [hostOps1_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem hostOps1_2_keeps (W : Valuation τ sig (Elt F)) : StableHlo.after hostOps1_2 W (Proc.devRef .tc main_arg0) = W (Proc.devRef .tc main_arg0) :=
  StableHlo.after_of_forall_not_mem (b := Proc.devRef .tc main_arg0) _ _ (List.forall_iff_forall_mem.mp (by
    simp only [hostOps1_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The argument's buffer, the sums pass's input array, is never written back: it leaves that region as it entered. -/
theorem W1_main_arg0 (c : Dev nD) : W1 m ρ c (Proc.devRef .tc main_arg0) = W0 m ρ c (Proc.devRef .tc main_arg0) :=
  (W1_arr m ρ c 0).trans ((dat0 (V0 m ρ) c).arrAt_in 0 rfl cfg0.N)

theorem W4_main_arg0 (c : Dev nD) : W4 m ρ c (Proc.devRef .tc main_arg0) = m ((c : Thread nD τ).loc main_arg0) :=
  (hostOps1_2_keeps _).trans ((hostOps1_1_keeps _).trans ((hostOps1_keeps _).trans ((W1_main_arg0 m ρ c).trans rfl)))

theorem W5_main_arg0 (c : Dev nD) : W5 m ρ c (Proc.devRef .tc main_arg0) = m ((c : Thread nD τ).loc main_arg0) :=
  (W5_of_ne m ρ c main_arg0 (by decide)).trans (W4_main_arg0 m ρ c)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- THE SUMS PASS over the thread state: entered from every unscoped buffer at the launch contents, left at `W1`. Its three
    arrays are distinct buffers, split out of the unscoped buffers and put back at the exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SCALING PASS over the thread state: entered from every unscoped buffer at `W4`, left at `W5`. Two of its windows
    read one array: its arrays are sorted out of the unscoped buffers, and put back, by the shared-array entailments. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := arrays1_of_unscopedBufs (V4 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (V4 m ρ) c (V5 m ρ c) (W5_main_v18 m ρ c) (fun b hb => W5_of_ne m ρ c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

/-- @main's five segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (reg1 m ρ) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final state has the result array at the last boundary's contents and the argument array as launched. -/
theorem run_main : θ_run defs (onTc (τ := τ) (main (F := F))) ⟨m, fun _ => 0, ρ⟩ (fun r => ∀ c : Dev nD,
      r.2.mem ((c.tc : Thread nD τ).loc main_v18) = W5 m ρ c (Proc.devRef .tc main_v18)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v18 (by decide)), (h c _ (mem_uc main_arg0 (by decide))).trans (W5_main_arg0 m ρ c)⟩)

/-- THE FRAME: the run, read for the argument alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run _ _ _).mono (fun r h c => (h c).2) (run_main m ρ)

end Cert.KernelIdeal.KF

end
-- ==== Proof.Spec.lean ====
/-
  The two whole-array functions of this certificate, over the extended reals, and the law that joins them.

  Write `a i j` for the input matrix (4096 × 4096) and `h`, `u`, `z` for the three float literals both programs
  spell (one half, one, zero).  Both programs return the symmetrised matrix with a unit diagonal, scaled on both sides
  by the guarded inverse square root of its row sums:

    out i j = r i * (h * (a i j + a j i) + [i = j]) * r j,      r i = (s i)^(-1/2) if s i > 0, else zero.

  They differ in how the row sum `s` is formed.  The kernel never builds the symmetrised matrix: it adds the row sums of
  `a` (in two column halves) to its column sums and halves the total, `s i = h * ((∑_{k<2048} a i k + ∑_{k≥2048} a i k) +
  ∑_r a r i) + u`, and puts the unit on the diagonal by a selection between `x + u` and `x`.  The reference sums the
  symmetrised rows, `s i = (∑_j h * (a i j + a j i)) + u`, and adds a selected `u` or `z`.  On FINITE inputs the two sums
  are one real number (a constant factor moves across a finite sum of reals; on the extended reals it need not), and
  `x + z = x`; so the two functions agree there (`GR_eq_GK`).
-/
import Idealize.ShloMosaic.PureOps.Ideal
import Idealize.ShloMosaic.Lib.ValueIdx

noncomputable section

open scoped BigOperators

namespace Cert.Spec

open Idealize.ShloMosaic Idealize.ShloMosaic.ValueIdx

/-- The square shape of the input and of the result. -/
abbrev S : Shape := ⟨2, ![4096, 4096]⟩

/-- The literal one half, as both programs spell it. -/
abbrev half : EReal := Ideal.ofBits .f32 0x3F000000#32
/-- The literal one. -/
abbrev one : EReal := Ideal.ofBits .f32 0x3F800000#32
/-- The literal zero. -/
abbrev zero : EReal := Ideal.ofBits .f32 0x00000000#32

/-- A matrix of extended reals by its two coordinates. -/
abbrev Mat : Type := Fin 4096 → Fin 4096 → EReal

/-- An array read by coordinates. -/
abbrev mat (A : S.Idx → EReal) : Mat := fun i j => A (ix2 i j)

/-- The guarded inverse square root both programs apply to a row sum: `s^(-1/2)` where the ordered comparison `s > zero`
    holds, the literal zero elsewhere. -/
def guard (s : EReal) : EReal := if Ideal.cmp .ogt s zero = 1#1 then Ideal.rsqrt s else zero

/-- Row `i` of `a` summed over the first 2048 columns. -/
def rowL (a : Mat) (i : Fin 4096) : EReal := ∑ k : Fin 2048, a i ⟨k.val, by omega⟩
/-- Row `i` of `a` summed over the last 2048 columns. -/
def rowR (a : Mat) (i : Fin 4096) : EReal := ∑ k : Fin 2048, a i ⟨2048 + k.val, by omega⟩
/-- Column `i` of `a` summed over all rows. -/
def col (a : Mat) (i : Fin 4096) : EReal := ∑ r : Fin 4096, a r i

/-- The kernel's row sum of the symmetrised matrix with its unit diagonal: half of (row sum + column sum), plus one. -/
def sK (a : Mat) (i : Fin 4096) : EReal := half * ((rowL a i + rowR a i) + col a i) + one

/-- The symmetrised entry. -/
def sym (a : Mat) (i j : Fin 4096) : EReal := half * (a i j + a j i)

/-- The kernel's result at `(p, q)`. -/
def gK (a : Mat) (p q : Fin 4096) : EReal :=
  (guard (sK a p) * (if p = q then sym a p q + one else sym a p q)) * guard (sK a q)

/-- The reference's row sum: the symmetrised row summed, plus one. -/
def sR (a : Mat) (i : Fin 4096) : EReal := (∑ j : Fin 4096, sym a i j) + one

/-- The reference's result at `(p, q)`. -/
def gR (a : Mat) (p q : Fin 4096) : EReal :=
  (guard (sR a p) * (sym a p q + (if p = q then one else zero))) * guard (sR a q)

/-- The kernel's result as one function of the input array. -/
def GK (A : S.Idx → EReal) : S.Idx → EReal := fun y => gK (mat A) (y 0) (y 1)
/-- The reference's result as one function of the input array. -/
def GR (A : S.Idx → EReal) : S.Idx → EReal := fun y => gR (mat A) (y 0) (y 1)

theorem GK_ix2 (A : S.Idx → EReal) (p q : Fin 4096) : GK A (ix2 p q) = gK (mat A) p q := rfl
theorem GR_ix2 (A : S.Idx → EReal) (p q : Fin 4096) : GR A (ix2 p q) = gR (mat A) p q := rfl

/-- Every entry of the array is a real number. -/
def Finite (A : S.Idx → EReal) : Prop := ∀ y, ∃ x : ℝ, A y = (x : EReal)

/-! ### The three literals as numbers -/

/-- The literal zero denotes the number zero. -/
theorem zero_eq : zero = 0 := by
  show Ideal.ofBits .f32 0x00000000#32 = 0
  simp [Ideal.ofBits, Ideal.ieee]

/-- The literal one denotes the number one. -/
theorem one_eq : one = 1 := by
  show Ideal.ofBits .f32 0x3F800000#32 = 1
  simp [Ideal.ofBits, Ideal.ieee, -EReal.coe_mul]; norm_num

/-- The literal one half denotes the real number one half. -/
theorem half_eq : half = ((1 / 2 : ℝ) : EReal) := by
  show Ideal.ofBits .f32 0x3F000000#32 = ((1 / 2 : ℝ) : EReal)
  simp [Ideal.ofBits, Ideal.ieee, -EReal.coe_mul]; norm_num

/-! ### The two row sums agree on real matrices -/

/-- The embedding of the reals commutes with a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two half-row sums together are the whole row sum: the 4096 columns are the first 2048 followed by the
    last 2048. -/
theorem rowL_add_rowR (a : Mat) (i : Fin 4096) : rowL a i + rowR a i = ∑ j : Fin 4096, a i j :=
  (Fin.sum_univ_add (a := 2048) (b := 2048) (fun j => a i j)).symm

/-- On a matrix of reals, summing the symmetrised row is halving the sum of the row and the column: the constant
    one half is a real, so it moves across the finite sum of reals. -/
theorem sR_eq_sK (a : Mat) (b : Fin 4096 → Fin 4096 → ℝ) (h : ∀ i j, a i j = (b i j : EReal))
    (i : Fin 4096) : sR a i = sK a i := by
  unfold sR sK
  congr 1
  rw [rowL_add_rowR]
  unfold col sym
  simp only [h, half_eq]
  simp only [← EReal.coe_add, ← EReal.coe_mul, ← coe_sum]
  congr 1
  rw [← Finset.sum_add_distrib, Finset.mul_sum]

/-- Adding a selected one-or-zero is selecting between the sum with one and the bare term. -/
theorem add_select (x : EReal) (c : Prop) [Decidable c] :
    x + (if c then one else zero) = if c then x + one else x := by
  split
  · rfl
  · rw [zero_eq, add_zero]

/-- On a matrix of reals the two results agree entry by entry. -/
theorem gR_eq_gK (a : Mat) (b : Fin 4096 → Fin 4096 → ℝ) (h : ∀ i j, a i j = (b i j : EReal))
    (p q : Fin 4096) : gR a p q = gK a p q := by
  unfold gR gK
  rw [sR_eq_sK a b h, sR_eq_sK a b h, add_select]

/-- On finite inputs the reference's function is the kernel's. -/
theorem GR_eq_GK (A : S.Idx → EReal) (hA : Finite A) : GR A = GK A := by
  funext y
  exact gR_eq_gK (mat A) (fun i j => (hA (ix2 i j)).choose) (fun i j => (hA (ix2 i j)).choose_spec) (y 0) (y 1)

end Cert.Spec

end
-- ==== Proof.KIVal0R.lean ====
/-
  What the sums pass leaves in its per-half row-sum array: entry (h, 0, i) is the sum of row i of the array it read over
  the 2048 columns of half h.

  At point t (half t / 8, strip t % 8) the body multiplies an 8 × 2048 matrix of ones into the 512 × 2048 input strip
  along the strip's columns, from a zero accumulator, and keeps row 0 of the product: entry r of that row is
  ∑_k 1 · x(r, k) = ∑_k x(r, k), the sum of the strip's row r.  The strip's entry (r, k) is the array's entry
  (512 (t % 8) + r, 2048 (t / 8) + k).  The row is stored whole as the 1 × 1 × 512 block and written back at every point
  as block (t / 8, 0, t % 8) of the 2 × 1 × 4096 array, i.e. entries (t / 8, 0, 512 (t % 8) + r).  The sixteen blocks tile
  the array — entry (h, 0, i) lies in the block of point 8 h + i / 512 — so after the last point the array is that one
  function of the input.  The body's two cases (first point of a half or not) differ only in the other output; for this
  one both store the same row.
-/
import proofs.«104055_g2000603544188606_pallasbulk_177_3_alg».proof.Proof.KIReg0
import proofs.«104055_g2000603544188606_pallasbulk_177_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

open scoped BigOperators

namespace Cert.KernelIdeal.KValue

open Cert.KernelIdeal Cert.KernelIdeal.Gen Cert.KernelIdeal.KF
open Idealize.ShloMosaic Idealize.ShloMosaic.TcCoe Idealize.ShloMosaic.ValueIdx Idealize.SL.Sem Idealize.ShloMosaic.Tactic

variable (V : (c : Dev nD) → (b : Ref sig .tc) → Buf (Elt Ideal) ((c : Thread nD τ).loc b))

/-- The array the sums pass reads (window 0), as a plain function of the index. -/
abbrev inArrR (c : Dev nD) : S4096x4096.Idx → EReal := V c main_arg0
/-- The per-half row sums after the pass's last point. -/
abbrev rowsOut (c : Dev nD) : S2x1x4096.Idx → EReal := (KF.dat0 (F := Ideal) V c).arrAt 1 cfg0.N

/-! The steps towards the two row-sum theorems: the block the body leaves, that block read at an entry, the blocks
    located in the arrays, and the tiling. -/
namespace Rows

section Pieces
variable {F : FTy → Type} [FloatOps F]

/-- The zero offsets of a whole-block load or store, at rank 2 and at rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-- On the first point of a half the row-sum block is left at the row the body computes from the input strip. -/
theorem piece_A (c : Dev nD) (i : grid0.Coords) (a2 : Memref sig .tc .vmem S512x2048 .f32) (h2 : a2.IsWhole)
    (a3 : Memref sig .tc .vmem S1x1x512 .f32) (h3 : a3.IsWhole) (a4 : Memref sig .tc .vmem S1x2048 .f32) (h4 : a4.IsWhole)
    (hc0 : cond0_0 i) (x0 : Vec F S512x2048 .f32) :
    out0_A_1 c i a2 h2 a3 h3 a4 h4 hc0 x0 = k0_pay1 x0 := by
  unfold out0_A_1
  rw [View.read_writes_eq_canon _ _ _ (cover0_A_1 c i a2 h2 a3 h3 a4 h4 hc0 x0)]
  unfold kernelRun0_A
  dsimp only
  sl_unfold_words
  rw [View.canon_unit_zero hz3]
  simp only [View.readAt_eq_ld, h2.read_unread, View.ld_unit_zero (S := S512x2048) hz2]

/-- Off the first point of a half the same row is left, whatever the other output held. -/
theorem piece_B (c : Dev nD) (i : grid0.Coords) (a2 : Memref sig .tc .vmem S512x2048 .f32) (h2 : a2.IsWhole)
    (a3 : Memref sig .tc .vmem S1x1x512 .f32) (h3 : a3.IsWhole) (a4 : Memref sig .tc .vmem S1x2048 .f32) (h4 : a4.IsWhole)
    (hc0 : ¬cond0_0 i) (x0 : Vec F S512x2048 .f32) (xo2 : Vec F S1x2048 .f32) :
    out0_B_1 c i a2 h2 a3 h3 a4 h4 hc0 x0 xo2 = k0_pay1 x0 := by
  unfold out0_B_1
  rw [View.read_writes_eq_canon _ _ _ (cover0_B_1 c i a2 h2 a3 h3 a4 h4 hc0 x0 xo2)]
  unfold kernelRun0_B
  dsimp only
  sl_unfold_words
  rw [View.canon_unit_zero hz3]
  simp only [View.readAt_eq_ld, h2.read_unread, View.ld_unit_zero (S := S512x2048) hz2]

end Pieces

section Payload

/-- Along the strip's rows (the right operand's axis 0) the product reads the result's column coordinate. -/
theorem rhs_axis0 (j : S8x512.Idx) (k : dot_S8x2048_S512x2048_S8x512_1_1_0_0_n_n.contr.Idx) :
    (dot_S8x2048_S512x2048_S8x512_1_1_0_0_n_n.rhsIdx j k (0 : Fin 2)).val = (j (1 : Fin 2)).val := by
  unfold DotDims.rhsIdx
  rw [dif_neg (show ¬(0 : Fin S512x2048.rank) ∈ dot_S8x2048_S512x2048_S8x512_1_1_0_0_n_n.rhsBatch by decide),
    dif_pos (show (0 : Fin S512x2048.rank) ∈ dot_S8x2048_S512x2048_S8x512_1_1_0_0_n_n.rhsNonContracting by decide)]
  rfl

/-- Along the strip's columns (the right operand's axis 1, the contracted one) it reads the summation index. -/
theorem rhs_axis1 (j : S8x512.Idx) (k : dot_S8x2048_S512x2048_S8x512_1_1_0_0_n_n.contr.Idx) :
    (dot_S8x2048_S512x2048_S8x512_1_1_0_0_n_n.rhsIdx j k (1 : Fin 2)).val = (k ⟨0, by decide⟩).val :=
  dot_S8x2048_S512x2048_S8x512_1_1_0_0_n_n.rhsIdx_val_of_single (cr := (1 : Fin 2)) rfl j k

/-- A matrix of ones times the strip, contracted along the strip's columns from a zero accumulator: entry `(a, r)` is
    the sum of the strip's row `r` (each product is one times an entry). -/
theorem ones_matmul (x0 : FVec Ideal S512x2048 .f32) (a : Fin 8) (r : Fin 512) :
    (matmul dot_S8x2048_S512x2048_S8x512_1_1_0_0_n_n none
        (broadcast S8x2048 (Scalar.ofBits (F := Ideal) .f32 0x3F800000#32)) x0
        (constant S8x512 .f32 0x00000000#32) : S8x512.Idx → EReal) (ix2 a r)
      = ∑ k : Fin 2048, x0 (ix2 r k) := by
  refine (Ideal.matmul_constant_zero_apply dot_S8x2048_S512x2048_S8x512_1_1_0_0_n_n none _ x0 (ix2 a r)).trans ?_
  rw [← Equiv.sum_comp (contrEquiv1 dot_S8x2048_S512x2048_S8x512_1_1_0_0_n_n 2048 rfl rfl).symm]
  refine Finset.sum_congr rfl fun k _ => ?_
  rw [broadcast_apply]
  show Cert.Spec.one * _ = _
  rw [Cert.Spec.one_eq, one_mul]
  refine congrArg x0 (funext fun ax => Fin.ext ?_)
  match ax with
  | ⟨0, _⟩ => exact rhs_axis0 _ _
  | ⟨1, _⟩ => exact (rhs_axis1 _ _).trans (contrEquiv1_symm_val dot_S8x2048_S512x2048_S8x512_1_1_0_0_n_n 2048 rfl rfl k)

/-- The row the body stores, read at entry `r`: the sum of the input strip's row `r` over its 2048 columns. -/
theorem pay1_apply (x0 : Vec Ideal S512x2048 .f32) (r : Fin 512) :
    (k0_pay1 (F := Ideal) x0 : S1x1x512.Idx → EReal) (ix3 (0 : Fin 1) (0 : Fin 1) r) = ∑ k : Fin 2048, x0 (ix2 r k) := by
  unfold k0_pay1
  refine (shapeCast_ab_1ab_apply _ _ (0 : Fin 1) (0 : Fin 1) r).trans ?_
  refine (slice2_axis0_apply 0 _ _ (0 : Fin 1) r (0 : Fin 8) rfl).trans ?_
  exact ones_matmul x0 0 r

end Payload

section Blocks

/-- Row `i` of an array summed over the 2048 columns of half `h`. -/
abbrev halfRow (A : S4096x4096.Idx → EReal) (h : Fin 2) (i : Fin 4096) : EReal :=
  ∑ k : Fin 2048, A (ix2 i (⟨2048 * h.val + k.val, by omega⟩ : Fin 4096))

/-- The whole per-half row-sum array as one function of the input array. -/
abbrev rowSums (A : S4096x4096.Idx → EReal) : S2x1x4096.Idx → EReal := fun y => halfRow A (y 0) (y 2)

/-- The whole-array function read at coordinates. -/
theorem rowSums_ix3 (A : S4096x4096.Idx → EReal) (h : Fin 2) (u : Fin 1) (i : Fin 4096) :
    rowSums A (ix3 h u i) = halfRow A h i := rfl

/-- Where the two windows' blocks sit at point `t`: the input strip at block row `t % 8`, block column `t / 8`; the
    row-sum block at `(t / 8, 0, t % 8)`.  Decided once over the sixteen points. -/
theorem idx_facts : ∀ t : Fin cfg0.N,
    win0_0.index t (0 : Fin 2) = t.val % 8 ∧ win0_0.index t (1 : Fin 2) = t.val / 8
    ∧ win0_1.index t (0 : Fin 3) = t.val / 8 ∧ win0_1.index t (1 : Fin 3) = 0 ∧ win0_1.index t (2 : Fin 3) = t.val % 8
    ∧ t.val < 16 :=
  (by decide +kernel : ∀ t : Fin grid0.N, _)

/-- Point `t`'s input strip read at `(r, s)`: the array at row `512 (t % 8) + r`, column `2048 (t / 8) + s`. -/
theorem blk0_read (c : Dev nD) (t : Fin cfg0.N) (r : Fin 512) (s : Fin 2048) (hp : 512 * (t.val % 8) + r.val < 4096)
    (hq : 2048 * (t.val / 8) + s.val < 4096) :
    (iblk0 (F := Ideal) V c 0 t : S512x2048.Idx → EReal) (ix2 r s)
      = inArrR V c (ix2 (⟨512 * (t.val % 8) + r.val, hp⟩ : Fin 4096) (⟨2048 * (t.val / 8) + s.val, hq⟩ : Fin 4096)) := by
  obtain ⟨e00, e01, e10, e11, e12, ht⟩ := idx_facts t
  show V c main_arg0 (((cfg0.win 0).blk t).view.emb (ix2 r s)) = V c main_arg0 _
  refine congrArg (V c main_arg0) (funext fun a => Fin.ext ?_)
  match a with
  | ⟨0, _⟩ => show win0_0.index t (0 : Fin 2) * 512 + 1 * r.val = 512 * (t.val % 8) + r.val; omega
  | ⟨1, _⟩ => show win0_0.index t (1 : Fin 2) * 2048 + 1 * s.val = 2048 * (t.val / 8) + s.val; omega

/-- Point `t`'s row-sum block of any whole-array function, read at entry `r`. -/
theorem blk1_read (G : S2x1x4096.Idx → EReal) (t : Fin cfg0.N) (r : Fin 512) (hh : t.val / 8 < 2)
    (hp : 512 * (t.val % 8) + r.val < 4096) :
    (((cfg0.win 1).blk t).view.read (Elt Ideal) G : S1x1x512.Idx → EReal) (ix3 (0 : Fin 1) (0 : Fin 1) r)
      = G (ix3 (⟨t.val / 8, hh⟩ : Fin 2) (0 : Fin 1) (⟨512 * (t.val % 8) + r.val, hp⟩ : Fin 4096)) := by
  obtain ⟨e00, e01, e10, e11, e12, ht⟩ := idx_facts t
  show G (((cfg0.win 1).blk t).view.emb (ix3 (0 : Fin 1) (0 : Fin 1) r)) = G _
  refine congrArg G (funext fun a => Fin.ext ?_)
  match a with
  | ⟨0, _⟩ => show win0_1.index t (0 : Fin 3) * 1 + 1 * 0 = t.val / 8; omega
  | ⟨1, _⟩ => show win0_1.index t (1 : Fin 3) * 1 + 1 * 0 = 0; omega
  | ⟨2, _⟩ => show win0_1.index t (2 : Fin 3) * 512 + 1 * r.val = 512 * (t.val % 8) + r.val; omega

/-- What the row-sum block holds after the body at point `t`, at entry `r`: the sum of the array's row
    `512 (t % 8) + r` over the columns `2048 (t / 8) + k`. Both cases of the body leave the same row. -/
theorem after_apply (c : Dev nD) (t : Fin cfg0.N) (r : Fin 512) (hp : 512 * (t.val % 8) + r.val < 4096)
    (hq : ∀ k : Fin 2048, 2048 * (t.val / 8) + k.val < 4096) :
    ((outsAt0 (F := Ideal) V c t.val t.isLt).1 : S1x1x512.Idx → EReal) (ix3 (0 : Fin 1) (0 : Fin 1) r)
      = ∑ k : Fin 2048, inArrR V c (ix2 (⟨512 * (t.val % 8) + r.val, hp⟩ : Fin 4096) (⟨2048 * (t.val / 8) + k.val, hq k⟩ : Fin 4096)) := by
  by_cases h0 : t.val % 8 = 0
  · rw [outsAt0_A V c t h0]
    dsimp only
    refine (congrFun (piece_A (F := Ideal) c (grid0.coords t) (ms0_0 t) (hs0_0 t) (ms0_1 t) (hs0_1 t) (ms0_2 t) (hs0_2 t)
      ((hcond0_0 t).mpr h0) (iblk0 V c 0 t)) (ix3 (0 : Fin 1) (0 : Fin 1) r)).trans ?_
    refine (pay1_apply (iblk0 V c 0 t) r).trans ?_
    exact Finset.sum_congr rfl fun k _ => blk0_read V c t r k hp (hq k)
  · rw [outsAt0_B V c t h0]
    dsimp only
    refine (congrFun (piece_B (F := Ideal) c (grid0.coords t) (ms0_0 t) (hs0_0 t) (ms0_1 t) (hs0_1 t) (ms0_2 t) (hs0_2 t)
      (fun h => h0 ((hcond0_0 t).mp h)) (iblk0 V c 0 t)
      (outsAt0 V c (t.val - 1) (Nat.lt_of_le_of_lt (Nat.sub_le _ _) t.isLt)).2) (ix3 (0 : Fin 1) (0 : Fin 1) r)).trans ?_
    refine (pay1_apply (iblk0 V c 0 t) r).trans ?_
    exact Finset.sum_congr rfl fun k _ => blk0_read V c t r k hp (hq k)

/-- What point `t` writes back is its block of the one whole-array function of the input array. -/
theorem flushed_eq (c : Dev nD) (t : Fin cfg0.N) :
    (dat0 (F := Ideal) V c).flushed 1 t = ((cfg0.win 1).blk t).view.read (Elt Ideal) (rowSums (inArrR V c)) := by
  show (cfg0.win 1).cut (grid0.coords t) ((dat0 (F := Ideal) V c).after 1 t) = _
  rw [after0_1]
  obtain ⟨e00, e01, e10, e11, e12, ht⟩ := idx_facts t
  funext j
  obtain ⟨u, v, r, rfl⟩ : ∃ (u v : Fin 1) (r : Fin 512), j = ix3 u v r := ⟨j 0, j 1, j 2, eq_ix3 j⟩
  obtain rfl : u = 0 := Subsingleton.elim _ _
  obtain rfl : v = 0 := Subsingleton.elim _ _
  have hh : t.val / 8 < 2 := by omega
  have hp : 512 * (t.val % 8) + r.val < 4096 := by have := r.isLt; omega
  have hq : ∀ k : Fin 2048, 2048 * (t.val / 8) + k.val < 4096 := fun k => by have := k.isLt; omega
  refine (after_apply V c t r hp hq).trans ?_
  exact ((blk1_read _ t r hh hp).trans (rowSums_ix3 _ _ _ _)).symm

/-- An index of the array is in point `t`'s block iff each coordinate is in the block's range on its axis. -/
theorem mem_blk (t : Fin cfg0.N) (i : S2x1x4096.Idx) :
    i ∈ ((cfg0.win 1).blk t).view.set ↔ ∀ a : Fin 3, win0_1.index t a * S1x1x512.size a ≤ (i a).val
      ∧ (i a).val < win0_1.index t a * S1x1x512.size a + S1x1x512.size a := by
  show i ∈ ((View.whole main_v0_0).slice (win0_1.rect t)).set ↔ _
  rw [View.set_slice_whole, Rect.mem_set_unit]
  exact Iff.rfl

/-- The sixteen blocks tile the array: entry `(h, 0, p)` is in the block of point `8 h + p / 512`. -/
theorem cover (i : S2x1x4096.Idx) :
    ∃ t : Fin cfg0.N, (cfg0.win 1).flush t = true ∧ i ∈ ((cfg0.win 1).blk t).view.set := by
  obtain ⟨h, u, p, rfl⟩ : ∃ (h : Fin 2) (u : Fin 1) (p : Fin 4096), i = ix3 h u p := ⟨i 0, i 1, i 2, eq_ix3 i⟩
  have hh := h.isLt
  have hu := u.isLt
  have hp := p.isLt
  have hlt : 8 * h.val + p.val / 512 < cfg0.N := by
    show _ < grid0.N
    rw [N_0]; omega
  obtain ⟨e00, e01, e10, e11, e12, ht⟩ := idx_facts ⟨_, hlt⟩
  have e10' : win0_1.index ⟨_, hlt⟩ (0 : Fin 3) = (8 * h.val + p.val / 512) / 8 := e10
  have e12' : win0_1.index ⟨_, hlt⟩ (2 : Fin 3) = (8 * h.val + p.val / 512) % 8 := e12
  refine ⟨⟨_, hlt⟩, flush0_1 _, ?_⟩
  rw [mem_blk]
  intro a
  match a with
  | ⟨0, _⟩ =>
    show win0_1.index ⟨_, hlt⟩ (0 : Fin 3) * 1 ≤ h.val ∧ h.val < win0_1.index ⟨_, hlt⟩ (0 : Fin 3) * 1 + 1
    rw [e10']; omega
  | ⟨1, _⟩ =>
    show win0_1.index ⟨_, hlt⟩ (1 : Fin 3) * 1 ≤ u.val ∧ u.val < win0_1.index ⟨_, hlt⟩ (1 : Fin 3) * 1 + 1
    rw [e11]; omega
  | ⟨2, _⟩ =>
    show win0_1.index ⟨_, hlt⟩ (2 : Fin 3) * 512 ≤ p.val ∧ p.val < win0_1.index ⟨_, hlt⟩ (2 : Fin 3) * 512 + 512
    rw [e12']; omega

end Blocks

end Rows

/-- After the pass's last point the row-sum array holds, at `(h, 0, i)`, row `i` of the input summed over the 2048 columns of
    half `h`. -/
theorem rows_value (c : Dev nD) (h : Fin 2) (i : Fin 4096) :
    rowsOut V c (ix3 h (0 : Fin 1) i) = Rows.halfRow (inArrR V c) h i := by
  have e := (KF.dat0 (F := Ideal) V c).arrAt_eq_of_cover 1 (Rows.rowSums (inArrR V c))
    (fun t _ => Rows.flushed_eq V c t) Rows.cover
  exact (congrFun e (ix3 h (0 : Fin 1) i)).trans (Rows.rowSums_ix3 _ h 0 i)

/-- Half 0 of the row sums: row `i` over the first 2048 columns. -/
theorem rows_value_left (c : Dev nD) (i : Fin 4096) :
    rowsOut V c (ix3 (0 : Fin 2) (0 : Fin 1) i) = Cert.Spec.rowL (Cert.Spec.mat (inArrR V c)) i := by
  refine (rows_value V c 0 i).trans ?_
  unfold Cert.Spec.rowL
  refine Finset.sum_congr rfl fun k _ => ?_
  refine congrArg (inArrR V c) (congrArg (ix2 i) (Fin.ext ?_))
  show 2048 * 0 + k.val = k.val
  omega

/-- Half 1 of the row sums: row `i` over the last 2048 columns. -/
theorem rows_value_right (c : Dev nD) (i : Fin 4096) :
    rowsOut V c (ix3 (1 : Fin 2) (0 : Fin 1) i) = Cert.Spec.rowR (Cert.Spec.mat (inArrR V c)) i := by
  refine (rows_value V c 1 i).trans ?_
  unfold Cert.Spec.rowR
  refine Finset.sum_congr rfl fun k _ => ?_
  refine congrArg (inArrR V c) (congrArg (ix2 i) (Fin.ext ?_))
  show 2048 * 1 + k.val = 2048 + k.val
  omega

end Cert.KernelIdeal.KValue

end
-- ==== Proof.KIVal0C.lean ====
/-
  What the sums pass leaves in its two result arrays: the per-half row sums and the column sums of the array it read.

  Per-half row sums.  At point `(c, i)` the body multiplies an 8 × 2048 matrix of ones into the 512 × 2048 strip along
  the strip's columns (a zero accumulator) and keeps row 0: entry `r` is the sum of the strip's row `r`, i.e. of row
  `512 i + r` of the array over the columns of half `c`.  Each point writes its own block `(c, 0, i)` of the 2 × 1 × 4096
  array, and the sixteen blocks tile it.
  Column sums.  The 1 × 2048 block `(0, c)` stays in place over the eight points of half `c`: cleared on the first, each
  point adds the strip's column sums (a reduction over the strip's 512 rows).  After the eighth point entry `s` is the sum
  over all eight strips, i.e. over all 4096 rows, of column `2048 c + s`; only then is the block written back.
-/
import proofs.«104055_g2000603544188606_pallasbulk_177_3_alg».proof.Proof.KIReg0
import proofs.«104055_g2000603544188606_pallasbulk_177_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KValue

open Cert.KernelIdeal Cert.KernelIdeal.Gen Cert.KernelIdeal.KF
open Idealize.ShloMosaic Idealize.ShloMosaic.TcCoe Idealize.ShloMosaic.ValueIdx Idealize.SL.Sem

variable (V : (c : Dev nD) → (b : Ref sig .tc) → Buf (Elt Ideal) ((c : Thread nD τ).loc b))

/-- The array the sums pass reads (window 0), as a plain function of the index. -/
abbrev inArrC (c : Dev nD) : S4096x4096.Idx → EReal := V c main_arg0
/-- The column sums after the pass's last point. -/
abbrev colsOut (c : Dev nD) : S1x4096.Idx → EReal := (KF.dat0 (F := Ideal) V c).arrAt 2 cfg0.N

/-! The steps that lead to `cols_value`. -/
namespace Cols

/-- The zero offsets of a whole-block access, however spelt. -/
theorem hz2 : (![0, 0] : Fin 2 → Nat) = fun _ => 0 := funext fun a => by fin_cases a <;> rfl

section Pieces

variable {F : FTy → Type} [FloatOps F]

/-- Off the first point of a half the body leaves, in the column-sum block holding `xo2`, the update of `xo2` by the
    strip `x0`: its one store covers the block. -/
theorem out_B_2 (c : Dev nD) (i : grid0.Coords) (a2 : Memref sig .tc .vmem S512x2048 .f32) (h2 : a2.IsWhole)
    (a3 : Memref sig .tc .vmem S1x1x512 .f32) (h3 : a3.IsWhole) (a4 : Memref sig .tc .vmem S1x2048 .f32) (h4 : a4.IsWhole)
    (hc : ¬cond0_0 i) (x0 : Vec F S512x2048 .f32) (xo2 : Vec F S1x2048 .f32) :
    out0_B_2 c i a2 h2 a3 h3 a4 h4 hc x0 xo2 = k0_pay3 x0 xo2 := by
  unfold out0_B_2
  rw [View.read_writes_eq_canon _ _ _ (cover0_B_2 c i a2 h2 a3 h3 a4 h4 hc x0 xo2)]
  unfold kernelRun0_B
  dsimp only
  sl_unfold_words
  rw [View.canon_unit_zero hz2]
  simp only [View.readAt_eq_ld, h2.read_unread, h4.read_unread, View.ld_unit_zero (S := S512x2048) hz2,
    View.ld_unit_zero (S := S1x2048) hz2]

/-- On the first point of a half the body clears the block and then updates the cleared block by the strip `x0`: the
    update's store is the later of the two and covers the block, and what it read back is what the clearing store wrote. -/
theorem out_A_2 (c : Dev nD) (i : grid0.Coords) (a2 : Memref sig .tc .vmem S512x2048 .f32) (h2 : a2.IsWhole)
    (a3 : Memref sig .tc .vmem S1x1x512 .f32) (h3 : a3.IsWhole) (a4 : Memref sig .tc .vmem S1x2048 .f32) (h4 : a4.IsWhole)
    (hc : cond0_0 i) (x0 : Vec F S512x2048 .f32) :
    out0_A_2 c i a2 h2 a3 h3 a4 h4 hc x0 = k0_pay3 x0 (k0_pay2 (F := F)) := by
  unfold out0_A_2
  rw [View.read_writes_eq_canon _ _ _ (cover0_A_2 c i a2 h2 a3 h3 a4 h4 hc x0)]
  unfold kernelRun0_A
  dsimp only
  sl_unfold_words
  rw [View.canon_cons_unit_zero (S := S1x2048) hz2, View.readCov_unit_zero (S := S1x2048) _ hz2]
  simp only [View.readAt_eq_ld, h2.read_unread, View.ld_unit_zero (S := S512x2048) hz2]

end Pieces

/-! ### The update at an entry -/

/-- The update of a block `v9` by a strip `x0`, at entry `s`: the block's entry plus the sum of the strip's column `s`
    over its 512 rows. -/
theorem pay3_apply (x0 : Vec Ideal S512x2048 .f32) (v9 : Vec Ideal S1x2048 .f32) (s : Fin 2048) :
    k0_pay3 (F := Ideal) x0 v9 (ix2 (0 : Fin 1) s) = v9 (ix2 (0 : Fin 1) s) + ∑ r : Fin 512, x0 (ix2 r s) := by
  unfold k0_pay3
  refine (addf_apply _ _ (ix2 (0 : Fin 1) s)).trans ?_
  refine congrArg₂ (· + ·) ?_ ?_
  · exact congrFun (shapeCast_self v9 _) _
  · refine (shapeCast_a_1a_apply _ _ (0 : Fin 1) s).trans ?_
    refine (Ideal.multiReduction_add_single x0 0x00000000#32 reduces_S512x2048_S2048 (.inl rfl) rfl (ix1 s)).trans ?_
    refine Finset.sum_congr rfl fun r _ => congrArg x0 ?_
    funext a
    match a with
    | ⟨0, _⟩ => rfl
    | ⟨1, _⟩ => rfl

/-- The cleared block is zero at every entry. -/
theorem pay2_apply (j : S1x2048.Idx) : k0_pay2 (F := Ideal) j = 0 := by
  unfold k0_pay2
  exact Ideal.ofBits_zero_f32

/-! ### The eight points of a half, chained -/

/-- The input strip (512 rows by 2048 columns) the body is handed at point `t`. -/
abbrev xblk (c : Dev nD) (t : Fin cfg0.N) : Vec Ideal S512x2048 .f32 := iblk0 V c 0 t

/-- Column `s` of the strip at point `n`, summed over the strip's 512 rows (zero past the grid's last point). -/
def blkCol (c : Dev nD) (n : ℕ) (s : Fin 2048) : EReal :=
  if hn : n < cfg0.N then ∑ r : Fin 512, xblk V c ⟨n, hn⟩ (ix2 r s) else 0

theorem blkCol_of_lt (c : Dev nD) (n : ℕ) (hn : n < cfg0.N) (s : Fin 2048) :
    blkCol V c n s = ∑ r : Fin 512, xblk V c ⟨n, hn⟩ (ix2 r s) := dif_pos hn

/-- After the first point of a half the block holds, at entry `s`, that strip's column sum (added to zero). -/
theorem step_A (c : Dev nD) (n : ℕ) (hn : n < cfg0.N) (h0 : n % 8 = 0) (s : Fin 2048) :
    (outsAt0 V c n hn).2 (ix2 (0 : Fin 1) s) = blkCol V c n s := by
  have e : (outsAt0 V c n hn).2 = out0_A_2 c (grid0.coords ⟨n, hn⟩) (ms0_0 ⟨n, hn⟩) (hs0_0 ⟨n, hn⟩) (ms0_1 ⟨n, hn⟩)
      (hs0_1 ⟨n, hn⟩) (ms0_2 ⟨n, hn⟩) (hs0_2 ⟨n, hn⟩) ((hcond0_0 ⟨n, hn⟩).mpr h0) (iblk0 V c 0 ⟨n, hn⟩) := by
    rw [outsAt0_A V c ⟨n, hn⟩ h0]
  refine (congrFun e (ix2 (0 : Fin 1) s)).trans ?_
  refine (congrFun (out_A_2 (F := Ideal) c (grid0.coords ⟨n, hn⟩) (ms0_0 ⟨n, hn⟩) (hs0_0 ⟨n, hn⟩) (ms0_1 ⟨n, hn⟩)
    (hs0_1 ⟨n, hn⟩) (ms0_2 ⟨n, hn⟩) (hs0_2 ⟨n, hn⟩) ((hcond0_0 ⟨n, hn⟩).mpr h0) (iblk0 V c 0 ⟨n, hn⟩))
    (ix2 (0 : Fin 1) s)).trans ?_
  refine (pay3_apply (xblk V c ⟨n, hn⟩) (k0_pay2 (F := Ideal)) s).trans ?_
  rw [pay2_apply, zero_add, blkCol_of_lt V c n hn s]

/-- The block after a point does not depend on how the point's number is spelt. -/
theorem outs_congr (c : Dev nD) {u v : ℕ} (e : u = v) (hu : u < cfg0.N) (hv : v < cfg0.N) :
    outsAt0 V c u hu = outsAt0 V c v hv := by
  subst e; rfl

/-- After any other point of a half the block holds, at entry `s`, what the point before left there plus this strip's
    column sum. -/
theorem step_B (c : Dev nD) (n : ℕ) (hn : n + 1 < cfg0.N) (h0 : ¬(n + 1) % 8 = 0) (s : Fin 2048) :
    (outsAt0 V c (n + 1) hn).2 (ix2 (0 : Fin 1) s)
      = (outsAt0 V c n (Nat.lt_of_succ_lt hn)).2 (ix2 (0 : Fin 1) s) + blkCol V c (n + 1) s := by
  rw [outsAt0_B V c ⟨n + 1, hn⟩ h0]
  dsimp only
  rw [outs_congr V c (Nat.add_sub_cancel n 1) _ (Nat.lt_of_succ_lt hn)]
  refine (congrFun (out_B_2 (F := Ideal) c (grid0.coords ⟨n + 1, hn⟩) (ms0_0 ⟨n + 1, hn⟩) (hs0_0 ⟨n + 1, hn⟩)
    (ms0_1 ⟨n + 1, hn⟩) (hs0_1 ⟨n + 1, hn⟩) (ms0_2 ⟨n + 1, hn⟩) (hs0_2 ⟨n + 1, hn⟩)
    (fun h => h0 ((hcond0_0 ⟨n + 1, hn⟩).mp h)) (iblk0 V c 0 ⟨n + 1, hn⟩)
    (outsAt0 V c n (Nat.lt_of_succ_lt hn)).2) (ix2 (0 : Fin 1) s)).trans ?_
  refine (pay3_apply (xblk V c ⟨n + 1, hn⟩) (outsAt0 V c n (Nat.lt_of_succ_lt hn)).2 s).trans ?_
  rw [blkCol_of_lt V c (n + 1) hn s]

/-- Within a half that starts at point `b`: after its point `b + k` the block holds, at entry `s`, the column sums of
    the strips of points `b` to `b + k` added up. -/
theorem run_value (c : Dev nD) (b : ℕ) (hb : b % 8 = 0) (s : Fin 2048) :
    ∀ (k : ℕ), k < 8 → ∀ (h : b + k < cfg0.N),
      (outsAt0 V c (b + k) h).2 (ix2 (0 : Fin 1) s) = ∑ m ∈ Finset.range (k + 1), blkCol V c (b + m) s
  | 0, _, h => (step_A V c b h hb s).trans (Finset.sum_range_one (fun m => blkCol V c (b + m) s)).symm
  | k + 1, hk, h => by
    rw [Finset.sum_range_succ _ (k + 1)]
    refine (step_B V c (b + k) h (by omega) s).trans ?_
    exact congrArg (· + blkCol V c (b + (k + 1)) s) (run_value c b hb s k (by omega) (Nat.lt_of_succ_lt h))

/-! ### The strips located in the array, and the eight partial sums regrouped -/

/-- The block indices of the two windows at every point of the grid: the input strip is (strip, half), the column-sum
    block (0, half), where the point `t` has half `t / 8` and strip `t % 8`. -/
theorem idx_facts : ∀ t : Fin cfg0.N, win0_0.index t (0 : Fin 2) = t.val % 8 ∧ win0_0.index t (1 : Fin 2) = t.val / 8
    ∧ win0_2.index t (0 : Fin 2) = 0 ∧ win0_2.index t (1 : Fin 2) = t.val / 8 :=
  (by decide +kernel : ∀ t : Fin grid0.N, _)

/-- An entry of the input strip at point `t` is the array's entry at row 512 · strip + (row in the strip) and column
    2048 · half + (column in the strip). -/
theorem blk_read (c : Dev nD) (t : Fin cfg0.N) (r : Fin 512) (s : Fin 2048) (i j : Fin 4096)
    (hi : i.val = 512 * (t.val % 8) + r.val) (hj : j.val = 2048 * (t.val / 8) + s.val) :
    xblk V c t (ix2 r s) = inArrC V c (ix2 i j) := by
  obtain ⟨e0, e1, -, -⟩ := idx_facts t
  unfold xblk iblk0
  rw [View.read_apply]
  show V c main_arg0 _ = V c main_arg0 _
  congr 1
  funext a
  apply Fin.ext
  match a with
  | ⟨0, _⟩ => show win0_0.index t 0 * 512 + 1 * r.val = i.val; rw [e0]; omega
  | ⟨1, _⟩ => show win0_0.index t 1 * 2048 + 1 * s.val = j.val; rw [e1]; omega

/-- Eight sums over 512 consecutive rows each are the sum over all 4096 rows: a row is 512 · strip + (row in the strip). -/
theorem sum_strips (f : Fin 4096 → EReal) :
    ∑ m : Fin 8, ∑ r : Fin 512, f ⟨512 * m.val + r.val, by omega⟩ = ∑ i : Fin 4096, f i := by
  rw [← Fintype.sum_prod_type' (fun (m : Fin 8) (r : Fin 512) => f ⟨512 * m.val + r.val, by omega⟩)]
  exact Fintype.sum_equiv (finProdFinEquiv (m := 8) (n := 512)) _ f (fun p => congrArg f (Fin.ext (by
    show 512 * p.1.val + p.2.val = p.2.val + 512 * p.1.val
    omega)))

/-- What the block holds after the last point of a half, at entry `s`: the sum of the array's column
    2048 · half + `s` over all 4096 rows. -/
theorem half_value (c : Dev nD) (t : Fin cfg0.N) (h7 : t.val % 8 = 7) (s : Fin 2048) (j : Fin 4096)
    (hj : j.val = 2048 * (t.val / 8) + s.val) :
    (outsAt0 V c t.val t.isLt).2 (ix2 (0 : Fin 1) s) = Cert.Spec.col (Cert.Spec.mat (inArrC V c)) j := by
  have hN : cfg0.N = 16 := N_0
  obtain ⟨n, hn⟩ := t
  dsimp only at h7 hj ⊢
  obtain ⟨b, rfl⟩ : ∃ b, n = b + 7 := ⟨n - 7, by omega⟩
  have hb : b % 8 = 0 := by omega
  refine (run_value V c b hb s 7 (by omega) hn).trans ?_
  show ∑ m ∈ Finset.range 8, blkCol V c (b + m) s = ∑ i : Fin 4096, inArrC V c (ix2 i j)
  rw [Finset.sum_range (fun m => blkCol V c (b + m) s)]
  refine Eq.trans ?_ (sum_strips (fun i => inArrC V c (ix2 i j)))
  refine Finset.sum_congr rfl fun m _ => ?_
  have hm : b + m.val < cfg0.N := by omega
  rw [blkCol_of_lt V c (b + m.val) hm s]
  exact Finset.sum_congr rfl fun r _ => blk_read V c ⟨b + m.val, hm⟩ r s ⟨512 * m.val + r.val, by omega⟩ j
    (by dsimp only; omega) (by dsimp only; omega)

/-! ### The blocks written back tile the result row -/

/-- The result array as one function of its index: entry (0, j) is the sum of the array's column `j`. -/
abbrev colArr (c : Dev nD) : S1x4096.Idx → EReal :=
  fun y => Cert.Spec.col (Cert.Spec.mat (inArrC V c)) ⟨(y 1).val, idx2_lt1 y⟩

/-- What a point that writes the block back writes is the block of `colArr` at its place in the array. -/
theorem flushed_eq (c : Dev nD) (t : Fin cfg0.N) (hf : (cfg0.win 2).flush t = true) :
    (dat0 V c).flushed 2 t = ((cfg0.win 2).blk t).view.read (Elt Ideal) (colArr V c) := by
  have h7 : t.val % 8 = 7 := (flush0_2 t).mp hf
  obtain ⟨-, -, e0, e1⟩ := idx_facts t
  show (cfg0.win 2).cut (grid0.coords t) ((dat0 V c).after 2 t) = _
  rw [after0_2]
  funext y
  have hy : (y : S1x2048.Idx) = ix2 (0 : Fin 1) (⟨(y 1).val, idx2_lt1 (n0 := 1) (n1 := 2048) y⟩ : Fin 2048) :=
    funext fun a => Fin.ext (by
      match a with
      | ⟨0, _⟩ => have := idx2_lt0 (n0 := 1) (n1 := 2048) y; show (y 0).val = 0; omega
      | ⟨1, _⟩ => rfl)
  show (outsAt0 V c t.val t.isLt).2 y = colArr V c (((cfg0.win 2).blk t).view.emb y)
  refine (congrArg (outsAt0 V c t.val t.isLt).2 hy).trans ?_
  refine half_value V c t h7 _ _ ?_
  show win0_2.index t 1 * 2048 + 1 * (y 1).val = 2048 * (t.val / 8) + (y 1).val
  rw [e1]; omega

/-- An index of the result array is in point `t`'s block iff each coordinate is in the block's range on its axis. -/
theorem mem_blk (t : Fin cfg0.N) (i : S1x4096.Idx) :
    i ∈ ((cfg0.win 2).blk t).view.set ↔ ∀ a : Fin 2, win0_2.index t a * S1x2048.size a ≤ (i a).val
      ∧ (i a).val < win0_2.index t a * S1x2048.size a + S1x2048.size a := by
  show i ∈ ((View.whole main_v0_1).slice (win0_2.rect t)).set ↔ _
  rw [View.set_slice_whole, Rect.mem_set_unit]
  exact Iff.rfl

/-- Column `j` of the result row lies in the block written back at the last point of its half. -/
theorem cover (i : S1x4096.Idx) :
    ∃ t : Fin cfg0.N, (cfg0.win 2).flush t = true ∧ i ∈ ((cfg0.win 2).blk t).view.set := by
  have hN : cfg0.N = 16 := N_0
  have hi0 : (i 0).val < 1 := idx2_lt0 i
  have hi1 : (i 1).val < 4096 := idx2_lt1 i
  obtain ⟨t, ht⟩ : ∃ t : Fin cfg0.N, t.val = 8 * ((i 1).val / 2048) + 7 := ⟨⟨8 * ((i 1).val / 2048) + 7, by omega⟩, rfl⟩
  obtain ⟨-, -, e0, e1⟩ := idx_facts t
  refine ⟨t, (flush0_2 t).mpr (by omega), ?_⟩
  rw [mem_blk]
  intro a
  match a with
  | ⟨0, _⟩ =>
    show win0_2.index t 0 * 1 ≤ (i 0).val ∧ (i 0).val < win0_2.index t 0 * 1 + 1
    rw [e0]; omega
  | ⟨1, _⟩ =>
    show win0_2.index t 1 * 2048 ≤ (i 1).val ∧ (i 1).val < win0_2.index t 1 * 2048 + 2048
    rw [e1]; omega

/-- So after the last point the result array is `colArr`. -/
theorem final (c : Dev nD) : (dat0 V c).arrAt 2 cfg0.N = colArr V c :=
  (dat0 V c).arrAt_eq_of_cover 2 (colArr V c) (flushed_eq V c) cover

end Cols

/-- The column sums: column `j` over all 4096 rows. -/
theorem cols_value (c : Dev nD) (j : Fin 4096) :
    colsOut V c (ix2 (0 : Fin 1) j) = Cert.Spec.col (Cert.Spec.mat (inArrC V c)) j :=
  congrFun (Cols.final V c) (ix2 (0 : Fin 1) j)

end Cert.KernelIdeal.KValue

end
-- ==== Proof.KIVal1.lean ====
/-
  What the scaling pass leaves in the result: entry `(p, q)` is the scale at `p`, times the symmetrised entry
  `h * (a p q + a q p)` with one added on the diagonal (a selection between `x + one` and `x`), times the scale at `q`.

  The pass walks the result in 512 × 512 blocks.  At block `(i, j)` it reads block `(i, j)` of the matrix, block `(j, i)` of
  the same matrix — which it transposes, so its entry `(r, s)` is the matrix at `(512 i + r, 512 j + s)` mirrored —, the 512
  scales of its rows and the 512 scales of its columns, and writes its block whole; the 64 blocks tile the result.  The
  diagonal test compares (row in block + 512 × block row) with (column in block + 512 × block column) as 32-bit words,
  which at these sizes is the comparison of the array coordinates.
-/
import proofs.«104055_g2000603544188606_pallasbulk_177_3_alg».proof.Proof.KIReg1
import proofs.«104055_g2000603544188606_pallasbulk_177_3_alg».proof.Proof.Spec
import Idealize.ShloMosaic.Lib.ValueIdx
import Idealize.ShloMosaic.Lib.ValueLayout
import Idealize.ShloMosaic.Lib.Pipeline.Value

set_option maxRecDepth 16384

noncomputable section

open scoped BigOperators

namespace Cert.KernelIdeal.KValue

open Cert.KernelIdeal Cert.KernelIdeal.Gen Cert.KernelIdeal.KF
open Idealize.ShloMosaic Idealize.ShloMosaic.TcCoe Idealize.ShloMosaic.ValueIdx Idealize.SL.Sem

variable (V : (c : Dev nD) → (b : Ref sig .tc) → Buf (Elt Ideal) ((c : Thread nD τ).loc b))

/-- The matrix the scaling pass reads (windows 0 and 1), as a plain function of the index. -/
abbrev matArr (c : Dev nD) : S4096x4096.Idx → EReal := V c main_arg0
/-- The column of scales it reads (window 2): one per row of the result. -/
abbrev colScale (c : Dev nD) : S4096x1.Idx → EReal := V c main_v16
/-- The row of scales it reads (window 3): one per column of the result. -/
abbrev rowScale (c : Dev nD) : S1x4096.Idx → EReal := V c main_v17
/-- The result after the pass's last point. -/
abbrev scaleOut (c : Dev nD) : S4096x4096.Idx → EReal := (KF.dat1 (F := Ideal) V c).arrAt 4 cfg1.N

namespace Scale

/-- The two block-local zero offsets are the zero function. -/
theorem hz : (![0, 0] : Fin 2 → Nat) = fun _ => 0 := funext fun a => by fin_cases a <;> rfl

/-- The diagonal test on words.  A block index is below 8 and a coordinate inside a block below 512, so
    `coordinate + 512 × block` is below `2 ^ 32` and the word sums do not wrap: the two words are equal exactly when the
    two naturals are. -/
theorem diag_word (bi bj r s : Nat) (hbi : bi < 8) (hbj : bj < 8) (hr : r < 512) (hs : s < 512) :
    IntOp.cmpi .eq (IntOp.addi (BitVec.ofNat 32 r) (Scalar.muli (BitVec.ofNat 32 bi) 512#32))
        (IntOp.addi (BitVec.ofNat 32 s) (Scalar.muli (BitVec.ofNat 32 bj) 512#32))
      = if 512 * bi + r = 512 * bj + s then 1#1 else 0#1 := by
  have e1 : (IntOp.addi (BitVec.ofNat 32 r) (Scalar.muli (BitVec.ofNat 32 bi) 512#32)).toNat = r + bi * 512 := by
    show (BitVec.ofNat 32 r + BitVec.ofNat 32 bi * 512#32).toNat = _
    rw [BitVec.toNat_add, BitVec.toNat_mul, BitVec.toNat_ofNat, BitVec.toNat_ofNat, BitVec.toNat_ofNat]
    omega
  have e2 : (IntOp.addi (BitVec.ofNat 32 s) (Scalar.muli (BitVec.ofNat 32 bj) 512#32)).toNat = s + bj * 512 := by
    show (BitVec.ofNat 32 s + BitVec.ofNat 32 bj * 512#32).toNat = _
    rw [BitVec.toNat_add, BitVec.toNat_mul, BitVec.toNat_ofNat, BitVec.toNat_ofNat, BitVec.toNat_ofNat]
    omega
  generalize IntOp.addi (BitVec.ofNat 32 r) (Scalar.muli (BitVec.ofNat 32 bi) 512#32) = x at e1
  generalize IntOp.addi (BitVec.ofNat 32 s) (Scalar.muli (BitVec.ofNat 32 bj) 512#32) = y at e2
  show BitVec.ofBool (x == y) = _
  by_cases h : 512 * bi + r = 512 * bj + s
  · rw [if_pos h]
    have : x = y := BitVec.eq_of_toNat_eq (by rw [e1, e2]; omega)
    subst this; rw [beq_self_eq_true]; rfl
  · rw [if_neg h]
    have : ¬ x = y := fun e => h (by have := congrArg BitVec.toNat e; rw [e1, e2] at this; omega)
    rw [beq_eq_false_iff_ne.mpr this]; rfl

/-- A column `[a, 1]` broadcast along its rows reads, at `(p, c)`, the column's entry `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The pass's block at an index: (scale of the row) × (half the sum of the entry and of the mirrored block's entry at the
    swapped position, plus one where global row = global column) × (scale of the column); the global coordinates are the
    block's position times 512 plus the position in the block. -/
theorem pay_apply (i : grid1.Coords) (x0 x1 : Vec Ideal S512x512 .f32) (x2 : Vec Ideal S512x1 .f32) (x3 : Vec Ideal S1x512 .f32)
    (r s : Fin 512) :
    (k1_pay1 (F := Ideal) i x0 x1 x2 x3 : S512x512.Idx → EReal) (ix2 r s)
      = (x2 (ix2 r (0 : Fin 1))
          * (if 512 * (i 0).val + r.val = 512 * (i 1).val + s.val
              then Cert.Spec.half * (x0 (ix2 r s) + x1 (ix2 s r)) + Cert.Spec.one
              else Cert.Spec.half * (x0 (ix2 r s) + x1 (ix2 s r))))
        * x3 (ix2 (0 : Fin 1) s) := by
  have hi0 : (i 0).val < 8 := (i 0).isLt
  have hi1 : (i 1).val < 8 := (i 1).isLt
  unfold k1_pay1
  show (broadcastTo S512x512 (shapeCast S512x1 x2 _) _ (ix2 r s)
      * Scalar.select (IntOp.cmpi .eq
            (IntOp.addi (iota .tc S512x512 32 [0] _ (ix2 r s)) (Scalar.muli (BitVec.ofNat 32 (i 0).val) 512#32))
            (IntOp.addi (iota .tc S512x512 32 [1] _ (ix2 r s)) (Scalar.muli (BitVec.ofNat 32 (i 1).val) 512#32)))
          (Cert.Spec.half * (x0 (ix2 r s) + transpose S512x512 [1, 0] x1 _ (ix2 r s)) + Cert.Spec.one)
          (Cert.Spec.half * (x0 (ix2 r s) + transpose S512x512 [1, 0] x1 _ (ix2 r s))))
      * broadcastTo S512x512 (shapeCast S1x512 x3 _) _ (ix2 r s) = _
  rw [broadcastTo_a1_ab_apply, broadcastTo_1b_ab_apply, shapeCast_self, shapeCast_self, transpose_ix2_apply,
    iota_single_apply, iota_single_apply]
  show (_ * Scalar.select (IntOp.cmpi .eq
            (IntOp.addi (BitVec.ofNat 32 r.val) (Scalar.muli (BitVec.ofNat 32 (i 0).val) 512#32))
            (IntOp.addi (BitVec.ofNat 32 s.val) (Scalar.muli (BitVec.ofNat 32 (i 1).val) 512#32)))
          _ _) * _ = _
  rw [diag_word (i 0).val (i 1).val r.val s.val hi0 hi1 r.isLt s.isLt]
  by_cases h : 512 * (i 0).val + r.val = 512 * (i 1).val + s.val
  · rw [if_pos h, if_pos h, select_one]
  · rw [if_neg h, if_neg h, select_zero]

/-! ## From the blocks to the array -/

/-- The result at `(p, q)` as a function of the three arrays: (scale of row `p`) × (symmetrised entry, plus one when
    `p = q`) × (scale of column `q`). -/
abbrev scaledAt (A : S4096x4096.Idx → EReal) (C : S4096x1.Idx → EReal) (R : S1x4096.Idx → EReal) (p q : Fin 4096) : EReal :=
  (C (ix2 p (0 : Fin 1))
      * (if p = q then Cert.Spec.sym (Cert.Spec.mat A) p q + Cert.Spec.one else Cert.Spec.sym (Cert.Spec.mat A) p q))
    * R (ix2 (0 : Fin 1) q)

/-- The whole result array as one function of the three arrays. -/
abbrev scaled (A : S4096x4096.Idx → EReal) (C : S4096x1.Idx → EReal) (R : S1x4096.Idx → EReal) : S4096x4096.Idx → EReal :=
  fun y => scaledAt A C R (y 0) (y 1)

/-- The whole-array function read at coordinates. -/
theorem scaled_ix2 (A : S4096x4096.Idx → EReal) (C : S4096x1.Idx → EReal) (R : S1x4096.Idx → EReal) (p q : Fin 4096) :
    scaled A C R (ix2 p q) = scaledAt A C R p q := rfl

/-- Where each window's block sits at point `t`: block row `t / 8` and block column `t % 8` for the matrix and the result,
    the MIRRORED block (row `t % 8`, column `t / 8`) for the second window on the matrix, strip `t / 8` of the column of
    scales, strip `t % 8` of the row of scales; the grid position is the pair `(t / 8, t % 8)`.  Decided once over the 64
    points. -/
theorem idx_facts : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = t.val / 8
    ∧ win1_2.index t (0 : Fin 2) = t.val / 8 ∧ win1_2.index t (1 : Fin 2) = 0
    ∧ win1_3.index t (0 : Fin 2) = 0 ∧ win1_3.index t (1 : Fin 2) = t.val % 8
    ∧ win1_4.index t (0 : Fin 2) = t.val / 8 ∧ win1_4.index t (1 : Fin 2) = t.val % 8
    ∧ (grid1.coords t (0 : Fin 2)).val = t.val / 8 ∧ (grid1.coords t (1 : Fin 2)).val = t.val % 8
    ∧ t.val < 64 :=
  (by decide +kernel : ∀ t : Fin grid1.N, _)

/-- Point `t`'s block of the matrix, read at `(r, s)`: the matrix at row `512 (t / 8) + r`, column `512 (t % 8) + s`. -/
theorem blk0_read (c : Dev nD) (t : Fin cfg1.N) (r s : Fin 512) (hp : 512 * (t.val / 8) + r.val < 4096)
    (hq : 512 * (t.val % 8) + s.val < 4096) :
    (iblk1 (F := Ideal) V c 0 t : S512x512.Idx → EReal) (ix2 r s)
      = matArr V c (ix2 (⟨512 * (t.val / 8) + r.val, hp⟩ : Fin 4096) (⟨512 * (t.val % 8) + s.val, hq⟩ : Fin 4096)) := by
  obtain ⟨e00, e01, e10, e11, e20, e21, e30, e31, e40, e41, g0, g1, ht⟩ := idx_facts t
  show V c main_arg0 (((cfg1.win 0).blk t).view.emb (ix2 r s)) = V c main_arg0 _
  refine congrArg (V c main_arg0) (funext fun a => Fin.ext ?_)
  match a with
  | ⟨0, _⟩ => show win1_0.index t (0 : Fin 2) * 512 + 1 * r.val = 512 * (t.val / 8) + r.val; omega
  | ⟨1, _⟩ => show win1_0.index t (1 : Fin 2) * 512 + 1 * s.val = 512 * (t.val % 8) + s.val; omega

/-- Point `t`'s MIRRORED block of the matrix, read at the swapped position `(s, r)`: the matrix at row `512 (t % 8) + s`,
    column `512 (t / 8) + r` — the mirror image of the entry the first window reads at `(r, s)`. -/
theorem blk1_read (c : Dev nD) (t : Fin cfg1.N) (r s : Fin 512) (hp : 512 * (t.val / 8) + r.val < 4096)
    (hq : 512 * (t.val % 8) + s.val < 4096) :
    (iblk1 (F := Ideal) V c 1 t : S512x512.Idx → EReal) (ix2 s r)
      = matArr V c (ix2 (⟨512 * (t.val % 8) + s.val, hq⟩ : Fin 4096) (⟨512 * (t.val / 8) + r.val, hp⟩ : Fin 4096)) := by
  obtain ⟨e00, e01, e10, e11, e20, e21, e30, e31, e40, e41, g0, g1, ht⟩ := idx_facts t
  show V c main_arg0 (((cfg1.win 1).blk t).view.emb (ix2 s r)) = V c main_arg0 _
  refine congrArg (V c main_arg0) (funext fun a => Fin.ext ?_)
  match a with
  | ⟨0, _⟩ => show win1_1.index t (0 : Fin 2) * 512 + 1 * s.val = 512 * (t.val % 8) + s.val; omega
  | ⟨1, _⟩ => show win1_1.index t (1 : Fin 2) * 512 + 1 * r.val = 512 * (t.val / 8) + r.val; omega

/-- Point `t`'s strip of the column of scales, read at `r`: the scale of row `512 (t / 8) + r`. -/
theorem blk2_read (c : Dev nD) (t : Fin cfg1.N) (r : Fin 512) (hp : 512 * (t.val / 8) + r.val < 4096) :
    (iblk1 (F := Ideal) V c 2 t : S512x1.Idx → EReal) (ix2 r (0 : Fin 1))
      = colScale V c (ix2 (⟨512 * (t.val / 8) + r.val, hp⟩ : Fin 4096) (0 : Fin 1)) := by
  obtain ⟨e00, e01, e10, e11, e20, e21, e30, e31, e40, e41, g0, g1, ht⟩ := idx_facts t
  show V c main_v16 (((cfg1.win 2).blk t).view.emb (ix2 r (0 : Fin 1))) = V c main_v16 _
  refine congrArg (V c main_v16) (funext fun a => Fin.ext ?_)
  match a with
  | ⟨0, _⟩ => show win1_2.index t (0 : Fin 2) * 512 + 1 * r.val = 512 * (t.val / 8) + r.val; omega
  | ⟨1, _⟩ => show win1_2.index t (1 : Fin 2) * 1 + 1 * 0 = 0; omega

/-- Point `t`'s strip of the row of scales, read at `s`: the scale of column `512 (t % 8) + s`. -/
theorem blk3_read (c : Dev nD) (t : Fin cfg1.N) (s : Fin 512) (hq : 512 * (t.val % 8) + s.val < 4096) :
    (iblk1 (F := Ideal) V c 3 t : S1x512.Idx → EReal) (ix2 (0 : Fin 1) s)
      = rowScale V c (ix2 (0 : Fin 1) (⟨512 * (t.val % 8) + s.val, hq⟩ : Fin 4096)) := by
  obtain ⟨e00, e01, e10, e11, e20, e21, e30, e31, e40, e41, g0, g1, ht⟩ := idx_facts t
  show V c main_v17 (((cfg1.win 3).blk t).view.emb (ix2 (0 : Fin 1) s)) = V c main_v17 _
  refine congrArg (V c main_v17) (funext fun a => Fin.ext ?_)
  match a with
  | ⟨0, _⟩ => show win1_3.index t (0 : Fin 2) * 1 + 1 * 0 = 0; omega
  | ⟨1, _⟩ => show win1_3.index t (1 : Fin 2) * 512 + 1 * s.val = 512 * (t.val % 8) + s.val; omega

/-- Point `t`'s block of any whole-array function, read at `(r, s)`. -/
theorem blk4_read (G : S4096x4096.Idx → EReal) (t : Fin cfg1.N) (r s : Fin 512)
    (hp : 512 * (t.val / 8) + r.val < 4096) (hq : 512 * (t.val % 8) + s.val < 4096) :
    (((cfg1.win 4).blk t).view.read (Elt Ideal) G : S512x512.Idx → EReal) (ix2 r s)
      = G (ix2 (⟨512 * (t.val / 8) + r.val, hp⟩ : Fin 4096) (⟨512 * (t.val % 8) + s.val, hq⟩ : Fin 4096)) := by
  obtain ⟨e00, e01, e10, e11, e20, e21, e30, e31, e40, e41, g0, g1, ht⟩ := idx_facts t
  show G (((cfg1.win 4).blk t).view.emb (ix2 r s)) = G _
  refine congrArg G (funext fun a => Fin.ext ?_)
  match a with
  | ⟨0, _⟩ => show win1_4.index t (0 : Fin 2) * 512 + 1 * r.val = 512 * (t.val / 8) + r.val; omega
  | ⟨1, _⟩ => show win1_4.index t (1 : Fin 2) * 512 + 1 * s.val = 512 * (t.val % 8) + s.val; omega

/-- The block at an index with each operand's read, and the diagonal test, named. -/
theorem pay_apply_named (i : grid1.Coords) (x0 x1 : Vec Ideal S512x512 .f32) (x2 : Vec Ideal S512x1 .f32) (x3 : Vec Ideal S1x512 .f32)
    (r s : Fin 512) (a a' b d : EReal) (P : Prop) [Decidable P]
    (h0 : x0 (ix2 r s) = a) (h1 : x1 (ix2 s r) = a') (h2 : x2 (ix2 r (0 : Fin 1)) = b) (h3 : x3 (ix2 (0 : Fin 1) s) = d)
    (hP : 512 * (i 0).val + r.val = 512 * (i 1).val + s.val ↔ P) :
    (k1_pay1 (F := Ideal) i x0 x1 x2 x3 : S512x512.Idx → EReal) (ix2 r s)
      = (b * (if P then Cert.Spec.half * (a + a') + Cert.Spec.one else Cert.Spec.half * (a + a'))) * d := by
  rw [pay_apply, h0, h1, h2, h3]
  exact congrArg (fun z => (b * z) * d) (if_congr hP rfl rfl)

/-- What point `t` writes back is its block of the one whole-array function of the three arrays the pass was handed. -/
theorem flushed_eq (c : Dev nD) (t : Fin cfg1.N) :
    (dat1 (F := Ideal) V c).flushed 4 t
      = ((cfg1.win 4).blk t).view.read (Elt Ideal) (scaled (matArr V c) (colScale V c) (rowScale V c)) := by
  show (cfg1.win 4).cut (grid1.coords t) ((dat1 (F := Ideal) V c).after 4 t) = _
  rw [after1_4]
  unfold outBlk
  rw [View.canon_unit_zero hz]
  simp only [View.ld_unit_zero (S := S512x512) hz, View.ld_unit_zero (S := S512x1) hz, View.ld_unit_zero (S := S1x512) hz]
  obtain ⟨e00, e01, e10, e11, e20, e21, e30, e31, e40, e41, g0, g1, ht⟩ := idx_facts t
  funext j
  obtain ⟨r, s, rfl⟩ : ∃ (r s : Fin 512), j = ix2 r s := ⟨j 0, j 1, eq_ix2 j⟩
  have hp : 512 * (t.val / 8) + r.val < 4096 := by have := r.isLt; omega
  have hq : 512 * (t.val % 8) + s.val < 4096 := by have := s.isLt; omega
  refine (pay_apply_named (grid1.coords t) (iblk1 V c 0 t) (iblk1 V c 1 t) (iblk1 V c 2 t) (iblk1 V c 3 t) r s _ _ _ _
    ((⟨512 * (t.val / 8) + r.val, hp⟩ : Fin 4096) = (⟨512 * (t.val % 8) + s.val, hq⟩ : Fin 4096))
    (blk0_read V c t r s hp hq) (blk1_read V c t r s hp hq) (blk2_read V c t r hp) (blk3_read V c t s hq) ?_).trans ?_
  · rw [Fin.ext_iff]
    show 512 * (grid1.coords t (0 : Fin 2)).val + r.val = 512 * (grid1.coords t (1 : Fin 2)).val + s.val
      ↔ 512 * (t.val / 8) + r.val = 512 * (t.val % 8) + s.val
    rw [g0, g1]
  · exact ((blk4_read _ t r s hp hq).trans (scaled_ix2 _ _ _ _ _)).symm

/-- An index of the array is in point `t`'s block iff each coordinate is in the block's range on its axis. -/
theorem mem_blk (t : Fin cfg1.N) (i : S4096x4096.Idx) :
    i ∈ ((cfg1.win 4).blk t).view.set ↔ ∀ a : Fin 2, win1_4.index t a * S512x512.size a ≤ (i a).val
      ∧ (i a).val < win1_4.index t a * S512x512.size a + S512x512.size a := by
  show i ∈ ((View.whole main_v18).slice (win1_4.rect t)).set ↔ _
  rw [View.set_slice_whole, Rect.mem_set_unit]
  exact Iff.rfl

/-- The blocks tile the array: `(p, q)` is in the block of the point at block row `p / 512`, block column `q / 512`. -/
theorem cover (i : S4096x4096.Idx) :
    ∃ t : Fin cfg1.N, (cfg1.win 4).flush t = true ∧ i ∈ ((cfg1.win 4).blk t).view.set := by
  obtain ⟨p, q, rfl⟩ : ∃ (p q : Fin 4096), i = ix2 p q := ⟨i 0, i 1, eq_ix2 i⟩
  have hp := p.isLt
  have hq := q.isLt
  have hlt : 8 * (p.val / 512) + q.val / 512 < cfg1.N := by
    show _ < grid1.N
    rw [N_1]; omega
  obtain ⟨e00, e01, e10, e11, e20, e21, e30, e31, e40, e41, g0, g1, ht⟩ := idx_facts ⟨_, hlt⟩
  have e40' : win1_4.index ⟨_, hlt⟩ (0 : Fin 2) = (8 * (p.val / 512) + q.val / 512) / 8 := e40
  have e41' : win1_4.index ⟨_, hlt⟩ (1 : Fin 2) = (8 * (p.val / 512) + q.val / 512) % 8 := e41
  refine ⟨⟨_, hlt⟩, flush1_4 _, ?_⟩
  rw [mem_blk]
  intro a
  match a with
  | ⟨0, _⟩ =>
    show win1_4.index ⟨_, hlt⟩ (0 : Fin 2) * 512 ≤ p.val ∧ p.val < win1_4.index ⟨_, hlt⟩ (0 : Fin 2) * 512 + 512
    rw [e40']; omega
  | ⟨1, _⟩ =>
    show win1_4.index ⟨_, hlt⟩ (1 : Fin 2) * 512 ≤ q.val ∧ q.val < win1_4.index ⟨_, hlt⟩ (1 : Fin 2) * 512 + 512
    rw [e41']; omega

end Scale

/-- After the scaling pass's last point the result holds, at `(p, q)`, (scale `p`) × (symmetrised entry, plus one on the
    diagonal) × (scale `q`), read off the three arrays the pass was handed. -/
theorem scale_value (c : Dev nD) (p q : Fin 4096) :
    scaleOut V c (ix2 p q)
      = (colScale V c (ix2 p (0 : Fin 1))
          * (if p = q then Cert.Spec.sym (Cert.Spec.mat (matArr V c)) p q + Cert.Spec.one else Cert.Spec.sym (Cert.Spec.mat (matArr V c)) p q))
        * rowScale V c (ix2 (0 : Fin 1) q) := by
  have h := (KF.dat1 (F := Ideal) V c).arrAt_eq_of_cover 4 (Scale.scaled (matArr V c) (colScale V c) (rowScale V c))
    (fun t _ => Scale.flushed_eq V c t) Scale.cover
  exact (congrFun h (ix2 p q)).trans (Scale.scaled_ix2 _ _ _ p q)

end Cert.KernelIdeal.KValue

end
-- ==== Proof.KIValue.lean ====
/-
  The kernel's run with its result as ONE function of the argument: `GK` of the argument array.

  Between the launch and the return the kernel's program does three things.  The sums pass leaves the per-half row
  sums and the column sums of the argument.  Host operations add the two halves and the column sums, halve the total,
  add one (the degree of the symmetrised matrix with its unit diagonal), take the guarded inverse square root, and lay
  the vector out as a column and as a row.  The scaling pass multiplies the symmetrised entry, with one added on the
  diagonal, by the column entry of its row and the row entry of its column.  Reading each stage at an index and
  composing gives `Cert.Spec.gK` entry by entry.
-/
import proofs.«104055_g2000603544188606_pallasbulk_177_3_alg».proof.Proof.KIRun
import proofs.«104055_g2000603544188606_pallasbulk_177_3_alg».proof.Proof.KIVal0R
import proofs.«104055_g2000603544188606_pallasbulk_177_3_alg».proof.Proof.KIVal0C
import proofs.«104055_g2000603544188606_pallasbulk_177_3_alg».proof.Proof.KIVal1
import Idealize.ShloMosaic.Lib.StableHlo.Run

set_option maxRecDepth 16384

noncomputable section

open scoped BigOperators

namespace Cert.KernelIdeal.KValue

open Cert.KernelIdeal Cert.KernelIdeal.Gen Cert.KernelIdeal.KF
open Idealize.ShloMosaic Idealize.ShloMosaic.TcCoe Idealize.ShloMosaic.ValueIdx Idealize.SL.Sem

variable (m : (ℓ : Loc nD τ sig) → Buf (Elt Ideal) ℓ) (ρ : Dev nD → PrngReg)

/-- The argument array on core `c`, as a plain function of the index. -/
abbrev argArr (c : Dev nD) : Cert.Spec.S.Idx → EReal := m ((c.tc : Thread nD τ).loc main_arg0)

/-- The result array at the last boundary of the run, as a plain function of the index. -/
abbrev resArr (c : Dev nD) : Cert.Spec.S.Idx → EReal := KF.W5 (F := Ideal) m ρ c (Proc.devRef .tc main_v18)

/-! ### The host stretches' terms -/

/-- The per-half row sums the sums pass leaves, as a plain function of the index. -/
abbrev rowsArr (c : Dev nD) : S2x1x4096.Idx → EReal := KF.W1 (F := Ideal) m ρ c (Proc.devRef .tc main_v0_0)
/-- The column sums the sums pass leaves. -/
abbrev colsArr (c : Dev nD) : S1x4096.Idx → EReal := KF.W1 (F := Ideal) m ρ c (Proc.devRef .tc main_v0_1)

/-- The degree vector as the host operations spell it over the row sums and the column sums: the two halves added,
    the column sums added, the total halved, one added. -/
def degTerm (rows : S2x1x4096.Idx → EReal) (cols : S1x4096.Idx → EReal) : S4096.Idx → EReal :=
  addf (F := Ideal) (φ := .f32)
    (mulf (F := Ideal) (φ := .f32) (broadcastInDim S4096 ![] bcast_S_S4096 (constant (F := Ideal) S_ .f32 0x3F000000#32))
      (addf (F := Ideal) (φ := .f32)
        (addf (F := Ideal) (φ := .f32)
          (shapeCast S4096 (extractStridedSlice S1x1x4096 ![0, 0, 0] rows slices_S2x1x4096_S1x1x4096_0_0_0) shapeCasts_S1x1x4096_S4096)
          (shapeCast S4096 (extractStridedSlice S1x1x4096 ![1, 0, 0] rows slices_S2x1x4096_S1x1x4096_1_0_0) shapeCasts_S1x1x4096_S4096))
        (shapeCast S4096 cols shapeCasts_S1x4096_S4096)))
    (broadcastInDim S4096 ![] bcast_S_S4096 (constant (F := Ideal) S_ .f32 0x3F800000#32))

/-- The comparison of the degree vector with zero. -/
abbrev posArr (c : Dev nD) : S4096.Idx → BitVec 1 := KF.W2 (F := Ideal) m ρ c (Proc.devRef .tc main_v13)
/-- The inverse square root of the degree vector. -/
abbrev rsqArr (c : Dev nD) : S4096.Idx → EReal := KF.W2 (F := Ideal) m ρ c (Proc.devRef .tc main_v14)
/-- The scalar zero the selection falls back to. -/
abbrev zeroArr (c : Dev nD) : S_.Idx → EReal := KF.W2 (F := Ideal) m ρ c (Proc.devRef .tc main_cst_2)

/-- The zero vector the comparison is against. -/
abbrev zeroVec : S4096.Idx → EReal := broadcastInDim S4096 ![] bcast_S_S4096 (constant (F := Ideal) S_ .f32 0x00000000#32)

theorem posArr_eq (c : Dev nD) :
    posArr m ρ c = cmpf (F := Ideal) (φ := .f32) .ogt (degTerm (rowsArr m ρ c) (colsArr m ρ c)) zeroVec := by
  dsimp only [posArr, KF.W2, Gen.hostOps1]
  after_results
  rfl

theorem rsqArr_eq (c : Dev nD) :
    rsqArr m ρ c = Host.rsqrt (F := Ideal) (φ := .f32) (degTerm (rowsArr m ρ c) (colsArr m ρ c)) := by
  dsimp only [rsqArr, KF.W2, Gen.hostOps1]
  after_results
  rfl

theorem zeroArr_eq (c : Dev nD) : zeroArr m ρ c = constant (F := Ideal) S_ .f32 0x00000000#32 := by
  dsimp only [zeroArr, KF.W2, Gen.hostOps1]
  after_results

/-- The scale vector after the second host stretch. -/
abbrev scaleVec (c : Dev nD) : S4096.Idx → EReal := KF.W3 (F := Ideal) m ρ c (Proc.devRef .tc main_v15)

theorem scaleVec_eq (c : Dev nD) :
    scaleVec m ρ c = select (posArr m ρ c) (rsqArr m ρ c) (broadcastInDim S4096 ![] bcast_S_S4096 (zeroArr m ρ c)) := by
  dsimp only [scaleVec, KF.W3, Gen.hostOps1_1]
  after_results
  rfl

theorem colScale_eq (c : Dev nD) :
    colScale (KF.V4 (F := Ideal) m ρ) c = shapeCast S4096x1 (scaleVec m ρ c) shapeCasts_S4096_S4096x1 := by
  dsimp only [colScale, KF.V4, KF.W4, Gen.hostOps1_2]
  after_results
  rfl

theorem rowScale_eq (c : Dev nD) :
    rowScale (KF.V4 (F := Ideal) m ρ) c = shapeCast S1x4096 (scaleVec m ρ c) shapeCasts_S4096_S1x4096 := by
  dsimp only [rowScale, KF.V4, KF.W4, Gen.hostOps1_2]
  after_results
  rfl

/-! ### The layout operations read at an index -/

/-- A vector laid out as a column reads, at `(p, 0)`, its entry `p`. -/
theorem cast_col_apply (x : S4096.Idx → EReal) (p : Fin 4096) :
    shapeCast S4096x1 x shapeCasts_S4096_S4096x1 (ix2 p (0 : Fin 1)) = x (ix1 p) := by
  refine shapeCast_apply x _ _ _ ?_
  rw [Shape.rowMajor_val_one, Shape.rowMajor_val_two]
  show p.val = p.val * 1 + (0 : Fin 1).val
  simp

/-- A vector laid out as a row reads, at `(0, q)`, its entry `q`. -/
theorem cast_row_apply (x : S4096.Idx → EReal) (q : Fin 4096) :
    shapeCast S1x4096 x shapeCasts_S4096_S1x4096 (ix2 (0 : Fin 1) q) = x (ix1 q) := by
  refine shapeCast_apply x _ _ _ ?_
  rw [Shape.rowMajor_val_one, Shape.rowMajor_val_two]
  show q.val = (0 : Fin 1).val * 4096 + q.val
  simp

/-- A `[1, 1, 4096]` array flattened reads, at `k`, its entry `(0, 0, k)`. -/
theorem flat3_apply (x : S1x1x4096.Idx → EReal) (k : Fin 4096) :
    shapeCast S4096 x shapeCasts_S1x1x4096_S4096 (ix1 k) = x (ix3 (0 : Fin 1) (0 : Fin 1) k) := by
  refine shapeCast_apply x _ _ _ ?_
  rw [Shape.rowMajor_val_one, Shape.rowMajor_val_three]
  show ((0 : Fin 1).val * 1 + (0 : Fin 1).val) * 4096 + k.val = k.val
  simp

/-- A `[1, 4096]` array flattened reads, at `k`, its entry `(0, k)`. -/
theorem flat2_apply (x : S1x4096.Idx → EReal) (k : Fin 4096) :
    shapeCast S4096 x shapeCasts_S1x4096_S4096 (ix1 k) = x (ix2 (0 : Fin 1) k) := by
  refine shapeCast_apply x _ _ _ ?_
  rw [Shape.rowMajor_val_one, Shape.rowMajor_val_two]
  show (0 : Fin 1).val * 4096 + k.val = k.val
  simp

/-- The first half's slice reads the row sums at half 0. -/
theorem slice0_apply (x : S2x1x4096.Idx → EReal) (k : Fin 4096) :
    extractStridedSlice S1x1x4096 ![0, 0, 0] x slices_S2x1x4096_S1x1x4096_0_0_0 (ix3 (0 : Fin 1) (0 : Fin 1) k)
      = x (ix3 (0 : Fin 2) (0 : Fin 1) k) :=
  extractStridedSlice_apply _ x _ _ _ fun a => match a with
    | ⟨0, _⟩ => rfl
    | ⟨1, _⟩ => rfl
    | ⟨2, _⟩ => (Nat.zero_add _).symm

/-- The second half's slice reads the row sums at half 1. -/
theorem slice1_apply (x : S2x1x4096.Idx → EReal) (k : Fin 4096) :
    extractStridedSlice S1x1x4096 ![1, 0, 0] x slices_S2x1x4096_S1x1x4096_1_0_0 (ix3 (0 : Fin 1) (0 : Fin 1) k)
      = x (ix3 (1 : Fin 2) (0 : Fin 1) k) :=
  extractStridedSlice_apply _ x _ _ _ fun a => match a with
    | ⟨0, _⟩ => rfl
    | ⟨1, _⟩ => rfl
    | ⟨2, _⟩ => (Nat.zero_add _).symm

/-- The degree vector at an index: half of (the two half-row sums and the column sum), plus one. -/
theorem degTerm_apply (rows : S2x1x4096.Idx → EReal) (cols : S1x4096.Idx → EReal) (k : Fin 4096) :
    degTerm rows cols (ix1 k)
      = Cert.Spec.half * ((rows (ix3 (0 : Fin 2) (0 : Fin 1) k) + rows (ix3 (1 : Fin 2) (0 : Fin 1) k)) + cols (ix2 (0 : Fin 1) k))
        + Cert.Spec.one := by
  unfold degTerm
  rw [addf_apply, mulf_apply, addf_apply, addf_apply, flat3_apply, flat3_apply, flat2_apply, slice0_apply, slice1_apply]
  rfl

/-! ### The stages composed -/

/-- The degree vector at an index is the kernel's row sum of the argument: the sums pass's three results are the two
    half-row sums and the column sum. -/
theorem deg_apply (c : Dev nD) (k : Fin 4096) :
    degTerm (rowsArr m ρ c) (colsArr m ρ c) (ix1 k) = Cert.Spec.sK (Cert.Spec.mat (argArr m c)) k := by
  have er : rowsArr m ρ c = rowsOut (KF.V0 (F := Ideal) m ρ) c := KF.W1_arr m ρ c 1
  have ec : colsArr m ρ c = colsOut (KF.V0 (F := Ideal) m ρ) c := KF.W1_arr m ρ c 2
  have hL : rowsArr m ρ c (ix3 (0 : Fin 2) (0 : Fin 1) k) = Cert.Spec.rowL (Cert.Spec.mat (argArr m c)) k := by
    rw [er]; exact rows_value_left (KF.V0 m ρ) c k
  have hR : rowsArr m ρ c (ix3 (1 : Fin 2) (0 : Fin 1) k) = Cert.Spec.rowR (Cert.Spec.mat (argArr m c)) k := by
    rw [er]; exact rows_value_right (KF.V0 m ρ) c k
  have hC : colsArr m ρ c (ix2 (0 : Fin 1) k) = Cert.Spec.col (Cert.Spec.mat (argArr m c)) k := by
    rw [ec]; exact cols_value (KF.V0 m ρ) c k
  rw [degTerm_apply, hL, hR, hC]
  rfl

/-- The scale vector at an index is the guarded inverse square root of the kernel's row sum: the selection between the
    inverse square root and zero on the comparison with zero is the guard. -/
theorem scaleVec_apply (c : Dev nD) (k : Fin 4096) :
    scaleVec m ρ c (ix1 k) = Cert.Spec.guard (Cert.Spec.sK (Cert.Spec.mat (argArr m c)) k) := by
  rw [scaleVec_eq, posArr_eq, rsqArr_eq, zeroArr_eq]
  show Scalar.select (Ideal.cmp .ogt (degTerm (rowsArr m ρ c) (colsArr m ρ c) (ix1 k)) Cert.Spec.zero)
      (Ideal.rsqrt (degTerm (rowsArr m ρ c) (colsArr m ρ c) (ix1 k))) Cert.Spec.zero = _
  rw [deg_apply]
  rfl

/-- The result the run leaves is the kernel's function of the argument. -/
theorem result_eq (c : Dev nD) : resArr m ρ c = Cert.Spec.GK (argArr m c) := by
  funext y
  obtain ⟨p, q, rfl⟩ : ∃ p q, y = ix2 p q := ⟨y 0, y 1, eq_ix2 y⟩
  rw [Cert.Spec.GK_ix2]
  have h5 : resArr m ρ c = scaleOut (KF.V4 (F := Ideal) m ρ) c := KF.W5_main_v18 m ρ c
  have hmat : matArr (KF.V4 (F := Ideal) m ρ) c = argArr m c := KF.W4_main_arg0 m ρ c
  rw [h5, scale_value (KF.V4 m ρ) c p q, hmat, colScale_eq, rowScale_eq, cast_col_apply, cast_row_apply,
    scaleVec_apply, scaleVec_apply]
  rfl

/-- Every weakly fair execution of the kernel's program ends with its result at `GK` of the argument, the argument unchanged. -/
theorem run : θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v18) = Cert.Spec.GK (argArr m c)
      ∧ r.2.mem ((c.tc : Thread nD τ).loc main_arg0) = m ((c.tc : Thread nD τ).loc main_arg0)) :=
  (θ_run _ _ _).mono (fun r h c => ⟨(h c).1.trans (result_eq m ρ c), (h c).2⟩) (KF.run_main (F := Ideal) m ρ)

end Cert.KernelIdeal.KValue

end
-- ==== Proof.RefVal0.lean ====
/-
  What the reference's first kernel leaves in its result column: for row `i`, the guarded inverse square root of the
  row sum of the array it is handed, plus one.

  The kernel walks the 4096 × 4096 array in blocks of 256 rows by 1024 columns, four blocks to a row strip.  Its
  result block (256 × 1) stays in place over the four steps of a strip: the first step clears it, every step adds the
  block's row sums to it, and the last step replaces the accumulated sum `a` by `guard (a + one)`.  Only then is the
  block written back, so the array's entry `i` is the guard of (the four partial row sums added from zero) + one,
  and four partial sums over 1024 columns each are the sum over all 4096.

  The steps below: what each of the three kinds of step leaves in the result block, as a function of what it held and of
  the input block; those functions read at one row (a lane sum is a finite sum, the closing step is the guard); the four
  steps of one strip chained; an input block's entry located in the array (row 256 · strip + r, column 1024 · step + k);
  the four partial sums regrouped into the whole row sum; and the blocks written back at the strips' last points tiling
  the result column.
-/
import proofs.«104055_g2000603544188606_pallasbulk_177_3_alg».proof.Proof.RefFrame
import proofs.«104055_g2000603544188606_pallasbulk_177_3_alg».proof.Proof.Spec
import Idealize.ShloMosaic.Lib.ValueIdx
import Idealize.ShloMosaic.Lib.Pipeline.Value
import Idealize.ShloMosaic.PureOps.Ideal.Laws
import Idealize.ShloMosaic.Lib.Tactic

set_option maxRecDepth 16384

noncomputable section

open scoped BigOperators

namespace Cert.ReferenceIdeal.RefValue

open Cert.ReferenceIdeal Cert.ReferenceIdeal.Gen Cert.ReferenceIdeal.GenP
open Idealize.ShloMosaic Idealize.ShloMosaic.TcCoe Idealize.ShloMosaic.ValueIdx Idealize.SL.Sem Idealize.ShloMosaic.Tactic

variable (V : (c : Dev nD) → (b : Ref sig .tc) → Buf (Elt Ideal) ((c : Thread nD τ).loc b))

/-- The array the first kernel reads (window 0), as a plain function of the index. -/
abbrev inArr0 (c : Dev nD) : S4096x4096.Idx → EReal := V c main_v3

/-! The lemmas that lead to `rinv_value`, kept in a namespace of their own. -/
namespace Rinv

section Pieces
variable {F : FTy → Type} [FloatOps F]

/-- The zero offsets of a whole-block load or store, however spelt. -/
theorem hz : (![0, 0] : Fin 2 → Nat) = fun _ => 0 := funext fun a => by fin_cases a <;> rfl

/-- A middle step of a strip: the block is left at what it held with the input block's row sums added. -/
theorem piece_B (c : Dev nD) (i : grid0.Coords) (a2 : Memref sig .tc .vmem S256x1024 .f32) (h2 : a2.IsWhole)
    (a3 : Memref sig .tc .vmem S256x1 .f32) (h3 : a3.IsWhole) (hc0 : ¬cond0_0 i) (hc1 : ¬cond0_1 i)
    (x0 : Vec F S256x1024 .f32) (xo1 : Vec F S256x1 .f32) :
    out0_B_1 c i a2 h2 a3 h3 hc0 hc1 x0 xo1 = k0_pay2 xo1 x0 := by
  unfold out0_B_1
  rw [View.read_writes_eq_canon _ _ _ (cover0_B_1 c i a2 h2 a3 h3 hc0 hc1 x0 xo1)]
  unfold kernelRun0_B
  dsimp only
  sl_unfold_words
  rw [View.canon_unit_zero hz]
  simp only [View.readAt_eq_ld, h2.read_unread, h3.read_unread, View.ld_unit_zero (S := S256x1) hz,
    View.ld_unit_zero (S := S256x1024) hz]

/-- The first step of a strip: the block is cleared, then the input block's row sums are added to the cleared block. -/
theorem piece_A (c : Dev nD) (i : grid0.Coords) (a2 : Memref sig .tc .vmem S256x1024 .f32) (h2 : a2.IsWhole)
    (a3 : Memref sig .tc .vmem S256x1 .f32) (h3 : a3.IsWhole) (hc0 : cond0_0 i) (hc1 : ¬cond0_1 i)
    (x0 : Vec F S256x1024 .f32) :
    out0_A_1 c i a2 h2 a3 h3 hc0 hc1 x0 = k0_pay2 (k0_pay1 (F := F)) x0 := by
  unfold out0_A_1
  rw [View.read_writes_eq_canon _ _ _ (cover0_A_1 c i a2 h2 a3 h3 hc0 hc1 x0)]
  unfold kernelRun0_A
  dsimp only
  sl_unfold_words
  rw [View.canon_cons_unit_zero (S := S256x1) hz]
  simp only [View.readAt_eq_ld, h2.read_unread, View.readCov_unit_zero (S := S256x1) _ hz,
    View.ld_unit_zero (S := S256x1024) hz]

/-- The last step of a strip: the row sums are added, and the accumulated block is replaced by its guarded inverse
    square root (of the block plus one). -/
theorem piece_C (c : Dev nD) (i : grid0.Coords) (a2 : Memref sig .tc .vmem S256x1024 .f32) (h2 : a2.IsWhole)
    (a3 : Memref sig .tc .vmem S256x1 .f32) (h3 : a3.IsWhole) (hc0 : ¬cond0_0 i) (hc1 : cond0_1 i)
    (x0 : Vec F S256x1024 .f32) (xo1 : Vec F S256x1 .f32) :
    out0_C_1 c i a2 h2 a3 h3 hc0 hc1 x0 xo1 = k0_pay3 (k0_pay2 xo1 x0) := by
  unfold out0_C_1
  rw [View.read_writes_eq_canon _ _ _ (cover0_C_1 c i a2 h2 a3 h3 hc0 hc1 x0 xo1)]
  unfold kernelRun0_C
  dsimp only
  sl_unfold_words
  rw [View.canon_cons_unit_zero (S := S256x1) hz]
  simp only [View.readAt_eq_ld, h2.read_unread, h3.read_unread, View.readCov_unit_zero (S := S256x1) _ hz,
    View.ld_unit_zero (S := S256x1) hz, View.ld_unit_zero (S := S256x1024) hz]

end Pieces

section Payload

/-- A lane sum of a 256 × 1024 block, read at row `r`: the sum of that row's 1024 entries. -/
theorem lane_sum (x : FVec Ideal S256x1024 .f32) (h : S256x1024.Reduces [1] S256) (hφ : FKind.Formats .f32)
    (hacc : (0x00000000#32 : BitVec 32) = FKind.add.neutral .f32 hφ) (r : Fin 256) :
    multiReduction .add [1] S256 x 0x00000000#32 h hφ hacc (ix1 r) = ∑ k : Fin 1024, x (ix2 r k) :=
  (Ideal.multiReduction_add_single x _ h hφ hacc (ix1 r)).trans
    (Finset.sum_congr rfl fun k _ => congrArg x (funext fun a => Fin.ext (by
      match a with
      | ⟨0, _⟩ => rfl
      | ⟨1, _⟩ => rfl)))

/-- The cleared block holds the literal zero at every row. -/
theorem pay1_apply (r : Fin 256) : k0_pay1 (F := Ideal) (ix2 r (0 : Fin 1)) = Cert.Spec.zero := rfl

/-- The accumulation step at row `r`: what the block held there plus the input block's row sum. -/
theorem pay2_apply (v3 : Vec Ideal S256x1 .f32) (v5 : Vec Ideal S256x1024 .f32) (r : Fin 256) :
    k0_pay2 (F := Ideal) v3 v5 (ix2 r (0 : Fin 1)) = v3 (ix2 r (0 : Fin 1)) + ∑ k : Fin 1024, v5 (ix2 r k) := by
  unfold k0_pay2
  show (shapeCast S256x1 v3 shapeCasts_S256x1_S256x1 (ix2 r (0 : Fin 1)) : EReal)
      + shapeCast S256x1 (multiReduction (F := Ideal) .add [1] S256 (shapeCast S256x1024 v5 shapeCasts_S256x1024_S256x1024)
          0x00000000#32 reduces_S256x1024_S256 (.inl rfl) rfl) shapeCasts_S256_S256x1 (ix2 r (0 : Fin 1)) = _
  refine congrArg₂ (· + ·) (congrFun (shapeCast_self v3 _) _) ?_
  refine (shapeCast_apply _ _ (ix2 r (0 : Fin 1)) (ix1 r) ?_).trans ?_
  · rw [Shape.rowMajor_val_one, Shape.rowMajor_val_two]
    show r.val = r.val * 1 + 0
    omega
  · refine (lane_sum _ _ _ _ r).trans ?_
    exact Finset.sum_congr rfl fun k _ => congrFun (shapeCast_self v5 _) _

/-- The closing step at row `r`: the guarded inverse square root of what the block held there plus one. -/
theorem pay3_apply (v14 : Vec Ideal S256x1 .f32) (r : Fin 256) :
    k0_pay3 (F := Ideal) v14 (ix2 r (0 : Fin 1)) = Cert.Spec.guard (v14 (ix2 r (0 : Fin 1)) + Cert.Spec.one) := by
  unfold k0_pay3
  have e : shapeCast S256x1 v14 shapeCasts_S256x1_S256x1 = v14 := shapeCast_self v14 _
  exact congrArg (fun v : Vec Ideal S256x1 .f32 => Cert.Spec.guard (v (ix2 r (0 : Fin 1)) + Cert.Spec.one)) e

end Payload

/-- The input block (256 rows by 1024 columns) the kernel is handed at point `t`. -/
abbrev xblk (c : Dev nD) (t : Fin cfg0.N) : Vec Ideal S256x1024 .f32 := iblk0 V c 0 t

/-- Row `r` of the input block at point `n`, summed over the block's 1024 columns. -/
abbrev blkRow (c : Dev nD) (n : ℕ) (hn : n < cfg0.N) (r : Fin 256) : EReal :=
  ∑ k : Fin 1024, xblk V c ⟨n, hn⟩ (ix2 r k)

section Steps

/-- After the first point of a strip the result block holds, at row `r`, zero plus the first block's row sum. -/
theorem step_A (c : Dev nD) (n : ℕ) (hn : n < cfg0.N) (h0 : n % 4 = 0) (r : Fin 256) :
    outsAt0 V c n hn (ix2 r (0 : Fin 1)) = Cert.Spec.zero + blkRow V c n hn r := by
  have h1 : ¬(⟨n, hn⟩ : Fin cfg0.N).val % 4 = 3 := by dsimp only; omega
  refine (congrFun (outsAt0_A V c ⟨n, hn⟩ h0 h1) (ix2 r (0 : Fin 1))).trans ?_
  refine (congrFun (piece_A (F := Ideal) c (grid0.coords ⟨n, hn⟩) (ms0_0 ⟨n, hn⟩) (hs0_0 ⟨n, hn⟩) (ms0_1 ⟨n, hn⟩)
    (hs0_1 ⟨n, hn⟩) ((hcond0_0 ⟨n, hn⟩).mpr h0) (fun h => h1 ((hcond0_1 ⟨n, hn⟩).mp h)) (iblk0 V c 0 ⟨n, hn⟩))
    (ix2 r (0 : Fin 1))).trans ?_
  exact pay2_apply (k0_pay1 (F := Ideal)) (xblk V c ⟨n, hn⟩) r

/-- After a middle point of a strip the result block holds, at row `r`, what the point before left there plus this
    block's row sum. -/
theorem step_B (c : Dev nD) (n : ℕ) (hn : n + 1 < cfg0.N) (h0 : ¬(n + 1) % 4 = 0) (h1 : ¬(n + 1) % 4 = 3) (r : Fin 256) :
    outsAt0 V c (n + 1) hn (ix2 r (0 : Fin 1))
      = outsAt0 V c n (Nat.lt_of_succ_lt hn) (ix2 r (0 : Fin 1)) + blkRow V c (n + 1) hn r := by
  have e : outsAt0 V c (n + 1) hn = out0_B_1 c (grid0.coords ⟨n + 1, hn⟩) (ms0_0 ⟨n + 1, hn⟩) (hs0_0 ⟨n + 1, hn⟩)
      (ms0_1 ⟨n + 1, hn⟩) (hs0_1 ⟨n + 1, hn⟩) (fun h => h0 ((hcond0_0 ⟨n + 1, hn⟩).mp h))
      (fun h => h1 ((hcond0_1 ⟨n + 1, hn⟩).mp h)) (iblk0 V c 0 ⟨n + 1, hn⟩) (outsAt0 V c n (Nat.lt_of_succ_lt hn)) :=
    outsAt0_B V c ⟨n + 1, hn⟩ h0 h1
  refine (congrFun e (ix2 r (0 : Fin 1))).trans ?_
  refine (congrFun (piece_B (F := Ideal) c (grid0.coords ⟨n + 1, hn⟩) (ms0_0 ⟨n + 1, hn⟩) (hs0_0 ⟨n + 1, hn⟩)
    (ms0_1 ⟨n + 1, hn⟩) (hs0_1 ⟨n + 1, hn⟩) (fun h => h0 ((hcond0_0 ⟨n + 1, hn⟩).mp h))
    (fun h => h1 ((hcond0_1 ⟨n + 1, hn⟩).mp h)) (iblk0 V c 0 ⟨n + 1, hn⟩) (outsAt0 V c n (Nat.lt_of_succ_lt hn)))
    (ix2 r (0 : Fin 1))).trans ?_
  exact pay2_apply (outsAt0 V c n (Nat.lt_of_succ_lt hn)) (xblk V c ⟨n + 1, hn⟩) r

/-- After the last point of a strip the result block holds, at row `r`, the guarded inverse square root of (what the
    point before left there plus this block's row sum) plus one. -/
theorem step_C (c : Dev nD) (n : ℕ) (hn : n + 1 < cfg0.N) (h0 : ¬(n + 1) % 4 = 0) (h1 : (n + 1) % 4 = 3) (r : Fin 256) :
    outsAt0 V c (n + 1) hn (ix2 r (0 : Fin 1))
      = Cert.Spec.guard ((outsAt0 V c n (Nat.lt_of_succ_lt hn) (ix2 r (0 : Fin 1)) + blkRow V c (n + 1) hn r) + Cert.Spec.one) := by
  have e : outsAt0 V c (n + 1) hn = out0_C_1 c (grid0.coords ⟨n + 1, hn⟩) (ms0_0 ⟨n + 1, hn⟩) (hs0_0 ⟨n + 1, hn⟩)
      (ms0_1 ⟨n + 1, hn⟩) (hs0_1 ⟨n + 1, hn⟩) (fun h => h0 ((hcond0_0 ⟨n + 1, hn⟩).mp h))
      ((hcond0_1 ⟨n + 1, hn⟩).mpr h1) (iblk0 V c 0 ⟨n + 1, hn⟩) (outsAt0 V c n (Nat.lt_of_succ_lt hn)) :=
    outsAt0_C V c ⟨n + 1, hn⟩ h0 h1
  refine (congrFun e (ix2 r (0 : Fin 1))).trans ?_
  refine (congrFun (piece_C (F := Ideal) c (grid0.coords ⟨n + 1, hn⟩) (ms0_0 ⟨n + 1, hn⟩) (hs0_0 ⟨n + 1, hn⟩)
    (ms0_1 ⟨n + 1, hn⟩) (hs0_1 ⟨n + 1, hn⟩) (fun h => h0 ((hcond0_0 ⟨n + 1, hn⟩).mp h))
    ((hcond0_1 ⟨n + 1, hn⟩).mpr h1) (iblk0 V c 0 ⟨n + 1, hn⟩) (outsAt0 V c n (Nat.lt_of_succ_lt hn)))
    (ix2 r (0 : Fin 1))).trans ?_
  refine (pay3_apply (k0_pay2 (F := Ideal) (outsAt0 V c n (Nat.lt_of_succ_lt hn)) (xblk V c ⟨n + 1, hn⟩)) r).trans ?_
  exact congrArg (fun s => Cert.Spec.guard (s + Cert.Spec.one))
    (pay2_apply (outsAt0 V c n (Nat.lt_of_succ_lt hn)) (xblk V c ⟨n + 1, hn⟩) r)

/-- A whole strip: after its fourth point the result block holds, at row `r`, the guard of (the four blocks' row sums
    added in order from zero) plus one. -/
theorem strip (c : Dev nD) (b : ℕ) (hb : b % 4 = 0) (h : b + 1 + 1 + 1 < cfg0.N) (r : Fin 256) :
    outsAt0 V c (b + 1 + 1 + 1) h (ix2 r (0 : Fin 1))
      = Cert.Spec.guard (((((Cert.Spec.zero + blkRow V c b (by omega) r) + blkRow V c (b + 1) (by omega) r)
          + blkRow V c (b + 1 + 1) (by omega) r) + blkRow V c (b + 1 + 1 + 1) h r) + Cert.Spec.one) := by
  rw [step_C V c (b + 1 + 1) h (by omega) (by omega) r, step_B V c (b + 1) (by omega) (by omega) (by omega) r,
    step_B V c b (by omega) (by omega) (by omega) r, step_A V c b (by omega) hb r]

end Steps

section Blocks

/-- The block indices of the two windows at every point of the grid: the input block is (strip, step), the result block
    (strip, 0), where the point `t` has strip `t / 4` and step `t % 4`. -/
theorem idx_facts : ∀ t : Fin cfg0.N, win0_0.index t (0 : Fin 2) = t.val / 4 ∧ win0_0.index t (1 : Fin 2) = t.val % 4
    ∧ win0_1.index t (0 : Fin 2) = t.val / 4 ∧ win0_1.index t (1 : Fin 2) = 0 :=
  (by decide +kernel : ∀ t : Fin grid0.N, _)

/-- An entry of the input block at point `t` is the array's entry at row 256 · strip + (row in the block) and column
    1024 · step + (column in the block). -/
theorem blk_read (c : Dev nD) (t : Fin cfg0.N) (r : Fin 256) (k : Fin 1024) (i j : Fin 4096)
    (hi : i.val = 256 * (t.val / 4) + r.val) (hj : j.val = 1024 * (t.val % 4) + k.val) :
    xblk V c t (ix2 r k) = inArr0 V c (ix2 i j) := by
  obtain ⟨e0, e1, -, -⟩ := idx_facts t
  unfold xblk iblk0
  rw [View.read_apply]
  show V c main_v3 _ = V c main_v3 _
  congr 1
  funext a
  apply Fin.ext
  match a with
  | ⟨0, _⟩ => show win0_0.index t 0 * 256 + 1 * r.val = i.val; rw [e0]; omega
  | ⟨1, _⟩ => show win0_0.index t 1 * 1024 + 1 * k.val = j.val; rw [e1]; omega

/-- Four sums over 1024 consecutive columns each, added in order from zero, are the sum over all 4096 columns. -/
theorem sum_four (f : Fin 4096 → EReal) :
    ((((0 : EReal) + ∑ k : Fin 1024, f ⟨k.val, by omega⟩) + ∑ k : Fin 1024, f ⟨1024 + k.val, by omega⟩)
      + ∑ k : Fin 1024, f ⟨2048 + k.val, by omega⟩) + ∑ k : Fin 1024, f ⟨3072 + k.val, by omega⟩ = ∑ j : Fin 4096, f j := by
  rw [zero_add]
  refine Eq.symm ((Fin.sum_univ_add (a := 3072) (b := 1024) f).trans ?_)
  refine congrArg₂ (· + ·) ?_ rfl
  refine (Fin.sum_univ_add (a := 2048) (b := 1024) (fun k : Fin 3072 => f (Fin.castAdd 1024 k))).trans ?_
  refine congrArg₂ (· + ·) ?_ rfl
  exact Fin.sum_univ_add (a := 1024) (b := 1024) (fun k : Fin 2048 => f (Fin.castAdd 1024 (Fin.castAdd 1024 k)))

/-- Row `i` of the array: the guarded inverse square root of its sum over all 4096 columns plus one. -/
def rinv (c : Dev nD) (i : Fin 4096) : EReal :=
  Cert.Spec.guard ((∑ j : Fin 4096, inArr0 V c (ix2 i j)) + Cert.Spec.one)

/-- What the result block holds after the last point of a strip, at row `r`: `rinv` of the array's row
    256 · strip + `r`. -/
theorem strip_value (c : Dev nD) (t : Fin cfg0.N) (h3 : t.val % 4 = 3) (r : Fin 256) (i : Fin 4096)
    (hi : i.val = 256 * (t.val / 4) + r.val) :
    outsAt0 V c t.val t.isLt (ix2 r (0 : Fin 1)) = rinv V c i := by
  have hN : cfg0.N = 64 := N_0
  obtain ⟨n, hn⟩ := t
  dsimp only at h3 hi ⊢
  obtain ⟨b, rfl⟩ : ∃ b, n = b + 1 + 1 + 1 := ⟨n - 3, by omega⟩
  have hb : b % 4 = 0 := by omega
  rw [strip V c b hb hn r]
  unfold rinv
  refine congrArg (fun s => Cert.Spec.guard (s + Cert.Spec.one)) ?_
  rw [Cert.Spec.zero_eq]
  refine Eq.trans ?_ (sum_four (fun j => inArr0 V c (ix2 i j)))
  refine congrArg₂ (· + ·) (congrArg₂ (· + ·) (congrArg₂ (· + ·) (congrArg (fun s => (0 : EReal) + s) ?_) ?_) ?_) ?_
  · exact Finset.sum_congr rfl fun k _ => blk_read V c ⟨b, by omega⟩ r k i ⟨k.val, by omega⟩
      (by dsimp only; omega) (by dsimp only; omega)
  · exact Finset.sum_congr rfl fun k _ => blk_read V c ⟨b + 1, by omega⟩ r k i ⟨1024 + k.val, by omega⟩
      (by dsimp only; omega) (by dsimp only; omega)
  · exact Finset.sum_congr rfl fun k _ => blk_read V c ⟨b + 1 + 1, by omega⟩ r k i ⟨2048 + k.val, by omega⟩
      (by dsimp only; omega) (by dsimp only; omega)
  · exact Finset.sum_congr rfl fun k _ => blk_read V c ⟨b + 1 + 1 + 1, hn⟩ r k i ⟨3072 + k.val, by omega⟩
      (by dsimp only; omega) (by dsimp only; omega)

end Blocks

section Array

/-- The result array as one function of its index: entry (i, 0) is `rinv` of row `i`. -/
abbrev rinvArr (c : Dev nD) : S4096x1.Idx → EReal := fun y => rinv V c ⟨(y 0).val, idx2_lt0 y⟩

/-- What a point that writes the block back writes is the block of `rinvArr` at its place in the array. -/
theorem flushed_eq (c : Dev nD) (t : Fin cfg0.N) (hf : (cfg0.win 1).flush t = true) :
    (dat0 V c).flushed 1 t = ((cfg0.win 1).blk t).view.read (Elt Ideal) (rinvArr V c) := by
  have h3 : t.val % 4 = 3 := (flush0_1 t).mp hf
  obtain ⟨-, -, e0, e1⟩ := idx_facts t
  show (cfg0.win 1).cut (grid0.coords t) ((dat0 V c).after 1 t) = _
  rw [after0_1]
  funext y
  have hy : (y : S256x1.Idx) = ix2 (⟨(y 0).val, idx2_lt0 (n0 := 256) (n1 := 1) y⟩ : Fin 256) (0 : Fin 1) :=
    funext fun a => Fin.ext (by
      match a with
      | ⟨0, _⟩ => rfl
      | ⟨1, _⟩ => have := idx2_lt1 (n0 := 256) (n1 := 1) y; show (y 1).val = 0; omega)
  show outsAt0 V c t.val t.isLt y = rinvArr V c (((cfg0.win 1).blk t).view.emb y)
  refine (congrArg (outsAt0 V c t.val t.isLt) hy).trans ?_
  refine strip_value V c t h3 _ _ ?_
  show win0_1.index t 0 * 256 + 1 * (y 0).val = 256 * (t.val / 4) + (y 0).val
  rw [e0]; omega

/-- An index of the result array is in point `t`'s block iff each coordinate is in the block's range on its axis. -/
theorem mem_blk (t : Fin cfg0.N) (i : S4096x1.Idx) :
    i ∈ ((cfg0.win 1).blk t).view.set ↔ ∀ a : Fin 2, win0_1.index t a * S256x1.size a ≤ (i a).val
      ∧ (i a).val < win0_1.index t a * S256x1.size a + S256x1.size a := by
  show i ∈ ((View.whole main_v4).slice (win0_1.rect t)).set ↔ _
  rw [View.set_slice_whole, Rect.mem_set_unit]
  exact Iff.rfl

/-- Row `i` of the result array lies in the block written back at the last point of its strip. -/
theorem cover (i : S4096x1.Idx) :
    ∃ t : Fin cfg0.N, (cfg0.win 1).flush t = true ∧ i ∈ ((cfg0.win 1).blk t).view.set := by
  have hN : cfg0.N = 64 := N_0
  have hi0 : (i 0).val < 4096 := idx2_lt0 i
  have hi1 : (i 1).val < 1 := idx2_lt1 i
  obtain ⟨t, ht⟩ : ∃ t : Fin cfg0.N, t.val = 4 * ((i 0).val / 256) + 3 := ⟨⟨4 * ((i 0).val / 256) + 3, by omega⟩, rfl⟩
  obtain ⟨-, -, e0, e1⟩ := idx_facts t
  refine ⟨t, (flush0_1 t).mpr (by omega), ?_⟩
  rw [mem_blk]
  intro a
  match a with
  | ⟨0, _⟩ =>
    show win0_1.index t 0 * 256 ≤ (i 0).val ∧ (i 0).val < win0_1.index t 0 * 256 + 256
    rw [e0]; omega
  | ⟨1, _⟩ =>
    show win0_1.index t 1 * 1 ≤ (i 1).val ∧ (i 1).val < win0_1.index t 1 * 1 + 1
    rw [e1]; omega

/-- So after the last point the result array is `rinvArr`. -/
theorem final (c : Dev nD) : (dat0 V c).arrAt 1 cfg0.N = rinvArr V c :=
  (dat0 V c).arrAt_eq_of_cover 1 (rinvArr V c) (flushed_eq V c) cover

end Array

end Rinv

/-- After the first kernel's last point its result array holds, at row `i`, the guarded inverse square root of that row's
    sum (over all 4096 columns of the array it read) plus one. -/
theorem rinv_value (c : Dev nD) (i : Fin 4096) :
    ((GenP.dat0 (F := Ideal) V c).arrAt 1 cfg0.N : S4096x1.Idx → EReal) (ix2 i (0 : Fin 1))
      = Cert.Spec.guard ((∑ j : Fin 4096, inArr0 V c (ix2 i j)) + Cert.Spec.one) :=
  congrFun (Rinv.final V c) (ix2 i (0 : Fin 1))

end Cert.ReferenceIdeal.RefValue
end
-- ==== Proof.RefVal1.lean ====
/-
  What the reference's second kernel leaves in the result: entry `(p, q)` is the row scale at `p`, times the matrix entry
  with one added on the diagonal (a selected one or zero), times the column scale at `q`.

  The kernel walks the array in blocks of 256 rows by 1024 columns; each point reads its block of the matrix, the 256
  row scales of its row strip and the 1024 column scales of its column strip, and writes its block of the result whole;
  the blocks tile the result, so the array after the last point is that one function of the three arrays it read.
  A point's block knows where it is through the grid position: the diagonal test compares (row in block + 256 × block
  row) with (column in block + 1024 × block column) as 32-bit words, which for these sizes is the comparison of the
  array coordinates themselves.
-/
import proofs.«104055_g2000603544188606_pallasbulk_177_3_alg».proof.Proof.RefFrame
import proofs.«104055_g2000603544188606_pallasbulk_177_3_alg».proof.Proof.Spec
import Idealize.ShloMosaic.Lib.ValueIdx
import Idealize.ShloMosaic.Lib.ValueLayout
import Idealize.ShloMosaic.Lib.Pipeline.Value

set_option maxRecDepth 16384

noncomputable section

open scoped BigOperators

namespace Cert.ReferenceIdeal.RefValue

open Cert.ReferenceIdeal Cert.ReferenceIdeal.Gen Cert.ReferenceIdeal.GenP
open Idealize.ShloMosaic Idealize.ShloMosaic.TcCoe Idealize.ShloMosaic.ValueIdx Idealize.SL.Sem

variable (V : (c : Dev nD) → (b : Ref sig .tc) → Buf (Elt Ideal) ((c : Thread nD τ).loc b))

/-- The matrix the second kernel reads (window 0), as a plain function of the index. -/
abbrev matArr (c : Dev nD) : S4096x4096.Idx → EReal := V c main_v3
/-- The row scales it reads (window 1). -/
abbrev rowScale (c : Dev nD) : S4096x1.Idx → EReal := V c main_v4
/-- The column scales it reads (window 2). -/
abbrev colScale (c : Dev nD) : S1x4096.Idx → EReal := V c main_v5

namespace Scale

/-- The two block-local zero offsets are the zero function. -/
theorem hz : (![0, 0] : Fin 2 → Nat) = fun _ => 0 := funext fun a => by fin_cases a <;> rfl

/-- The diagonal test on words: no wrap for these sizes. -/
theorem diag_word (bi bj r s : Nat) (hbi : bi < 16) (hbj : bj < 4) (hr : r < 256) (hs : s < 1024) :
    IntOp.cmpi .eq (IntOp.addi (BitVec.ofNat 32 r) (Scalar.muli (BitVec.ofNat 32 bi) 256#32))
        (IntOp.addi (BitVec.ofNat 32 s) (Scalar.muli (BitVec.ofNat 32 bj) 1024#32))
      = if 256 * bi + r = 1024 * bj + s then 1#1 else 0#1 := by
  have e1 : (IntOp.addi (BitVec.ofNat 32 r) (Scalar.muli (BitVec.ofNat 32 bi) 256#32)).toNat = r + bi * 256 := by
    show (BitVec.ofNat 32 r + BitVec.ofNat 32 bi * 256#32).toNat = _
    rw [BitVec.toNat_add, BitVec.toNat_mul, BitVec.toNat_ofNat, BitVec.toNat_ofNat, BitVec.toNat_ofNat]
    omega
  have e2 : (IntOp.addi (BitVec.ofNat 32 s) (Scalar.muli (BitVec.ofNat 32 bj) 1024#32)).toNat = s + bj * 1024 := by
    show (BitVec.ofNat 32 s + BitVec.ofNat 32 bj * 1024#32).toNat = _
    rw [BitVec.toNat_add, BitVec.toNat_mul, BitVec.toNat_ofNat, BitVec.toNat_ofNat, BitVec.toNat_ofNat]
    omega
  generalize IntOp.addi (BitVec.ofNat 32 r) (Scalar.muli (BitVec.ofNat 32 bi) 256#32) = x at e1
  generalize IntOp.addi (BitVec.ofNat 32 s) (Scalar.muli (BitVec.ofNat 32 bj) 1024#32) = y at e2
  show BitVec.ofBool (x == y) = _
  by_cases h : 256 * bi + r = 1024 * bj + s
  · rw [if_pos h]
    have : x = y := BitVec.eq_of_toNat_eq (by rw [e1, e2]; omega)
    subst this; rw [beq_self_eq_true]; rfl
  · rw [if_neg h]
    have : ¬ x = y := fun e => h (by have := congrArg BitVec.toNat e; rw [e1, e2] at this; omega)
    rw [beq_eq_false_iff_ne.mpr this]; rfl

/-- A column `[a, 1]` broadcast along the rows' columns reads, at `(p, c)`, the column's entry `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The second kernel's block at an index: row scale × (entry + [global row = global column]) × column scale, the global
    coordinates being the block's position plus the position in the block. -/
theorem pay_apply (i : grid1.Coords) (x0 : Vec Ideal S256x1024 .f32) (x1 : Vec Ideal S256x1 .f32) (x2 : Vec Ideal S1x1024 .f32)
    (r : Fin 256) (s : Fin 1024) :
    (k1_pay1 (F := Ideal) i x0 x1 x2 : S256x1024.Idx → EReal) (ix2 r s)
      = (x1 (ix2 r (0 : Fin 1)) * (x0 (ix2 r s)
          + (if 256 * (i 0).val + r.val = 1024 * (i 1).val + s.val then Cert.Spec.one else Cert.Spec.zero)))
        * x2 (ix2 (0 : Fin 1) s) := by
  have hi0 : (i 0).val < 16 := (i 0).isLt
  have hi1 : (i 1).val < 4 := (i 1).isLt
  unfold k1_pay1
  show (broadcastTo S256x1024 (shapeCast S256x1 x1 _) _ (ix2 r s)
      * (shapeCast S256x1024 x0 _ (ix2 r s)
        + Scalar.select (IntOp.cmpi .eq
            (IntOp.addi (iota .tc S256x1024 32 [0] _ (ix2 r s)) (Scalar.muli (BitVec.ofNat 32 (i 0).val) 256#32))
            (IntOp.addi (iota .tc S256x1024 32 [1] _ (ix2 r s)) (Scalar.muli (BitVec.ofNat 32 (i 1).val) 1024#32)))
          Cert.Spec.one Cert.Spec.zero))
      * broadcastTo S256x1024 (shapeCast S1x1024 x2 _) _ (ix2 r s) = _
  rw [broadcastTo_a1_ab_apply, broadcastTo_1b_ab_apply, shapeCast_self, shapeCast_self, shapeCast_self,
    iota_single_apply, iota_single_apply]
  show (_ * (_ + Scalar.select (IntOp.cmpi .eq
            (IntOp.addi (BitVec.ofNat 32 r.val) (Scalar.muli (BitVec.ofNat 32 (i 0).val) 256#32))
            (IntOp.addi (BitVec.ofNat 32 s.val) (Scalar.muli (BitVec.ofNat 32 (i 1).val) 1024#32)))
          Cert.Spec.one Cert.Spec.zero)) * _ = _
  rw [diag_word (i 0).val (i 1).val r.val s.val hi0 hi1 r.isLt s.isLt]
  by_cases h : 256 * (i 0).val + r.val = 1024 * (i 1).val + s.val
  · rw [if_pos h, if_pos h, select_one]
  · rw [if_neg h, if_neg h, select_zero]

/-! ## From the blocks to the array -/

/-- The result at `(p, q)` as a function of the three arrays: (row scale `p`) × (entry + [p = q]) × (column scale `q`). -/
abbrev scaledAt (A : S4096x4096.Idx → EReal) (R : S4096x1.Idx → EReal) (C : S1x4096.Idx → EReal) (p q : Fin 4096) : EReal :=
  (R (ix2 p (0 : Fin 1)) * (A (ix2 p q) + (if p = q then Cert.Spec.one else Cert.Spec.zero))) * C (ix2 (0 : Fin 1) q)

/-- The whole result array as one function of the three arrays. -/
abbrev scaled (A : S4096x4096.Idx → EReal) (R : S4096x1.Idx → EReal) (C : S1x4096.Idx → EReal) : S4096x4096.Idx → EReal :=
  fun y => scaledAt A R C (y 0) (y 1)

/-- Where each window's block sits at point `t`: block row `t / 4`, block column `t % 4` for the matrix and the result,
    the row strip `t / 4` of the row scales, the column strip `t % 4` of the column scales; the grid position is the same
    pair. Decided once over the 64 points. -/
theorem idx_facts : ∀ t : Fin cfg1.N,
    win1_0.index t (0 : Fin 2) = t.val / 4 ∧ win1_0.index t (1 : Fin 2) = t.val % 4
    ∧ win1_1.index t (0 : Fin 2) = t.val / 4 ∧ win1_1.index t (1 : Fin 2) = 0
    ∧ win1_2.index t (0 : Fin 2) = 0 ∧ win1_2.index t (1 : Fin 2) = t.val % 4
    ∧ win1_3.index t (0 : Fin 2) = t.val / 4 ∧ win1_3.index t (1 : Fin 2) = t.val % 4
    ∧ (grid1.coords t (0 : Fin 2)).val = t.val / 4 ∧ (grid1.coords t (1 : Fin 2)).val = t.val % 4
    ∧ t.val < 64 :=
  (by decide +kernel : ∀ t : Fin grid1.N, _)

/-- Point `t`'s block of the matrix, read at `(r, s)`: the matrix at row `256 (t / 4) + r`, column `1024 (t % 4) + s`. -/
theorem blk0_read (c : Dev nD) (t : Fin cfg1.N) (r : Fin 256) (s : Fin 1024) (hp : 256 * (t.val / 4) + r.val < 4096)
    (hq : 1024 * (t.val % 4) + s.val < 4096) :
    (iblk1 (F := Ideal) V c 0 t : S256x1024.Idx → EReal) (ix2 r s)
      = matArr V c (ix2 (⟨256 * (t.val / 4) + r.val, hp⟩ : Fin 4096) (⟨1024 * (t.val % 4) + s.val, hq⟩ : Fin 4096)) := by
  obtain ⟨e00, e01, e10, e11, e20, e21, e30, e31, g0, g1, ht⟩ := idx_facts t
  show V c main_v3 (((cfg1.win 0).blk t).view.emb (ix2 r s)) = V c main_v3 _
  refine congrArg (V c main_v3) (funext fun a => Fin.ext ?_)
  match a with
  | ⟨0, _⟩ => show win1_0.index t (0 : Fin 2) * 256 + 1 * r.val = 256 * (t.val / 4) + r.val; omega
  | ⟨1, _⟩ => show win1_0.index t (1 : Fin 2) * 1024 + 1 * s.val = 1024 * (t.val % 4) + s.val; omega

/-- Point `t`'s strip of the row scales, read at `r`: the row scale of row `256 (t / 4) + r`. -/
theorem blk1_read (c : Dev nD) (t : Fin cfg1.N) (r : Fin 256) (hp : 256 * (t.val / 4) + r.val < 4096) :
    (iblk1 (F := Ideal) V c 1 t : S256x1.Idx → EReal) (ix2 r (0 : Fin 1))
      = rowScale V c (ix2 (⟨256 * (t.val / 4) + r.val, hp⟩ : Fin 4096) (0 : Fin 1)) := by
  obtain ⟨e00, e01, e10, e11, e20, e21, e30, e31, g0, g1, ht⟩ := idx_facts t
  show V c main_v4 (((cfg1.win 1).blk t).view.emb (ix2 r (0 : Fin 1))) = V c main_v4 _
  refine congrArg (V c main_v4) (funext fun a => Fin.ext ?_)
  match a with
  | ⟨0, _⟩ => show win1_1.index t (0 : Fin 2) * 256 + 1 * r.val = 256 * (t.val / 4) + r.val; omega
  | ⟨1, _⟩ => show win1_1.index t (1 : Fin 2) * 1 + 1 * 0 = 0; omega

/-- Point `t`'s strip of the column scales, read at `s`: the column scale of column `1024 (t % 4) + s`. -/
theorem blk2_read (c : Dev nD) (t : Fin cfg1.N) (s : Fin 1024) (hq : 1024 * (t.val % 4) + s.val < 4096) :
    (iblk1 (F := Ideal) V c 2 t : S1x1024.Idx → EReal) (ix2 (0 : Fin 1) s)
      = colScale V c (ix2 (0 : Fin 1) (⟨1024 * (t.val % 4) + s.val, hq⟩ : Fin 4096)) := by
  obtain ⟨e00, e01, e10, e11, e20, e21, e30, e31, g0, g1, ht⟩ := idx_facts t
  show V c main_v5 (((cfg1.win 2).blk t).view.emb (ix2 (0 : Fin 1) s)) = V c main_v5 _
  refine congrArg (V c main_v5) (funext fun a => Fin.ext ?_)
  match a with
  | ⟨0, _⟩ => show win1_2.index t (0 : Fin 2) * 1 + 1 * 0 = 0; omega
  | ⟨1, _⟩ => show win1_2.index t (1 : Fin 2) * 1024 + 1 * s.val = 1024 * (t.val % 4) + s.val; omega

/-- Point `t`'s block of any whole-array function, read at `(r, s)`. -/
theorem blk3_read (G : S4096x4096.Idx → EReal) (t : Fin cfg1.N) (r : Fin 256) (s : Fin 1024)
    (hp : 256 * (t.val / 4) + r.val < 4096) (hq : 1024 * (t.val % 4) + s.val < 4096) :
    (((cfg1.win 3).blk t).view.read (Elt Ideal) G : S256x1024.Idx → EReal) (ix2 r s)
      = G (ix2 (⟨256 * (t.val / 4) + r.val, hp⟩ : Fin 4096) (⟨1024 * (t.val % 4) + s.val, hq⟩ : Fin 4096)) := by
  obtain ⟨e00, e01, e10, e11, e20, e21, e30, e31, g0, g1, ht⟩ := idx_facts t
  show G (((cfg1.win 3).blk t).view.emb (ix2 r s)) = G _
  refine congrArg G (funext fun a => Fin.ext ?_)
  match a with
  | ⟨0, _⟩ => show win1_3.index t (0 : Fin 2) * 256 + 1 * r.val = 256 * (t.val / 4) + r.val; omega
  | ⟨1, _⟩ => show win1_3.index t (1 : Fin 2) * 1024 + 1 * s.val = 1024 * (t.val % 4) + s.val; omega

/-- The block at an index with each operand's read, and the diagonal test, named. -/
theorem pay_apply_named (i : grid1.Coords) (x0 : Vec Ideal S256x1024 .f32) (x1 : Vec Ideal S256x1 .f32) (x2 : Vec Ideal S1x1024 .f32)
    (r : Fin 256) (s : Fin 1024) (a b d : EReal) (P : Prop) [Decidable P]
    (h0 : x0 (ix2 r s) = a) (h1 : x1 (ix2 r (0 : Fin 1)) = b) (h2 : x2 (ix2 (0 : Fin 1) s) = d)
    (hP : 256 * (i 0).val + r.val = 1024 * (i 1).val + s.val ↔ P) :
    (k1_pay1 (F := Ideal) i x0 x1 x2 : S256x1024.Idx → EReal) (ix2 r s)
      = (b * (a + (if P then Cert.Spec.one else Cert.Spec.zero))) * d := by
  rw [pay_apply, h0, h1, h2]
  exact congrArg (fun z => (b * (a + z)) * d) (if_congr hP rfl rfl)

/-- The whole-array function read at coordinates. -/
theorem scaled_ix2 (A : S4096x4096.Idx → EReal) (R : S4096x1.Idx → EReal) (C : S1x4096.Idx → EReal) (p q : Fin 4096) :
    scaled A R C (ix2 p q) = scaledAt A R C p q := rfl

/-- What point `t` writes back is its block of the one whole-array function of the three arrays the region was handed. -/
theorem flushed_eq (c : Dev nD) (t : Fin cfg1.N) :
    (dat1 (F := Ideal) V c).flushed 3 t
      = ((cfg1.win 3).blk t).view.read (Elt Ideal) (scaled (matArr V c) (rowScale V c) (colScale V c)) := by
  show (cfg1.win 3).cut (grid1.coords t) ((dat1 (F := Ideal) V c).after 3 t) = _
  rw [after1_3]
  unfold out1_3
  rw [View.canon_unit_zero hz]
  simp only [View.ld_unit_zero (S := S256x1024) hz, View.ld_unit_zero (S := S256x1) hz, View.ld_unit_zero (S := S1x1024) hz]
  obtain ⟨e00, e01, e10, e11, e20, e21, e30, e31, g0, g1, ht⟩ := idx_facts t
  funext j
  obtain ⟨r, s, rfl⟩ : ∃ (r : Fin 256) (s : Fin 1024), j = ix2 r s := ⟨j 0, j 1, eq_ix2 j⟩
  have hp : 256 * (t.val / 4) + r.val < 4096 := by have := r.isLt; omega
  have hq : 1024 * (t.val % 4) + s.val < 4096 := by have := s.isLt; omega
  refine (pay_apply_named (grid1.coords t) (iblk1 V c 0 t) (iblk1 V c 1 t) (iblk1 V c 2 t) r s _ _ _
    ((⟨256 * (t.val / 4) + r.val, hp⟩ : Fin 4096) = (⟨1024 * (t.val % 4) + s.val, hq⟩ : Fin 4096))
    (blk0_read V c t r s hp hq) (blk1_read V c t r hp) (blk2_read V c t s hq) ?_).trans ?_
  · rw [Fin.ext_iff]
    show 256 * (grid1.coords t (0 : Fin 2)).val + r.val = 1024 * (grid1.coords t (1 : Fin 2)).val + s.val
      ↔ 256 * (t.val / 4) + r.val = 1024 * (t.val % 4) + s.val
    rw [g0, g1]
  · exact ((blk3_read _ t r s hp hq).trans (scaled_ix2 _ _ _ _ _)).symm

/-- An index of the array is in point `t`'s block iff each coordinate is in the block's range on its axis. -/
theorem mem_blk (t : Fin cfg1.N) (i : S4096x4096.Idx) :
    i ∈ ((cfg1.win 3).blk t).view.set ↔ ∀ a : Fin 2, win1_3.index t a * S256x1024.size a ≤ (i a).val
      ∧ (i a).val < win1_3.index t a * S256x1024.size a + S256x1024.size a := by
  show i ∈ ((View.whole main_v6).slice (win1_3.rect t)).set ↔ _
  rw [View.set_slice_whole, Rect.mem_set_unit]
  exact Iff.rfl

/-- The blocks tile the array: `(p, q)` is in the block of the point at block row `p / 256`, block column `q / 1024`. -/
theorem cover (i : S4096x4096.Idx) :
    ∃ t : Fin cfg1.N, (cfg1.win 3).flush t = true ∧ i ∈ ((cfg1.win 3).blk t).view.set := by
  obtain ⟨p, q, rfl⟩ : ∃ (p q : Fin 4096), i = ix2 p q := ⟨i 0, i 1, eq_ix2 i⟩
  have hp := p.isLt
  have hq := q.isLt
  have hlt : 4 * (p.val / 256) + q.val / 1024 < cfg1.N := by
    show _ < grid1.N
    rw [N_1]; omega
  obtain ⟨e00, e01, e10, e11, e20, e21, e30, e31, g0, g1, ht⟩ := idx_facts ⟨_, hlt⟩
  have e30' : win1_3.index ⟨_, hlt⟩ (0 : Fin 2) = (4 * (p.val / 256) + q.val / 1024) / 4 := e30
  have e31' : win1_3.index ⟨_, hlt⟩ (1 : Fin 2) = (4 * (p.val / 256) + q.val / 1024) % 4 := e31
  refine ⟨⟨_, hlt⟩, flush1_3 _, ?_⟩
  rw [mem_blk]
  intro a
  match a with
  | ⟨0, _⟩ =>
    show win1_3.index ⟨_, hlt⟩ (0 : Fin 2) * 256 ≤ p.val ∧ p.val < win1_3.index ⟨_, hlt⟩ (0 : Fin 2) * 256 + 256
    rw [e30']; omega
  | ⟨1, _⟩ =>
    show win1_3.index ⟨_, hlt⟩ (1 : Fin 2) * 1024 ≤ q.val ∧ q.val < win1_3.index ⟨_, hlt⟩ (1 : Fin 2) * 1024 + 1024
    rw [e31']; omega

end Scale

/-- After the second kernel's last point its result array holds, at `(p, q)`, (row scale `p`) × (entry + [p = q]) × (column
    scale `q`), read off the three arrays the kernel was handed. -/
theorem scale_value (c : Dev nD) (p q : Fin 4096) :
    ((GenP.dat1 (F := Ideal) V c).arrAt 3 cfg1.N : S4096x4096.Idx → EReal) (ix2 p q)
      = (rowScale V c (ix2 p (0 : Fin 1))
          * (matArr V c (ix2 p q) + (if p = q then Cert.Spec.one else Cert.Spec.zero)))
        * colScale V c (ix2 (0 : Fin 1) q) := by
  have h := (GenP.dat1 (F := Ideal) V c).arrAt_eq_of_cover 3 (Scale.scaled (matArr V c) (rowScale V c) (colScale V c))
    (fun t _ => Scale.flushed_eq V c t) Scale.cover
  exact (congrFun h (ix2 p q)).trans (Scale.scaled_ix2 _ _ _ p q)

end Cert.ReferenceIdeal.RefValue

end
-- ==== Proof.RefValue.lean ====
/-
  The reference's run with its result as ONE function of the argument: `GR` of the argument array.

  Between the launch and the return the reference does four things.  Host operations build the symmetrised matrix
  `h * (a + aᵀ)` (a transpose, an add, a multiplication by the broadcast literal).  The first kernel turns it into the
  column of guarded inverse square roots of its row sums plus one (`rinv_value`).  One host reshape lays that column out
  as a row.  The second kernel scales the matrix, with one added on the diagonal, by the column entry of its row and the
  row entry of its column (`scale_value`).  Reading each stage at an index and composing gives `Cert.Spec.gR` entry by entry.
-/
import proofs.«104055_g2000603544188606_pallasbulk_177_3_alg».proof.Proof.RefRun
import proofs.«104055_g2000603544188606_pallasbulk_177_3_alg».proof.Proof.RefVal0
import proofs.«104055_g2000603544188606_pallasbulk_177_3_alg».proof.Proof.RefVal1
import Idealize.ShloMosaic.Lib.StableHlo.Run

set_option maxRecDepth 16384

noncomputable section

open scoped BigOperators

namespace Cert.ReferenceIdeal.RefValue

open Cert.ReferenceIdeal Cert.ReferenceIdeal.Gen Cert.ReferenceIdeal.GenP
open Idealize.ShloMosaic Idealize.ShloMosaic.TcCoe Idealize.ShloMosaic.ValueIdx Idealize.SL.Sem

variable (m : (ℓ : Loc nD τ sig) → Buf (Elt Ideal) ℓ) (ρ : Dev nD → PrngReg)

/-- The argument array on core `c`, as a plain function of the index. -/
abbrev argArr (c : Dev nD) : Cert.Spec.S.Idx → EReal := m ((c.tc : Thread nD τ).loc main_arg0)

/-- The result array at the last boundary of the run, as a plain function of the index. -/
abbrev resArr (c : Dev nD) : Cert.Spec.S.Idx → EReal := GenP.W4 (F := Ideal) m ρ c (Proc.devRef .tc main_v6)

/-- The symmetrised matrix the host operations leave before the first kernel, as a plain function of the index. -/
abbrev symArr (c : Dev nD) : S4096x4096.Idx → EReal := GenP.V1 (F := Ideal) m ρ c main_v3

/-- The host operations' term for the symmetrised matrix. -/
theorem symArr_eq (c : Dev nD) :
    symArr m ρ c = mulf (broadcastInDim S4096x4096 ![] bcast_S_S4096x4096 (constant (F := Ideal) S_ .f32 0x3F000000#32))
      (addf (argArr m c) (transpose S4096x4096 [1, 0] (argArr m c) transposes_S4096x4096_S4096x4096_1_0)) := by
  dsimp only [symArr, GenP.V1, GenP.W1, Gen.hostOps0]
  after_results

/-- The symmetrised matrix at an index: half of (the entry plus the mirrored entry). -/
theorem symArr_apply (c : Dev nD) (i j : Fin 4096) :
    symArr m ρ c (ix2 i j) = Cert.Spec.sym (Cert.Spec.mat (argArr m c)) i j := by
  rw [symArr_eq, mulf_apply, addf_apply, transpose_ix2_apply]
  rfl

/-- The second kernel reads the same symmetrised matrix: the first kernel only reads it and the reshape does not write it. -/
theorem mat3_eq (c : Dev nD) : matArr (GenP.V3 (F := Ideal) m ρ) c = symArr m ρ c := by
  dsimp only [matArr, symArr, GenP.V3, GenP.W3, Gen.hostOps1]
  after_results
  exact (GenP.W2_arr m ρ c 0).trans (((GenP.dat0 (F := Ideal) (GenP.V1 m ρ) c).arrAt_in 0 rfl _).trans
    (GenP.A_eq0 (GenP.V1 m ρ) c 0))

/-- The row scales the second kernel reads are the first kernel's result column. -/
theorem row3_eq (c : Dev nD) :
    rowScale (GenP.V3 (F := Ideal) m ρ) c = ((GenP.dat0 (F := Ideal) (GenP.V1 m ρ) c).arrAt 1 cfg0.N : S4096x1.Idx → EReal) := by
  dsimp only [rowScale, GenP.V3, GenP.W3, Gen.hostOps1]
  after_results
  exact GenP.W2_arr m ρ c 1

/-- The column scales the second kernel reads are the reshape of the first kernel's result column. -/
theorem col3_eq (c : Dev nD) :
    colScale (GenP.V3 (F := Ideal) m ρ) c
      = shapeCast S1x4096 ((GenP.dat0 (F := Ideal) (GenP.V1 m ρ) c).arrAt 1 cfg0.N : S4096x1.Idx → EReal) shapeCasts_S4096x1_S1x4096 := by
  dsimp only [colScale, GenP.V3, GenP.W3, Gen.hostOps1]
  after_results
  exact congrArg (fun x : S4096x1.Idx → EReal => shapeCast S1x4096 x shapeCasts_S4096x1_S1x4096) (GenP.W2_arr m ρ c 1)

/-- The reshaped column read at `(0, q)` is the column at `(q, 0)`: both sit at row-major position `q`. -/
theorem reshape_apply (x : S4096x1.Idx → EReal) (q : Fin 4096) :
    shapeCast S1x4096 x shapeCasts_S4096x1_S1x4096 (ix2 (0 : Fin 1) q) = x (ix2 q (0 : Fin 1)) := by
  refine shapeCast_apply x _ _ _ ?_
  rw [Shape.rowMajor_val_two, Shape.rowMajor_val_two]
  show q.val * 1 + (0 : Fin 1).val = (0 : Fin 1).val * 4096 + q.val
  simp

/-- The first kernel's result column at row `p`: the guarded inverse square root of the reference's row sum. -/
theorem rinv_apply (c : Dev nD) (p : Fin 4096) :
    ((GenP.dat0 (F := Ideal) (GenP.V1 m ρ) c).arrAt 1 cfg0.N : S4096x1.Idx → EReal) (ix2 p (0 : Fin 1))
      = Cert.Spec.guard (Cert.Spec.sR (Cert.Spec.mat (argArr m c)) p) := by
  rw [rinv_value (GenP.V1 m ρ) c p]
  have hs : (∑ j : Fin 4096, inArr0 (GenP.V1 (F := Ideal) m ρ) c (ix2 p j))
      = ∑ j : Fin 4096, Cert.Spec.sym (Cert.Spec.mat (argArr m c)) p j :=
    Finset.sum_congr rfl fun j _ => symArr_apply m ρ c p j
  rw [hs]
  rfl

/-- The result the run leaves is the reference's function of the argument. -/
theorem result_eq (c : Dev nD) : resArr m ρ c = Cert.Spec.GR (argArr m c) := by
  funext y
  obtain ⟨p, q, rfl⟩ : ∃ p q, y = ix2 p q := ⟨y 0, y 1, eq_ix2 y⟩
  rw [Cert.Spec.GR_ix2]
  have h4 : resArr m ρ c = ((GenP.dat1 (F := Ideal) (GenP.V3 m ρ) c).arrAt 3 cfg1.N : S4096x4096.Idx → EReal) :=
    GenP.W4_arr m ρ c 3
  rw [h4, scale_value (GenP.V3 m ρ) c p q, mat3_eq, row3_eq, col3_eq, reshape_apply, rinv_apply, rinv_apply,
    symArr_apply]
  rfl

/-- Every weakly fair execution of the reference ends with its result at `GR` of the argument, the argument unchanged. -/
theorem run : θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v6) = Cert.Spec.GR (argArr m c)
      ∧ r.2.mem ((c.tc : Thread nD τ).loc main_arg0) = m ((c.tc : Thread nD τ).loc main_arg0)) :=
  (θ_run _ _ _).mono (fun r h c => ⟨(h c).1.trans (result_eq m ρ c), (h c).2⟩) (GenP.run_main (F := Ideal) m ρ)

end Cert.ReferenceIdeal.RefValue

end
-- ==== Proof.PreRead.lean ====
/-
  The precondition read: `finite_inputs` holding of the argument array says every entry is a real number.

  The printed predicate compares `|x|` with the literal `+∞` entry by entry (an ordered `<`) and folds the answers with
  `and` from `true`.  If the fold is `true` every comparison held; and an extended real whose absolute value is below
  `+∞` is neither infinity, so it is the coercion of a real.
-/
import proofs.«104055_g2000603544188606_pallasbulk_177_3_alg».proof.Pre_finite_inputs
import proofs.«104055_g2000603544188606_pallasbulk_177_3_alg».proof.Proof.Spec
import Idealize.ShloMosaic.Lib.ReduceAll
import Idealize.ShloMosaic.Lib.ValueIdx

noncomputable section

namespace Cert.PreRead

open Idealize.ShloMosaic Idealize.ShloMosaic.ValueIdx

variable [Cert.Pre_finite_inputs.Facts]

/-- The scalar shape has exactly one index. -/
instance : Subsingleton Cert.Pre_finite_inputs.S_.Idx := ⟨fun a b => funext fun d => d.elim0⟩

/-- The literal the predicate compares against denotes `+∞`. -/
theorem inf_eq : Ideal.ofBits .f32 0x7F800000#32 = (⊤ : EReal) := by
  simp [Ideal.ofBits, Ideal.ieee]

/-- A truth value whose one-bit word is 1 is true. -/
theorem true_of_ofBool {b : Bool} (h : BitVec.ofBool b = 1#1) : b = true := by
  revert h; cases b <;> decide

/-- An extended real whose absolute value is strictly below `+∞` is a real number: both infinities have absolute
    value `+∞`. -/
theorem real_of_abs_lt_top (x : EReal) (hx : max x (-x) < ⊤) : ∃ r : ℝ, x = (r : EReal) := by
  induction x using EReal.rec with
  | bot => simp at hx
  | coe r => exact ⟨r, rfl⟩
  | top => simp at hx

/-- Where the printed precondition holds of an array, every entry of the array is a real number. -/
theorem finite_of_pre (A : FVec Ideal Cert.Pre_finite_inputs.S4096x4096 .f32)
    (h : Cert.Pre_finite_inputs.fn (F := Ideal) A = fun _ => 1#1) : Cert.Spec.Finite A := by
  intro y
  have h0 := congrFun h ValueIdx.ix0
  dsimp only [Cert.Pre_finite_inputs.fn] at h0
  have hy := Host.reduce_andi_all _ _ _ _ _ h0 y
  have hc : Ideal.cmp .olt (max (A y) (-(A y))) (Ideal.ofBits .f32 0x7F800000#32) = 1#1 := hy
  rw [inf_eq] at hc
  have hd : decide (max (A y) (-(A y)) < ⊤) = true := true_of_ofBool hc
  exact real_of_abs_lt_top (A y) (of_decide_eq_true hd)

end Cert.PreRead

end
-- ==== Proof.lean ====
/-
  The certificate's claim, assembled.

  Both programs return the symmetrised input `h * (a + aᵀ)` with a unit diagonal, scaled on both sides by the guarded
  inverse square root of its row sums.  The kernel gets the row sums without building the symmetrised matrix — half of
  (row sums + column sums of `a`), plus one — and puts the unit on the diagonal by a selection; the reference sums the
  symmetrised rows and adds a selected one or zero.  Each program's run ends with its result at its own whole-array
  function of the argument (`Cert.Spec.GK`, `Cert.Spec.GR`), the argument unchanged; that is each frame, and on finite
  inputs — the precondition — the two functions are one (`Cert.Spec.GR_eq_GK`: a constant factor moves across a finite
  sum of reals, and adding the literal zero changes nothing).  The idealized kernel is the kernel's own text read over
  the extended reals (no rewrite was applied), so the preservation claim is trivial.
-/
import proofs.«104055_g2000603544188606_pallasbulk_177_3_alg».proof.Defs
import proofs.«104055_g2000603544188606_pallasbulk_177_3_alg».proof.Proof.Gen.Kernel
import proofs.«104055_g2000603544188606_pallasbulk_177_3_alg».proof.Proof.Gen.KernelIdeal
import proofs.«104055_g2000603544188606_pallasbulk_177_3_alg».proof.Proof.Gen.ReferenceIdeal
import proofs.«104055_g2000603544188606_pallasbulk_177_3_alg».proof.Proof.Gen.Pre_finite_inputs
import proofs.«104055_g2000603544188606_pallasbulk_177_3_alg».proof.Proof.KBRun
import proofs.«104055_g2000603544188606_pallasbulk_177_3_alg».proof.Proof.KIValue
import proofs.«104055_g2000603544188606_pallasbulk_177_3_alg».proof.Proof.RefValue
import proofs.«104055_g2000603544188606_pallasbulk_177_3_alg».proof.Proof.PreRead
import Idealize.ShloMosaic.Adequacy
import Idealize.ShloMosaic.Init

noncomputable section

namespace Cert.Proof

open Idealize.ShloMosaic Idealize.SL.Sem

/-- The word-level kernel runs and leaves its argument as launched. -/
theorem frame_kernel : Cert.frame_Kernel := fun m ρ _ => Cert.Kernel.KF.frame m ρ

/-- So does the kernel read over the extended reals. -/
theorem frame_kernelIdeal : Cert.frame_KernelIdeal := fun m ρ _ => Cert.KernelIdeal.KF.frame m ρ

/-- So does the reference. -/
theorem frame_referenceIdeal : Cert.frame_ReferenceIdeal := fun m ρ _ => Cert.ReferenceIdeal.GenP.frame m ρ

/-- No rewrite was applied in printing the idealized kernel: nothing to preserve. -/
theorem preserves : Cert.preserves_Kernel_KernelIdeal := trivial

/-- From memories agreeing on the argument, under the precondition, both idealized programs run, the kernel's result is
    `GK` of the argument and the reference's is `GR` of it; the precondition makes the argument finite, where `GR = GK`. -/
theorem algebraic : Cert.algebraic_KernelIdeal_ReferenceIdeal := by
  intro m ρ m' ρ' hpre hagree
  refine ⟨fun c => Cert.Spec.GK (Cert.KernelIdeal.KValue.argArr m c), Cert.KernelIdeal.KValue.run m ρ, ?_⟩
  refine (θ_run (Cert.ReferenceIdeal.defs (F := Ideal)) _ _).mono (fun r h c => ⟨(h c).1.trans ?_, (h c).2⟩)
    (Cert.ReferenceIdeal.RefValue.run m' ρ')
  have hA : Cert.ReferenceIdeal.RefValue.argArr m' c = Cert.KernelIdeal.KValue.argArr m c := hagree c
  rw [hA]
  exact Cert.Spec.GR_eq_GK _ (Cert.PreRead.finite_of_pre _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
